-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x256 : Shape := ⟨3, ![8, 8192, 256]⟩
abbrev S1536x256 : Shape := ⟨2, ![1536, 256]⟩
abbrev S256x512 : Shape := ⟨2, ![256, 512]⟩
abbrev S256 : Shape := ⟨1, ![256]⟩
abbrev S_ : Shape := ⟨0, ![]⟩

class Facts : Prop where
  bcast_S_S8x8192x256 : S_.BroadcastsInDim S8x8192x256 (![] : Fin 0 → Fin S8x8192x256.rank)
  reducesTo_S8x8192x256_S_d0_1_2 : S8x8192x256.ReducesTo [0, 1, 2] S_
  h_S_ : 0 < S_.numel
  bcast_S_S1536x256 : S_.BroadcastsInDim S1536x256 (![] : Fin 0 → Fin S1536x256.rank)
  reducesTo_S1536x256_S_d0_1 : S1536x256.ReducesTo [0, 1] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S8x8192x256 .f32) (main_arg1 : FVec F S1536x256 .f32) (main_arg2 : FVec F S256x512 .f32) (main_arg3 : FVec F S256 .f32) : IVec S_ 1 :=
  let main_v0 : FVec F S8x8192x256 .f32 := Host.absf main_arg0
  let main_cst : FVec F S_ .f32 := constant S_ .f32 0x7F800000#32
  let main_v1 : FVec F S8x8192x256 .f32 := broadcastInDim S8x8192x256 ![] bcast_S_S8x8192x256 main_cst
  let main_v2 : IVec S8x8192x256 1 := cmpf .olt main_v0 main_v1
  let main_c : IVec S_ 1 := constantI S_ 1 1#1
  let main_v3 : IVec S_ 1 := (fun x v => Host.reduce IntOp.andi x v reducesTo_S8x8192x256_S_d0_1_2 h_S_) main_v2 main_c
  let main_v4 : FVec F S1536x256 .f32 := Host.absf main_arg1
  let main_cst_0 : FVec F S_ .f32 := constant S_ .f32 0x7F800000#32
  let main_v5 : FVec F S1536x256 .f32 := broadcastInDim S1536x256 ![] bcast_S_S1536x256 main_cst_0
  let main_v6 : IVec S1536x256 1 := cmpf .olt main_v4 main_v5
  let main_c_1 : IVec S_ 1 := constantI S_ 1 1#1
  let main_v7 : IVec S_ 1 := (fun x v => Host.reduce IntOp.andi x v reducesTo_S1536x256_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S8x8192x256 : Shape := ⟨3, ![8, 8192, 256]⟩
abbrev S1536x256 : Shape := ⟨2, ![1536, 256]⟩
abbrev S256x512 : Shape := ⟨2, ![256, 512]⟩
abbrev S256 : Shape := ⟨1, ![256]⟩
abbrev S512x256 : Shape := ⟨2, ![512, 256]⟩
abbrev S8x8x64x64 : Shape := ⟨4, ![8, 8, 64, 64]⟩
abbrev S1x1024x256 : Shape := ⟨3, ![1, 1024, 256]⟩
abbrev S1x8x64x64 : Shape := ⟨4, ![1, 8, 64, 64]⟩
abbrev S8x64x64 : Shape := ⟨3, ![8, 64, 64]⟩
abbrev S1024x256 : Shape := ⟨2, ![1024, 256]⟩
abbrev S1024x512 : Shape := ⟨2, ![1024, 512]⟩
abbrev S1024x64 : Shape := ⟨2, ![1024, 64]⟩
abbrev S1024 : Shape := ⟨1, ![1024]⟩
abbrev S1024x1 : Shape := ⟨2, ![1024, 1]⟩
abbrev S64x64 : Shape := ⟨2, ![64, 64]⟩
abbrev S1x64x64 : Shape := ⟨3, ![1, 64, 64]⟩
abbrev S1x256 : Shape := ⟨2, ![1, 256]⟩

abbrev nBuf : Space → Nat
  | .hbm => 13
  | .vmem => 16
  | .smem => 0
  | _ => 0

abbrev bufTy : (tb : Table) → Fin (tcTables nBuf tb) → BufTy
  | .hbm, ⟨0, _⟩ => ⟨S8x8192x256, .f32⟩
  | .hbm, ⟨1, _⟩ => ⟨S1536x256, .f32⟩
  | .hbm, ⟨2, _⟩ => ⟨S256x512, .f32⟩
  | .hbm, ⟨3, _⟩ => ⟨S256, .f32⟩
  | .hbm, ⟨4, _⟩ => ⟨S512x256, .f32⟩
  | .hbm, ⟨5, _⟩ => ⟨S256x512, .f32⟩
  | .hbm, ⟨6, _⟩ => ⟨S512x256, .f32⟩
  | .hbm, ⟨7, _⟩ => ⟨S256x512, .f32⟩
  | .hbm, ⟨8, _⟩ => ⟨S512x256, .f32⟩
  | .hbm, ⟨9, _⟩ => ⟨S256x512, .f32⟩
  | .hbm, ⟨10, _⟩ => ⟨S512x256, .f32⟩
  | .hbm, ⟨11, _⟩ => ⟨S8x8x64x64, .f32⟩
  | .hbm, ⟨12, _⟩ => ⟨S8x8192x256, .f32⟩
  | .local _ .vmem, ⟨0, _⟩ => ⟨S1x1024x256, .f32⟩
  | .local _ .vmem, ⟨1, _⟩ => ⟨S1x1024x256, .f32⟩
  | .local _ .vmem, ⟨2, _⟩ => ⟨S256x512, .f32⟩
  | .local _ .vmem, ⟨3, _⟩ => ⟨S256x512, .f32⟩
  | .local _ .vmem, ⟨4, _⟩ => ⟨S1x8x64x64, .f32⟩
  | .local _ .vmem, ⟨5, _⟩ => ⟨S1x8x64x64, .f32⟩
  | .local _ .vmem, ⟨6, _⟩ => ⟨S8x64x64, .f32⟩
  | .local _ .vmem, ⟨7, _⟩ => ⟨S1x1024x256, .f32⟩
  | .local _ .vmem, ⟨8, _⟩ => ⟨S1x1024x256, .f32⟩
  | .local _ .vmem, ⟨9, _⟩ => ⟨S256x512, .f32⟩
  | .local _ .vmem, ⟨10, _⟩ => ⟨S1x8x64x64, .f32⟩
  | .local _ .vmem, ⟨11, _⟩ => ⟨S1x8x64x64, .f32⟩
  | .local _ .vmem, ⟨12, _⟩ => ⟨S512x256, .f32⟩
  | .local _ .vmem, ⟨13, _⟩ => ⟨S256, .f32⟩
  | .local _ .vmem, ⟨14, _⟩ => ⟨S1x1024x256, .f32⟩
  | .local _ .vmem, ⟨15, _⟩ => ⟨S1x1024x256, .f32⟩
  | _, _ => ⟨S8x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x8x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S256x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x8x64x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S512x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x1024x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  slices_S1536x256_S512x256_0_0 : S1536x256.Slices ![0, 0] S512x256
  transposes_S512x256_S256x512_1_0 : S512x256.Transposes [1, 0] S256x512
  slices_S1536x256_S512x256_512_0 : S1536x256.Slices ![512, 0] S512x256
  slices_S1536x256_S512x256_1024_0 : S1536x256.Slices ![1024, 0] S512x256
  transposes_S256x512_S512x256_1_0 : S256x512.Transposes [1, 0] S512x256
  inb_S8x64x64_S8x64x64_0_0_0 : ∀ a, (![0, 0, 0] : Fin 3 → Nat) a + S8x64x64.size a ≤ S8x64x64.size a
  h_S8x64x64 : 0 < S8x64x64.numel
  shapeCasts_S8x64x64_S8x64x64 : S8x64x64.ShapeCasts S8x64x64
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  shapeCasts_S256x512_S256x512 : S256x512.ShapeCasts S256x512
  slices_S1024x512_o0_0_S1024x64 : S1024x512.Slices ![0, 0] S1024x64
  reduces_S1024x64_S1024 : S1024x64.Reduces [1] S1024
  shapeCasts_S1024_S1024x1 : S1024.ShapeCasts S1024x1
  broadcasts_S1024x1_S1024x64 : S1024x1.Broadcasts S1024x64
  slices_S1024x512_o0_64_S1024x64 : S1024x512.Slices ![0, 64] S1024x64
  slices_S1024x512_o0_128_S1024x64 : S1024x512.Slices ![0, 128] S1024x64
  slices_S1024x512_o0_192_S1024x64 : S1024x512.Slices ![0, 192] S1024x64
  slices_S1024x512_o0_256_S1024x64 : S1024x512.Slices ![0, 256] S1024x64
  slices_S1024x512_o0_320_S1024x64 : S1024x512.Slices ![0, 320] S1024x64
  slices_S1024x512_o0_384_S1024x64 : S1024x512.Slices ![0, 384] S1024x64
  slices_S1024x512_o0_448_S1024x64 : S1024x512.Slices ![0, 448] S1024x64
  shapeCasts_S64x64_S1x64x64 : S64x64.ShapeCasts S1x64x64
  concatenates_S1x64x64_S1x64x64_S1x64x64_S1x64x64_S1x64x64_S1x64x64_S1x64x64_S1x64x64_S8x64x64_d0 : Shape.Concatenates [S1x64x64, S1x64x64, S1x64x64, S1x64x64, S1x64x64, S1x64x64, S1x64x64, S1x64x64] S8x64x64 0
  inb_S1x8x64x64_S1x8x64x64_0_0_0_0 : ∀ a, (![0, 0, 0, 0] : Fin 4 → Nat) a + S1x8x64x64.size a ≤ S1x8x64x64.size a
  h_S1x8x64x64 : 0 < S1x8x64x64.numel
  shapeCasts_S1x8x64x64_S8x64x64 : S1x8x64x64.ShapeCasts S8x64x64
  shapeCasts_S8x64x64_S1x8x64x64 : S8x64x64.ShapeCasts S1x8x64x64
  slices_S8x64x64_o0_0_0_S1x64x64 : S8x64x64.Slices ![0, 0, 0] S1x64x64
  shapeCasts_S1x64x64_S64x64 : S1x64x64.ShapeCasts S64x64
  slices_S8x64x64_o1_0_0_S1x64x64 : S8x64x64.Slices ![1, 0, 0] S1x64x64
  slices_S8x64x64_o2_0_0_S1x64x64 : S8x64x64.Slices ![2, 0, 0] S1x64x64
  slices_S8x64x64_o3_0_0_S1x64x64 : S8x64x64.Slices ![3, 0, 0] S1x64x64
  slices_S8x64x64_o4_0_0_S1x64x64 : S8x64x64.Slices ![4, 0, 0] S1x64x64
  slices_S8x64x64_o5_0_0_S1x64x64 : S8x64x64.Slices ![5, 0, 0] S1x64x64
  slices_S8x64x64_o6_0_0_S1x64x64 : S8x64x64.Slices ![6, 0, 0] S1x64x64
  slices_S8x64x64_o7_0_0_S1x64x64 : S8x64x64.Slices ![7, 0, 0] S1x64x64
  concatenates_S1024x64_S1024x64_S1024x64_S1024x64_S1024x64_S1024x64_S1024x64_S1024x64_S1024x512_d1 : Shape.Concatenates [S1024x64, S1024x64, S1024x64, S1024x64, S1024x64, S1024x64, S1024x64, S1024x64] S1024x512 1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  shapeCasts_S1024x256_S1x1024x256 : S1024x256.ShapeCasts S1x1024x256
  dot_S1024x256_S256x512_S1024x512_1_0_0_1_n_n_wf : DotDims.WF S1024x256 S256x512 S1024x512 [1] [0] [0] [1] [] []
  dot_S1024x64_S1024x64_S64x64_0_0_1_1_n_n_wf : DotDims.WF S1024x64 S1024x64 S64x64 [0] [0] [1] [1] [] []
  dot_S1024x64_S64x64_S1024x64_1_0_0_1_n_n_wf : DotDims.WF S1024x64 S64x64 S1024x64 [1] [0] [0] [1] [] []
  dot_S1024x512_S512x256_S1024x256_1_0_0_1_n_n_wf : DotDims.WF S1024x512 S512x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S8x8192x256.size a
  hwx0_0 : ∀ i : grid0.Coords, EltTy.bits .f32 = 32 ∨ (Rect.block (s := S8x8192x256) S1x1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .f32 = 32 ∨ (Rect.block (s := S256x512) S256x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x64x64.size a ≤ S8x8x64x64.size a
  hwx0_3 : ∀ i : grid0.Coords, EltTy.bits .f32 = 32 ∨ (Rect.block (s := S8x8x64x64) S1x8x64x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x256.size a ≤ S8x8192x256.size a
  hwx1_0 : ∀ i : grid1.Coords, EltTy.bits .f32 = 32 ∨ (Rect.block (s := S8x8192x256) S1x1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x512.size a ≤ S256x512.size a
  hwx1_1 : ∀ i : grid1.Coords, EltTy.bits .f32 = 32 ∨ (Rect.block (s := S256x512) S256x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x8x64x64.size a ≤ S8x8x64x64.size a
  hwx1_2 : ∀ i : grid1.Coords, EltTy.bits .f32 = 32 ∨ (Rect.block (s := S8x8x64x64) S1x8x64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S512x256.size a
  hwx1_3 : ∀ i : grid1.Coords, EltTy.bits .f32 = 32 ∨ (Rect.block (s := S512x256) S512x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024x256.size a ≤ S8x8192x256.size a
  hwx1_5 : ∀ i : grid1.Coords, EltTy.bits .f32 = 32 ∨ (Rect.block (s := S8x8192x256) S1x1024x256.size (cc1_transform_5 i) (hinb1_5 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x64_S1024x64_S64x64_0_0_1_1_n_n : DotDims S1024x64 S1024x64 S64x64 where
  lhsContracting := [0]
  rhsContracting := [0]
  lhsNonContracting := [1]
  rhsNonContracting := [1]
  lhsBatch := []
  rhsBatch := []
  wf := dot_S1024x64_S1024x64_S64x64_0_0_1_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_arg0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x8x64x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1x1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S256x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x8x64x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S512x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S1x1024x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8x8192x256 : Shape := ⟨3, ![8, 8192, 256]⟩
abbrev S1536x256 : Shape := ⟨2, ![1536, 256]⟩
abbrev S256x512 : Shape := ⟨2, ![256, 512]⟩
abbrev S256 : Shape := ⟨1, ![256]⟩
abbrev S8x8192x1536 : Shape := ⟨3, ![8, 8192, 1536]⟩
abbrev S8x8192x512 : Shape := ⟨3, ![8, 8192, 512]⟩
abbrev S8x8192x8x64 : Shape := ⟨4, ![8, 8192, 8, 64]⟩
abbrev S8x8x8192x64 : Shape := ⟨4, ![8, 8, 8192, 64]⟩
abbrev S_ : Shape := ⟨0, ![]⟩
abbrev S8x8x8192 : Shape := ⟨3, ![8, 8, 8192]⟩
abbrev S8x8x8192x1 : Shape := ⟨4, ![8, 8, 8192, 1]⟩
abbrev S8x8x64x64 : Shape := ⟨4, ![8, 8, 64, 64]⟩
abbrev S1x1x256 : Shape := ⟨3, ![1, 1, 256]⟩

abbrev nBuf : Space → Nat
  | .hbm => 71
  | .vmem => 0
  | .smem => 0
  | _ => 0

abbrev bufTy : (tb : Table) → Fin (tcTables nBuf tb) → BufTy
  | .hbm, ⟨0, _⟩ => ⟨S8x8192x256, .f32⟩
  | .hbm, ⟨1, _⟩ => ⟨S1536x256, .f32⟩
  | .hbm, ⟨2, _⟩ => ⟨S256x512, .f32⟩
  | .hbm, ⟨3, _⟩ => ⟨S256, .f32⟩
  | .hbm, ⟨4, _⟩ => ⟨S8x8192x1536, .f32⟩
  | .hbm, ⟨5, _⟩ => ⟨S8x8192x512, .f32⟩
  | .hbm, ⟨6, _⟩ => ⟨S8x8192x512, .f32⟩
  | .hbm, ⟨7, _⟩ => ⟨S8x8192x512, .f32⟩
  | .hbm, ⟨8, _⟩ => ⟨S8x8192x8x64, .f32⟩
  | .hbm, ⟨9, _⟩ => ⟨S8x8x8192x64, .f32⟩
  | .hbm, ⟨10, _⟩ => ⟨S8x8192x8x64, .f32⟩
  | .hbm, ⟨11, _⟩ => ⟨S8x8x8192x64, .f32⟩
  | .hbm, ⟨12, _⟩ => ⟨S8x8192x8x64, .f32⟩
  | .hbm, ⟨13, _⟩ => ⟨S8x8x8192x64, .f32⟩
  | .hbm, ⟨14, _⟩ => ⟨S_, .f32⟩
  | .hbm, ⟨15, _⟩ => ⟨S8x8x8192, .f32⟩
  | .hbm, ⟨16, _⟩ => ⟨S8x8x8192x1, .f32⟩
  | .hbm, ⟨17, _⟩ => ⟨S_, .f32⟩
  | .hbm, ⟨18, _⟩ => ⟨S8x8x8192x1, .f32⟩
  | .hbm, ⟨19, _⟩ => ⟨S8x8x8192x1, .f32⟩
  | .hbm, ⟨20, _⟩ => ⟨S8x8x8192x64, .f32⟩
  | .hbm, ⟨21, _⟩ => ⟨S8x8x8192x64, .f32⟩
  | .hbm, ⟨22, _⟩ => ⟨S8x8x8192x64, .f32⟩
  | .hbm, ⟨23, _⟩ => ⟨S_, .f32⟩
  | .hbm, ⟨24, _⟩ => ⟨S8x8x8192, .f32⟩
  | .hbm, ⟨25, _⟩ => ⟨S8x8x8192x1, .f32⟩
  | .hbm, ⟨26, _⟩ => ⟨S_, .f32⟩
  | .hbm, ⟨27, _⟩ => ⟨S8x8x8192x1, .f32⟩
  | .hbm, ⟨28, _⟩ => ⟨S8x8x8192x1, .f32⟩
  | .hbm, ⟨29, _⟩ => ⟨S8x8x8192x64, .f32⟩
  | .hbm, ⟨30, _⟩ => ⟨S8x8x8192x64, .f32⟩
  | .hbm, ⟨31, _⟩ => ⟨S_, .f32⟩
  | .hbm, ⟨32, _⟩ => ⟨S8x8x8192x1, .f32⟩
  | .hbm, ⟨33, _⟩ => ⟨S8x8x8192x1, .f32⟩
  | .hbm, ⟨34, _⟩ => ⟨S8x8x8192x1, .f32⟩
  | .hbm, ⟨35, _⟩ => ⟨S8x8x8192x64, .f32⟩
  | .hbm, ⟨36, _⟩ => ⟨S8x8x8192x64, .f32⟩
  | .hbm, ⟨37, _⟩ => ⟨S_, .f32⟩
  | .hbm, ⟨38, _⟩ => ⟨S8x8x8192, .f32⟩
  | .hbm, ⟨39, _⟩ => ⟨S8x8x8192x1, .f32⟩
  | .hbm, ⟨40, _⟩ => ⟨S_, .f32⟩
  | .hbm, ⟨41, _⟩ => ⟨S8x8x8192x1, .f32⟩
  | .hbm, ⟨42, _⟩ => ⟨S8x8x8192x1, .f32⟩
  | .hbm, ⟨43, _⟩ => ⟨S8x8x8192x64, .f32⟩
  | .hbm, ⟨44, _⟩ => ⟨S8x8x8192x64, .f32⟩
  | .hbm, ⟨45, _⟩ => ⟨S8x8x8192x64, .f32⟩
  | .hbm, ⟨46, _⟩ => ⟨S_, .f32⟩
  | .hbm, ⟨47, _⟩ => ⟨S8x8x8192, .f32⟩
  | .hbm, ⟨48, _⟩ => ⟨S8x8x8192x1, .f32⟩
  | .hbm, ⟨49, _⟩ => ⟨S_, .f32⟩
  | .hbm, ⟨50, _⟩ => ⟨S8x8x8192x1, .f32⟩
  | .hbm, ⟨51, _⟩ => ⟨S8x8x8192x1, .f32⟩
  | .hbm, ⟨52, _⟩ => ⟨S8x8x8192x64, .f32⟩
  | .hbm, ⟨53, _⟩ => ⟨S8x8x8192x64, .f32⟩
  | .hbm, ⟨54, _⟩ => ⟨S_, .f32⟩
  | .hbm, ⟨55, _⟩ => ⟨S8x8x8192x1, .f32⟩
  | .hbm, ⟨56, _⟩ => ⟨S8x8x8192x1, .f32⟩
  | .hbm, ⟨57, _⟩ => ⟨S8x8x8192x1, .f32⟩
  | .hbm, ⟨58, _⟩ => ⟨S8x8x8192x64, .f32⟩
  | .hbm, ⟨59, _⟩ => ⟨S8x8x8192x64, .f32⟩
  | .hbm, ⟨60, _⟩ => ⟨S8x8x64x64, .f32⟩
  | .hbm, ⟨61, _⟩ => ⟨S8x8x8192x64, .f32⟩
  | .hbm, ⟨62, _⟩ => ⟨S_, .f32⟩
  | .hbm, ⟨63, _⟩ => ⟨S8x8x8192x64, .f32⟩
  | .hbm, ⟨64, _⟩ => ⟨S8x8x8192x64, .f32⟩
  | .hbm, ⟨65, _⟩ => ⟨S8x8192x8x64, .f32⟩
  | .hbm, ⟨66, _⟩ => ⟨S8x8192x512, .f32⟩
  | .hbm, ⟨67, _⟩ => ⟨S8x8192x256, .f32⟩
  | .hbm, ⟨68, _⟩ => ⟨S1x1x256, .f32⟩
  | .hbm, ⟨69, _⟩ => ⟨S8x8192x256, .f32⟩
  | .hbm, ⟨70, _⟩ => ⟨S8x8192x256, .f32⟩
  | _, _ => ⟨S8x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_8 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_9 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩

abbrev nD : Nat := 1
abbrev τ : Topo := Topo.v7x

variable {F : FTy → Type} [FloatOps F]

class Facts₀ : Prop where
  slices_S8x8192x1536_S8x8192x512_0_0_0 : S8x8192x1536.Slices ![0, 0, 0] S8x8192x512
  slices_S8x8192x1536_S8x8192x512_0_0_512 : S8x8192x1536.Slices ![0, 0, 512] S8x8192x512
  slices_S8x8192x1536_S8x8192x512_0_0_1024 : S8x8192x1536.Slices ![0, 0, 1024] S8x8192x512
  shapeCasts_S8x8192x512_S8x8192x8x64 : S8x8192x512.ShapeCasts S8x8192x8x64
  transposes_S8x8192x8x64_S8x8x8192x64_0_2_1_3 : S8x8192x8x64.Transposes [0, 2, 1, 3] S8x8x8192x64
  reducesTo_S8x8x8192x64_S8x8x8192_d3 : S8x8x8192x64.ReducesTo [3] S8x8x8192
  h_S_ : 0 < S_.numel
  bcast_S8x8x8192_S8x8x8192x1_0_1_2 : S8x8x8192.BroadcastsInDim S8x8x8192x1 (![0, 1, 2] : Fin 3 → Fin S8x8x8192x1.rank)
  bcast_S_S8x8x8192x1 : S_.BroadcastsInDim S8x8x8192x1 (![] : Fin 0 → Fin S8x8x8192x1.rank)
  bcast_S8x8x8192x1_S8x8x8192x64_0_1_2_3 : S8x8x8192x1.BroadcastsInDim S8x8x8192x64 (![0, 1, 2, 3] : Fin 4 → Fin S8x8x8192x64.rank)
  bcast_S_S8x8x8192x64 : S_.BroadcastsInDim S8x8x8192x64 (![] : Fin 0 → Fin S8x8x8192x64.rank)
  transposes_S8x8x8192x64_S8x8192x8x64_0_2_1_3 : S8x8x8192x64.Transposes [0, 2, 1, 3] S8x8192x8x64
  shapeCasts_S8x8192x8x64_S8x8192x512 : S8x8192x8x64.ShapeCasts S8x8192x512
  bcast_S256_S1x1x256_2 : S256.BroadcastsInDim S1x1x256 (![2] : Fin 1 → Fin S1x1x256.rank)
  bcast_S1x1x256_S8x8192x256_0_1_2 : S1x1x256.BroadcastsInDim S8x8192x256 (![0, 1, 2] : Fin 3 → Fin S8x8192x256.rank)
  dot_S8x8192x256_S1536x256_S8x8192x1536_2_1_01_0_n_n_wf : DotDims.WF S8x8192x256 S1536x256 S8x8192x1536 [2] [1] [0, 1] [0] [] []
  dot_S8x8x8192x64_S8x8x8192x64_S8x8x64x64_2_2_3_3_01_01_wf : DotDims.WF S8x8x8192x64 S8x8x8192x64 S8x8x64x64 [2] [2] [3] [3] [0, 1] [0, 1]
  dot_S8x8x8192x64_S8x8x64x64_S8x8x8192x64_3_2_2_3_01_01_wf : DotDims.WF S8x8x8192x64 S8x8x64x64 S8x8x8192x64 [3] [2] [2] [3] [0, 1] [0, 1]
  dot_S8x8192x512_S256x512_S8x8192x256_2_1_01_0_n_n_wf : DotDims.WF S8x8192x512 S256x512 S8x8192x256 [2] [1] [0, 1] [0] [] []

variable [Facts₀]

def dot_S8x8192x256_S1536x256_S8x8192x1536_2_1_01_0_n_n : DotDims S8x8192x256 S1536x256 S8x8192x1536 where
  lhsContracting := [2]
  rhsContracting := [1]
  lhsNonContracting := [0, 1]
  rhsNonContracting := [0]
  lhsBatch := []
  rhsBatch := []
  wf := dot_S8x8192x256_S1536x256_S8x8192x1536_2_1_01_0_n_n_wf
def dot_S8x8x8192x64_S8x8x8192x64_S8x8x64x64_2_2_3_3_01_01 : DotDims S8x8x8192x64 S8x8x8192x64 S8x8x64x64 where
  lhsContracting := [2]
  rhsContracting := [2]
  lhsNonContracting := [3]
  rhsNonContracting := [3]
  lhsBatch := [0, 1]
  rhsBatch := [0, 1]
  wf := dot_S8x8x8192x64_S8x8x8192x64_S8x8x64x64_2_2_3_3_01_01_wf
def dot_S8x8x8192x64_S8x8x64x64_S8x8x8192x64_3_2_2_3_01_01 : DotDims S8x8x8192x64 S8x8x64x64 S8x8x8192x64 where
  lhsContracting := [3]
  rhsContracting := [2]
  lhsNonContracting := [2]
  rhsNonContracting := [3]
  lhsBatch := [0, 1]
  rhsBatch := [0, 1]
  wf := dot_S8x8x8192x64_S8x8x64x64_S8x8x8192x64_3_2_2_3_01_01_wf
def dot_S8x8192x512_S256x512_S8x8192x256_2_1_01_0_n_n : DotDims S8x8192x512 S256x512 S8x8192x256 where
  lhsContracting := [2]
  rhsContracting := [1]
  lhsNonContracting := [0, 1]
  rhsNonContracting := [0]
  lhsBatch := []
  rhsBatch := []
  wf := dot_S8x8192x512_S256x512_S8x8192x256_2_1_01_0_n_n_wf

class Facts : Prop extends Facts₀ where

variable [Facts]
-- ==== Proof.KBBase.lean ====
/-
  What the two kernel regions' frames share, at a PARAMETER V (the TensorCore's buffer contents when a region is
  entered): each window's block at a grid point as the slice of its array, the fact that an input window's current
  staging buffer holds that block at every point (fetched there or not: an index map that does not move keeps the
  block), the first kernel's one branch condition (second grid coordinate = 0) decided over the grid, the staging and
  scratch memrefs by name, and the first region's scoped rest split into its accumulator scratch and the others.
-/
import proofs.«176983_j50680614093003_1_alg».proof.Proof.Gen.Kernel.Launch
import proofs.«176983_j50680614093003_1_alg».proof.Proof.Gen.Kernel.Skeleton
import proofs.«176983_j50680614093003_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## Region 0: the windows' blocks -/

/-- Window `w`'s block at point `t` of the first grid, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## Region 1: the windows' blocks -/

/-- Window `w`'s block at point `t` of the second grid, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Regions

/-! ## The first kernel's branch: the accumulator is reset where the second grid coordinate is 0 -/

/-- The condition of the body's one `scf.if`, from the grid coordinates. -/
abbrev cond0_0 (i : grid0.Coords) : Prop := (Scalar.cmpi .ne (Scalar.extui (Scalar.cmpi .eq (BitVec.ofNat 32 (i 1).val) 0#32)) 0#32) = 1#1
/-- It holds exactly at the points whose position is a multiple of 8 (the first tile of each batch row). -/
theorem hcond0_0 : ∀ t : Fin cfg0.N, cond0_0 (grid0.coords t) ↔ t.val % 8 = 0 :=
  (by decide +kernel : ∀ t : Fin grid0.N, cond0_0 (grid0.coords t) ↔ t.val % 8 = 0)

/-! ## The memrefs by name -/

abbrev ms0_0 (t : Fin cfg0.N) : Memref sig .tc .vmem S1x1024x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8x64x64 .f32 := win0_3.stage (cfg0.slots t 3)
abbrev hs0_3 (t : Fin cfg0.N) : (ms0_3 t).IsWhole := hstage0_3 ((cfg0.slots t 3).cast nbuf0_3)
abbrev ms1_0 (t : Fin cfg1.N) : Memref sig .tc .vmem S1x1024x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x8x64x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024x256 .f32 := win1_5.stage (cfg1.slots t 5)
abbrev hs1_5 (t : Fin cfg1.N) : (ms1_5 t).IsWhole := hstage1_5 ((cfg1.slots t 5).cast nbuf1_5)
/-- The accumulator scratch of the first kernel: a whole scoped buffer passed beside the windows. -/
abbrev scM0_0 : Memref sig .tc .vmem S8x64x64 .f32 := Memref.whole cc0_scratch0
/-- The same as a view: what it holds is stated through it. -/
abbrev VS0_0 : View sig .tc .vmem S8x64x64 .f32 := scM0_0.view
/-- One staging buffer of the first kernel's output window, through which its contents are stated. -/
abbrev VO0_3 : View sig .tc .vmem S1x8x64x64 .f32 := (Memref.whole cc0_stg3_0 : Memref sig .tc .vmem S1x8x64x64 .f32).view

/-! ## The first region's scoped rest -/

/-- The scoped buffers of the core that are neither a staging buffer of the first pipeline nor its accumulator: the
    second pipeline's staging buffers, each whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The class invariant of the first region: the accumulator at some contents, the other scoped buffers, the
    generator register at some state. -/
theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA rest0; rw [scopedRest0_eq]; simp only [scM0_0, owns_whole]; try rfl

end Cert.Kernel.Fr

end
-- ==== Proof.KBRun0A.lean ====
/-
  The first kernel's body run symbolically at a grid point where the second coordinate is 0: the accumulator scratch
  is first overwritten with zeros, then the point's contribution is added to it and the sum is copied to the output
  window's staging buffer. What the two buffers end with is found by the run, as lists of stored pieces.
-/
import proofs.«176983_j50680614093003_1_alg».proof.Proof.KBBase

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the first kernel's body leaves in its output window's staging buffer and in its accumulator scratch
    (last store first), with the proof that on whole memrefs the body runs to a continuation holding the three input
    buffers as they were and those two with the pieces written: the symbolic run of the body through its eight parts,
    the branch decided by the case's hypothesis. -/
noncomputable def kernelRun0_A (c : Dev nD) (i : grid0.Coords) (arg2 : Memref sig .tc .vmem S1x1024x256 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S1x8x64x64 .f32) (harg5 : arg5.IsWhole) (arg6 : Memref sig .tc .vmem S8x64x64 .f32) (harg6 : arg6.IsWhole) (hc0 : cond0_0 i)
    (x0 : Vec F S1x1024x256 .f32) (x1 : Vec F S256x512 .f32) (x2 : Vec F S256x512 .f32) :
    Σ' (L3 : List (View.Piece (Elt F) S1x8x64x64 .f32)), { LS0 : List (View.Piece (Elt F) S8x64x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0_kv_reduce_kernel i arg2 harg2 arg3 harg3 arg4 harg4 arg5 harg5 arg6 harg6) K } := by
  refine ⟨?_, ?_, fun E K => ?run⟩
  case run =>
    simp only [cc0_kv_reduce_kernel_eq_skeleton]; unfold cc0_kv_reduce_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Fr

end
-- ==== Proof.KBRun0B.lean ====
/-
  The first kernel's body run symbolically at a grid point where the second coordinate is not 0: the accumulator
  scratch holds what the point before left (xs0), the point's contribution is added to it and the sum is copied to the
  output window's staging buffer. What the two buffers end with is found by the run, as lists of stored pieces.
-/
import proofs.«176983_j50680614093003_1_alg».proof.Proof.KBRun0A

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the first kernel's body leaves in its output window's staging buffer and in its accumulator scratch
    (last store first), with the proof that on whole memrefs the body runs to a continuation holding the three input
    buffers as they were and those two with the pieces written: the symbolic run of the body through its eight parts,
    the branch decided by the case's hypothesis. -/
noncomputable def kernelRun0_B (c : Dev nD) (i : grid0.Coords) (arg2 : Memref sig .tc .vmem S1x1024x256 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S1x8x64x64 .f32) (harg5 : arg5.IsWhole) (arg6 : Memref sig .tc .vmem S8x64x64 .f32) (harg6 : arg6.IsWhole) (hc0 : ¬cond0_0 i)
    (x0 : Vec F S1x1024x256 .f32) (x1 : Vec F S256x512 .f32) (x2 : Vec F S256x512 .f32) (xs0 : Vec F S8x64x64 .f32) :
    Σ' (L3 : List (View.Piece (Elt F) S1x8x64x64 .f32)), { LS0 : List (View.Piece (Elt F) S8x64x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0_kv_reduce_kernel i arg2 harg2 arg3 harg3 arg4 harg4 arg5 harg5 arg6 harg6) K } := by
  refine ⟨?_, ?_, fun E K => ?run⟩
  case run =>
    simp only [cc0_kv_reduce_kernel_eq_skeleton]; unfold cc0_kv_reduce_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Fr

end
-- ==== Proof.KBBody0.lean ====
/-
  The first kernel region (keys and values projected tile by tile, normalised per head, their products accumulated)
  as a pipeline with proof data, at a PARAMETER V (the buffer contents when the region is entered). The accumulator
  scratch is carried from point to point: after point n it holds what the case of n leaves over what point n-1 left
  (the reset case at the multiples of 8, the accumulating case elsewhere); the region invariant names that contents,
  so the body at point n+1 finds it. The output window's staging buffer is stored whole at every point. Then the body
  obligation of the pipeline library, and the invariant's two ends (what the launch hands in, what is handed back).
-/
import proofs.«176983_j50680614093003_1_alg».proof.Proof.KBRun0B

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- Case A's pieces for the output window tile its block (one whole store), so they cover it. -/
theorem cover0_A_3 (c : Dev nD) (i : grid0.Coords) (arg2 : Memref sig .tc .vmem S1x1024x256 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S1x8x64x64 .f32) (harg5 : arg5.IsWhole) (arg6 : Memref sig .tc .vmem S8x64x64 .f32) (harg6 : arg6.IsWhole) (hc0 : cond0_0 i)
    (x0 : Vec F S1x1024x256 .f32) (x1 : Vec F S256x512 .f32) (x2 : Vec F S256x512 .f32) (y : S1x8x64x64.Idx) :
    ∃ pc ∈ (kernelRun0_A c i arg2 harg2 arg3 harg3 arg4 harg4 arg5 harg5 arg6 harg6 hc0 x0 x1 x2).1, y ∈ pc.1.set :=
  View.cover_of_tiledL (kernelRun0_A c i arg2 harg2 arg3 harg3 arg4 harg4 arg5 harg5 arg6 harg6 hc0 x0 x1 x2).1 S1x8x64x64.size (by sl_kernel_rfl) y

/-- What case A leaves in the output window's staging buffer: its pieces read back. -/
def out0_A_3 (c : Dev nD) (i : grid0.Coords) (arg2 : Memref sig .tc .vmem S1x1024x256 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S1x8x64x64 .f32) (harg5 : arg5.IsWhole) (arg6 : Memref sig .tc .vmem S8x64x64 .f32) (harg6 : arg6.IsWhole) (hc0 : cond0_0 i)
    (x0 : Vec F S1x1024x256 .f32) (x1 : Vec F S256x512 .f32) (x2 : Vec F S256x512 .f32) : Vec F S1x8x64x64 .f32 :=
  VO0_3.read (Elt F) (VO0_3.writes (Elt F) VO0_3.junk (kernelRun0_A c i arg2 harg2 arg3 harg3 arg4 harg4 arg5 harg5 arg6 harg6 hc0 x0 x1 x2).1)

/-- Case A's pieces for the accumulator scratch cover it (whole stores). -/
theorem scover0_A_0 (c : Dev nD) (i : grid0.Coords) (arg2 : Memref sig .tc .vmem S1x1024x256 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S1x8x64x64 .f32) (harg5 : arg5.IsWhole) (arg6 : Memref sig .tc .vmem S8x64x64 .f32) (harg6 : arg6.IsWhole) (hc0 : cond0_0 i)
    (x0 : Vec F S1x1024x256 .f32) (x1 : Vec F S256x512 .f32) (x2 : Vec F S256x512 .f32) (y : S8x64x64.Idx) :
    ∃ pc ∈ (kernelRun0_A c i arg2 harg2 arg3 harg3 arg4 harg4 arg5 harg5 arg6 harg6 hc0 x0 x1 x2).2.1, y ∈ pc.1.set :=
  View.cover_of_tiledL (kernelRun0_A c i arg2 harg2 arg3 harg3 arg4 harg4 arg5 harg5 arg6 harg6 hc0 x0 x1 x2).2.1 S8x64x64.size (by sl_kernel_rfl) y

/-- What case A leaves in the accumulator scratch: its pieces read back. -/
def sout0_A_0 (c : Dev nD) (i : grid0.Coords) (arg2 : Memref sig .tc .vmem S1x1024x256 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S1x8x64x64 .f32) (harg5 : arg5.IsWhole) (arg6 : Memref sig .tc .vmem S8x64x64 .f32) (harg6 : arg6.IsWhole) (hc0 : cond0_0 i)
    (x0 : Vec F S1x1024x256 .f32) (x1 : Vec F S256x512 .f32) (x2 : Vec F S256x512 .f32) : Vec F S8x64x64 .f32 :=
  VS0_0.read (Elt F) (VS0_0.writes (Elt F) VS0_0.junk (kernelRun0_A c i arg2 harg2 arg3 harg3 arg4 harg4 arg5 harg5 arg6 harg6 hc0 x0 x1 x2).2.1)

/-- Case B's pieces for the output window tile its block (one whole store), so they cover it. -/
theorem cover0_B_3 (c : Dev nD) (i : grid0.Coords) (arg2 : Memref sig .tc .vmem S1x1024x256 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S1x8x64x64 .f32) (harg5 : arg5.IsWhole) (arg6 : Memref sig .tc .vmem S8x64x64 .f32) (harg6 : arg6.IsWhole) (hc0 : ¬cond0_0 i)
    (x0 : Vec F S1x1024x256 .f32) (x1 : Vec F S256x512 .f32) (x2 : Vec F S256x512 .f32) (xs0 : Vec F S8x64x64 .f32) (y : S1x8x64x64.Idx) :
    ∃ pc ∈ (kernelRun0_B c i arg2 harg2 arg3 harg3 arg4 harg4 arg5 harg5 arg6 harg6 hc0 x0 x1 x2 xs0).1, y ∈ pc.1.set :=
  View.cover_of_tiledL (kernelRun0_B c i arg2 harg2 arg3 harg3 arg4 harg4 arg5 harg5 arg6 harg6 hc0 x0 x1 x2 xs0).1 S1x8x64x64.size (by sl_kernel_rfl) y

/-- What case B leaves in the output window's staging buffer: its pieces read back. -/
def out0_B_3 (c : Dev nD) (i : grid0.Coords) (arg2 : Memref sig .tc .vmem S1x1024x256 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S1x8x64x64 .f32) (harg5 : arg5.IsWhole) (arg6 : Memref sig .tc .vmem S8x64x64 .f32) (harg6 : arg6.IsWhole) (hc0 : ¬cond0_0 i)
    (x0 : Vec F S1x1024x256 .f32) (x1 : Vec F S256x512 .f32) (x2 : Vec F S256x512 .f32) (xs0 : Vec F S8x64x64 .f32) : Vec F S1x8x64x64 .f32 :=
  VO0_3.read (Elt F) (VO0_3.writes (Elt F) VO0_3.junk (kernelRun0_B c i arg2 harg2 arg3 harg3 arg4 harg4 arg5 harg5 arg6 harg6 hc0 x0 x1 x2 xs0).1)

/-- Case B's pieces for the accumulator scratch cover it (whole stores). -/
theorem scover0_B_0 (c : Dev nD) (i : grid0.Coords) (arg2 : Memref sig .tc .vmem S1x1024x256 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S1x8x64x64 .f32) (harg5 : arg5.IsWhole) (arg6 : Memref sig .tc .vmem S8x64x64 .f32) (harg6 : arg6.IsWhole) (hc0 : ¬cond0_0 i)
    (x0 : Vec F S1x1024x256 .f32) (x1 : Vec F S256x512 .f32) (x2 : Vec F S256x512 .f32) (xs0 : Vec F S8x64x64 .f32) (y : S8x64x64.Idx) :
    ∃ pc ∈ (kernelRun0_B c i arg2 harg2 arg3 harg3 arg4 harg4 arg5 harg5 arg6 harg6 hc0 x0 x1 x2 xs0).2.1, y ∈ pc.1.set :=
  View.cover_of_tiledL (kernelRun0_B c i arg2 harg2 arg3 harg3 arg4 harg4 arg5 harg5 arg6 harg6 hc0 x0 x1 x2 xs0).2.1 S8x64x64.size (by sl_kernel_rfl) y

/-- What case B leaves in the accumulator scratch: its pieces read back. -/
def sout0_B_0 (c : Dev nD) (i : grid0.Coords) (arg2 : Memref sig .tc .vmem S1x1024x256 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S1x8x64x64 .f32) (harg5 : arg5.IsWhole) (arg6 : Memref sig .tc .vmem S8x64x64 .f32) (harg6 : arg6.IsWhole) (hc0 : ¬cond0_0 i)
    (x0 : Vec F S1x1024x256 .f32) (x1 : Vec F S256x512 .f32) (x2 : Vec F S256x512 .f32) (xs0 : Vec F S8x64x64 .f32) : Vec F S8x64x64 .f32 :=
  VS0_0.read (Elt F) (VS0_0.writes (Elt F) VS0_0.junk (kernelRun0_B c i arg2 harg2 arg3 harg3 arg4 harg4 arg5 harg5 arg6 harg6 hc0 x0 x1 x2 xs0).2.1)

section Region0
variable (V : (c : Dev nD) → (b : Ref sig .tc) → Buf (Elt F) ((c : Thread nD τ).loc b))

/-! ## What the output buffer and the accumulator hold after each point -/

/-- After the body at position `n`: (the output window's staging buffer, the accumulator scratch). At a multiple of 8
    the reset case, run at the point's memrefs and input blocks; elsewhere the accumulating case over what position
    `n - 1` left in the accumulator. -/
def outsAt0 (c : Dev nD) : (n : ℕ) → n < cfg0.N → Vec F S1x8x64x64 .f32 × Vec F S8x64x64 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩))
  | n + 1, hn =>
    if h0 : (n + 1) % 8 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

/-- At a point of the reset case. -/
theorem outsAt0_A (c : Dev nD) (t : Fin cfg0.N) (h0 : t.val % 8 = 0) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (iblk0 V c 0 t) (iblk0 V c 1 t) (iblk0 V c 2 t)) := by
  obtain ⟨n, hn⟩ := t
  cases n with
  | zero => exact rfl
  | succ n => exact (dif_pos h0).trans rfl

/-- At a point of the accumulating case: over what the point before left. -/
theorem outsAt0_B (c : Dev nD) (t : Fin cfg0.N) (h0 : ¬t.val % 8 = 0) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk0 V c 0 t) (iblk0 V c 1 t) (iblk0 V c 2 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The region invariant -/

/-- Before position `n`: at the region's entry the class invariant (the accumulator at anything); afterwards the
    accumulator at what the point before left, the other scoped buffers and the generator register at anything. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ rest0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ rest0 c) ∗ (∃ r, prngReg c r)) := by
  cases n with
  | zero => exact absurd rfl hz
  | succ n => rfl

/-! ## The pipeline's proof data -/

/-- The arrays as the region finds them; after the body at a point each input's buffer at its block and the output's
    at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

set_option maxHeartbeats 4800000 in
/-- The body at any point: the inputs' memrefs hold their blocks; the position modulo 8 says which case the point is
    in; the invariant hands the body the accumulator at what the point before left (at anything at the region's
    entry) and takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [after0_0, after0_1, after0_2, after0_3]
  by_cases h0 : t.val % 8 = 0
  · rw [outsAt0_A V c t h0]
    unfold out0_A_3 sout0_A_0; (try dsimp only)
    by_cases hz : t.val = 0
    · rw [PhiS_castSucc V c t, PhiS_zero V c _ _ hz, PhiA0_eq]
      iintro ⟨⟨⟨HS0, Hr⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (iblk0 V c 0 t) (iblk0 V c 1 t) (iblk0 V c 2 t)).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A_0 c _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_A_3 c _ _ _ _ _ _ _ _ _ _ _ _ _ _ _)
    · rw [PhiS_castSucc V c t, PhiS_pos V c _ _ hz]
      iintro ⟨⟨⟨HS0, Hr⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (iblk0 V c 0 t) (iblk0 V c 1 t) (iblk0 V c 2 t)).2.2 Set.univ _)
      isplitl [H0]; · iexact H0
      isplitl [H1]; · iexact H1
      isplitl [H2]; · iexact H2
      isplitl [H3]; · iexists _; iexact H3
      isplitl [HS0]; · iexists _; iexact HS0
      iintro ⟨H0, H1, H2, ⟨%e3, H3⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A_0 c _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_A_3 c _ _ _ _ _ _ _ _ _ _ _ _ _ _ _)
  · rw [outsAt0_B V c t h0]
    unfold out0_B_3 sout0_B_0; (try dsimp only)
    have hz : t.val ≠ 0 := fun e => h0 (by rw [e])
    rw [PhiS_castSucc V c t, PhiS_pos V c _ _ hz]
    iintro ⟨⟨⟨HS0, Hr⟩, Hg⟩, Ho, ⟨%d0, H0⟩, ⟨%d1, H1⟩, ⟨%d2, H2⟩, ⟨%d3, H3⟩⟩
    iapply ((kernelRun0_B c (grid0.coords t) _ _ _ _ _ _ _ _ _ _ (fun h => h0 ((hcond0_0 t).mp h)) (iblk0 V c 0 t) (iblk0 V c 1 t) (iblk0 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover0_B_0 c _ _ _ _ _ _ _ _ _ _ _ _ _ _ _ _)
        iexact Hr
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class invariant back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 64 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, Hr⟩, Hg⟩
  isplitl [HS0 Hr]
  · isplitl [HS0]
    · iexists _; iexact HS0
    iexact Hr
  iexact Hg

end Region0

end Cert.Kernel.Fr

end
-- ==== Proof.KBBody1.lean ====
/-
  The second kernel region (queries projected tile by tile, multiplied per head into the accumulated key-value
  products, the heads laid side by side, projected out, divided by the sequence length, the bias added) as a pipeline
  with proof data, at a PARAMETER V (the buffer contents when the region is entered). The body keeps nothing between
  points: the output window's staging buffer after the body is one whole store whose payload the symbolic run finds
  from the five input blocks. Then the body obligation of the pipeline library under the class invariant.
-/
import proofs.«176983_j50680614093003_1_alg».proof.Proof.KBBase

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the second kernel's body leaves in its output window's staging buffer, with the proof that on whole
    memrefs — the five inputs' at their contents, the output's at anything — the body runs to a continuation holding
    the inputs' as they were and the output's with the pieces written. -/
noncomputable def kernelRun1 (c : Dev nD) (i : grid1.Coords) (arg2 : Memref sig .tc .vmem S1x1024x256 .f32) (harg2 : arg2.IsWhole) (arg3 : Memref sig .tc .vmem S256x512 .f32) (harg3 : arg3.IsWhole) (arg4 : Memref sig .tc .vmem S1x8x64x64 .f32) (harg4 : arg4.IsWhole) (arg5 : Memref sig .tc .vmem S512x256 .f32) (harg5 : arg5.IsWhole) (arg6 : Memref sig .tc .vmem S256 .f32) (harg6 : arg6.IsWhole) (arg7 : Memref sig .tc .vmem S1x1024x256 .f32) (harg7 : arg7.IsWhole)
    (x0 : Vec F S1x1024x256 .f32) (x1 : Vec F S256x512 .f32) (x2 : Vec F S1x8x64x64 .f32) (x3 : Vec F S512x256 .f32) (x4 : Vec F S256 .f32) :
    { L5 : List (View.Piece (Elt F) S1x1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)) -∗ K ⟨⟩))
          ⊢ wp frame (wpE (defs₀ (F := F)) Variants.none c none) E (cc1_apply_kernel i arg2 harg2 arg3 harg3 arg4 harg4 arg5 harg5 arg6 harg6 arg7 harg7) K } := by
  refine ⟨?_, fun E K => ?run⟩
  case run =>
    simp only [cc1_apply_kernel_eq_skeleton]; unfold cc1_apply_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2; obtain rfl := harg5.eq_unread hf3; obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

/-- One staging buffer of the second kernel's output window, through which its contents are stated. -/
abbrev VO1_5 : View sig .tc .vmem S1x1024x256 .f32 := (Memref.whole cc1_stg5_0 : Memref sig .tc .vmem S1x1024x256 .f32).view

/-- The pieces tile the output block (one whole store), so they cover it. -/
theorem cover1_5 (c : Dev nD) (i : grid1.Coords) (arg2 : Memref sig .tc .vmem S1x1024x256 .f32) (harg2 : arg2.IsWhole) (arg3 : Memref sig .tc .vmem S256x512 .f32) (harg3 : arg3.IsWhole) (arg4 : Memref sig .tc .vmem S1x8x64x64 .f32) (harg4 : arg4.IsWhole) (arg5 : Memref sig .tc .vmem S512x256 .f32) (harg5 : arg5.IsWhole) (arg6 : Memref sig .tc .vmem S256 .f32) (harg6 : arg6.IsWhole) (arg7 : Memref sig .tc .vmem S1x1024x256 .f32) (harg7 : arg7.IsWhole)
    (x0 : Vec F S1x1024x256 .f32) (x1 : Vec F S256x512 .f32) (x2 : Vec F S1x8x64x64 .f32) (x3 : Vec F S512x256 .f32) (x4 : Vec F S256 .f32) (y : S1x1024x256.Idx) :
    ∃ pc ∈ (kernelRun1 c i arg2 harg2 arg3 harg3 arg4 harg4 arg5 harg5 arg6 harg6 arg7 harg7 x0 x1 x2 x3 x4).1, y ∈ pc.1.set :=
  View.cover_of_tiledL (kernelRun1 c i arg2 harg2 arg3 harg3 arg4 harg4 arg5 harg5 arg6 harg6 arg7 harg7 x0 x1 x2 x3 x4).1 S1x1024x256.size (by sl_kernel_rfl) y

/-- What the body leaves in the output window's staging buffer: its pieces read back. -/
def out1_5 (c : Dev nD) (i : grid1.Coords) (arg2 : Memref sig .tc .vmem S1x1024x256 .f32) (harg2 : arg2.IsWhole) (arg3 : Memref sig .tc .vmem S256x512 .f32) (harg3 : arg3.IsWhole) (arg4 : Memref sig .tc .vmem S1x8x64x64 .f32) (harg4 : arg4.IsWhole) (arg5 : Memref sig .tc .vmem S512x256 .f32) (harg5 : arg5.IsWhole) (arg6 : Memref sig .tc .vmem S256 .f32) (harg6 : arg6.IsWhole) (arg7 : Memref sig .tc .vmem S1x1024x256 .f32) (harg7 : arg7.IsWhole)
    (x0 : Vec F S1x1024x256 .f32) (x1 : Vec F S256x512 .f32) (x2 : Vec F S1x8x64x64 .f32) (x3 : Vec F S512x256 .f32) (x4 : Vec F S256 .f32) : Vec F S1x1024x256 .f32 :=
  VO1_5.read (Elt F) (VO1_5.writes (Elt F) VO1_5.junk (kernelRun1 c i arg2 harg2 arg3 harg3 arg4 harg4 arg5 harg5 arg6 harg6 arg7 harg7 x0 x1 x2 x3 x4).1)

section Region1
variable (V : (c : Dev nD) → (b : Ref sig .tc) → Buf (Elt F) ((c : Thread nD τ).loc b))

/-! ## The pipeline's proof data -/

/-- The arrays as the region finds them; after the body at a point each input's buffer at its block and the output's
    at `out1_5` of the input blocks; the class invariant (the scoped rest and the generator register, untouched);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 c (grid1.coords t) (ms1_0 t) (hs1_0 t) (ms1_1 t) (hs1_1 t) (ms1_2 t) (hs1_2 t) (ms1_3 t) (hs1_3 t) (ms1_4 t) (hs1_4 t) (ms1_5 t) (hs1_5 t) (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 c (grid1.coords t) (ms1_0 t) (hs1_0 t) (ms1_1 t) (hs1_1 t) (ms1_2 t) (hs1_2 t) (ms1_3 t) (hs1_3 t) (ms1_4 t) (hs1_4 t) (ms1_5 t) (hs1_5 t) (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 4800000 in
/-- The body at any point: the inputs' memrefs hold their blocks, so the run applies; the invariant and the core's
    `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  unfold out1_5; (try dsimp only)
  iintro ⟨HΦ, Ho, ⟨%d0, H0⟩, ⟨%d1, H1⟩, ⟨%d2, H2⟩, ⟨%d3, H3⟩, ⟨%d4, H4⟩, ⟨%d5, H5⟩⟩
  iapply ((kernelRun1 c (grid1.coords t) _ _ _ _ _ _ _ _ _ _ _ _ (iblk1 V c 0 t) (iblk1 V c 1 t) (iblk1 V c 2 t) (iblk1 V c 3 t) (iblk1 V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover1_5 c _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Fr

end
-- ==== Proof.KBMain.lean ====
/-
  The run of the whole program: the host slices and transposes of the weights, then the two kernel regions. The
  TensorCore's buffer contents at each boundary are a fold from the launch memory: after the host operations; after the
  first region (its output array, the accumulated key-value products, at what its write-backs leave, every other buffer
  as entered); after the second region (the result array at what its write-backs leave). Each region is a segment
  entered from "every unscoped buffer at the boundary's contents, the generator register at some state, nothing owed"
  and left at the same over the next boundary's contents. The launch theorem for a list of segments then gives: every
  weakly fair execution terminates, nothing faulting, and the final memory holds every unscoped buffer at the last
  boundary's contents. Read at the four argument arrays that is the frame; read at the result array it is the value.
-/
import proofs.«176983_j50680614093003_1_alg».proof.Proof.KBBody0
import proofs.«176983_j50680614093003_1_alg».proof.Proof.KBBody1

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host operations (the first region's entry). -/
abbrev W1 : Dev nD → Valuation τ sig (Elt F) := fun c => StableHlo.after hostOps0 (W0 m ρ c)
/-- The same read at the TensorCore's references. -/
abbrev Ve1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (Ve1 m ρ) c).arrAt w cfg0.N
theorem W2_arr (c : Dev nD) (w : Fin cfg0.W) :
    W2 m ρ c (Proc.devRef .tc (Pipeline.arrRef spec0 w)) = (dat0 (Ve1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (the second region's entry). -/
abbrev Ve2 : (c : Dev nD) → (b : Ref sig .tc) → Buf (Elt F) ((c : Thread nD τ).loc b) := fun c b => W2 m ρ c b
theorem hF0 (c : Dev nD) (w : Fin cfg0.W) : (dat0 (Ve1 m ρ) c).arrAt w cfg0.N = Ve2 m ρ c (Pipeline.arrRef spec0 w) :=
  (W2_arr m ρ c w).symm
theorem hrest0 (c : Dev nD) : ∀ b, b ∉ Finset.univ.image (Pipeline.arrRef spec0) → Ve2 m ρ c b = Ve1 m ρ c b :=
  fun b hb => W2_of_ne m ρ c b fun w e => hb (Finset.mem_image.mpr ⟨w, Finset.mem_univ _, e⟩)

/-- At the second region's exit: its arrays at what the pipeline leaves, every other buffer as entered. -/
def W3 (c : Dev nD) : Valuation τ sig (Elt F) :=
  Pipeline.withArrays spec1 c (W2 m ρ c) fun w => (dat1 (Ve2 m ρ) c).arrAt w cfg1.N
theorem W3_arr (c : Dev nD) (w : Fin cfg1.W) :
    W3 m ρ c (Proc.devRef .tc (Pipeline.arrRef spec1 w)) = (dat1 (Ve2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev Ve3 : (c : Dev nD) → (b : Ref sig .tc) → Buf (Elt F) ((c : Thread nD τ).loc b) := fun c b => W3 m ρ c b
theorem hF1 (c : Dev nD) (w : Fin cfg1.W) : (dat1 (Ve2 m ρ) c).arrAt w cfg1.N = Ve3 m ρ c (Pipeline.arrRef spec1 w) :=
  (W3_arr m ρ c w).symm
theorem hrest1 (c : Dev nD) : ∀ b, b ∉ Finset.univ.image (Pipeline.arrRef spec1) → Ve3 m ρ c b = Ve2 m ρ c b :=
  fun b hb => W3_of_ne m ρ c b fun w e => hb (Finset.mem_image.mpr ⟨w, Finset.mem_univ _, e⟩)

/-! ### The arguments end as launched, and the result array is what the second region's write-backs leave -/

/-- The activations: an input window of both regions, written by no host operation. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat1 (Ve2 m ρ) c).arrAt_in 0 rfl _).trans (A_eq1 (Ve2 m ρ) c 0))
    _ = W1 m ρ c (Proc.devRef .tc main_arg0) := (W2_arr m ρ c 0).trans (((dat0 (Ve1 m ρ) c).arrAt_in 0 rfl _).trans (A_eq0 (Ve1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- The stacked projection weights: no window of either region (only their slices are), written by no host operation. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- The output projection: no window of either region (its transpose is), written by no host operation. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- The bias: an input window of the second region, no window of the first, written by no host operation. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := (W3_arr m ρ c 4).trans (((dat1 (Ve2 m ρ) c).arrAt_in 4 rfl _).trans (A_eq1 (Ve2 m ρ) c 4))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The result array: the second region's output window. -/
theorem W3_main_v8 (c : Dev nD) : W3 m ρ c (Proc.devRef .tc main_v8) = (dat1 (Ve2 m ρ) c).arrAt 5 cfg1.N :=
  W3_arr m ρ c 5

/-! ## The proof data family and the thread state -/

/-- No pipeline has a prefetched table. -/
abbrev admz : (p : Fin 2) → (pcfgs (F := F) p).Adm := fun p => (cfgs p).toPCfg_adm
/-- Every pipeline's proof data, each at its region's entry contents. -/
def pdatz : (p : Fin 2) → (c : Dev nD) → Dat τ (Elt F) Unit ℕ (UR sig nD τ) ℕ (Pipeline.pin (pcfgs (F := F)) admz p) c
  | ⟨0, _⟩ => fun c => dat0 (Ve1 m ρ) c
  | ⟨1, _⟩ => fun c => dat1 (Ve2 m ρ) c
abbrev 𝒱z : Variants := Variants.none
/-- No core owes another anything: no level is assigned. -/
abbrev Lz : GSem nD τ sig → Finset Unit := fun _ => ∅
abbrev lvz : GSem nD τ sig → Unit → ℕ := fun _ _ => 0
/-- What rides beside the buffers through every segment: the generator register at some state and the core's `owes`, at nothing. -/
abbrev Rz (c : Dev nD) : sProp 𝕄 := iprop((∃ r, prngReg c r) ∗ ∃ W, owes (c : Thread nD τ) (0 : CellTallies nD τ sig Unit) W)
/-- A host stretch as a segment over the unscoped references from the contents `W`, `Rz` riding along. -/
abbrev hsegz (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱z Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rz

/-- No host operation allocates a buffer. -/
theorem hostOps0_freshz : (hostOps0 : List (HloOp τ sig (Elt F))).Forall fun op => op.fresh = ∅ := by
  simp only [List.Forall]; repeat' constructor
/-- An unscoped TensorCore reference is among those the thread state holds. -/
theorem mem_ucz (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tend (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first region over the thread state: entered from every unscoped buffer at `W1`, left at `W2`. Its arrays are
    split out of the unscoped buffers and put back at the exit contents; the generator register and the scoped rest
    enter the region invariant (the class invariant at the first point) and come back out of it after the last
    point, the accumulator's contents forgotten. -/
def regz0 : Pipeline.RegionSeg (pcfgs (F := F)) admz (pdatz m ρ) () defs₀ 𝒱z Lz lvz 0 where
  win := launch0.win.to₀
  block_pos := launch0.block_pos
  stage_whole := launch0.stage_whole
  K := PEmpty
  osem k := k.elim
  ho := Pipeline.OwnSemFacts.none _
  hbody c := (body_obligation0 (Ve1 m ρ) c).loose
  hwaits := Pipeline.hwaits_of_owed_zero _ _ _ _ Lz lvz 0 fun _ _ => rfl
  pre c := iprop(StableHlo.held (c : Thread nD τ) (Pipeline.ucRefs τ sig) (W1 m ρ c) ∗ Rz c)
  post c := iprop(StableHlo.held (c : Thread nD τ) (Pipeline.ucRefs τ sig) (W2 m ρ c) ∗ Rz c)
  X c := iprop(∃ r, prngReg c r)
  Y c := iprop(∃ r, prngReg c r)
  Z c := Pipeline.unscopedRest (Ix := Unit) (Name := ℕ) (U := UR sig nD τ) (Lvl := ℕ) spec0 c (Ve1 m ρ c)
  hentry c := by
    rw [Pipeline.ownSems0_none]
    have hsplit := Pipeline.arrays_of_unscopedBufs (p := 0) (pcfgs (F := F)) admz (pdatz m ρ) launch0.win launch0.arr_whole c
      ((pdatz m ρ 0 c).share_full fun _ => rfl) (Ve1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatz m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdatz m ρ 0 c).Φ (Fin.last _) ⊢ Pipeline.ΦA spec0 c from hout0 (Ve1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admz (Ix := Unit) (Name := ℕ) (U := UR sig nD τ) (Lvl := ℕ)
      launch0.win launch0.arr_whole c (pdatz m ρ) ((pdatz m ρ 0 c).share_full fun _ => rfl)
      (Ve1 m ρ c) (Ve2 m ρ c) ((pdatz m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W2`, left at `W3`. -/
def regz1 : Pipeline.RegionSeg (pcfgs (F := F)) admz (pdatz m ρ) () defs₀ 𝒱z Lz lvz 1 where
  win := launch1.win.to₀
  block_pos := launch1.block_pos
  stage_whole := launch1.stage_whole
  K := PEmpty
  osem k := k.elim
  ho := Pipeline.OwnSemFacts.none _
  hbody c := (body_obligation1 (Ve2 m ρ) c).loose
  hwaits := Pipeline.hwaits_of_owed_zero _ _ _ _ Lz lvz 1 fun _ _ => rfl
  pre c := iprop(StableHlo.held (c : Thread nD τ) (Pipeline.ucRefs τ sig) (W2 m ρ c) ∗ Rz c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Ve2 m ρ c)
  hentry c := by
    rw [Pipeline.ownSems0_none]
    have hsplit := Pipeline.arrays_of_unscopedBufs (p := 1) (pcfgs (F := F)) admz (pdatz m ρ) launch1.win launch1.arr_whole c
      ((pdatz m ρ 1 c).share_full fun _ => rfl) (Ve2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatz m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatz m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admz (Ix := Unit) (Name := ℕ) (U := UR sig nD τ) (Lvl := ℕ)
      launch1.win launch1.arr_whole c (pdatz m ρ) ((pdatz m ρ 1 c).share_full fun _ => rfl)
      (Ve2 m ρ c) (Ve3 m ρ c) ((pdatz m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order: the host stretch, then the two regions. -/
abbrev segz : List (Pipeline.Seg (pcfgs (F := F)) admz (pdatz m ρ) () defs₀ 𝒱z Lz lvz) :=
  [ .host (hsegz hostOps0 hostOps0_sub hostOps0_freshz (W0 m ρ)),
    .region (regz0 m ρ),
    .region (regz1 m ρ) ]
/-- @main IS the run of the segments. -/
theorem main_runz (c : Dev nD) : main (F := F) c = Pipeline.Seg.run (segz m ρ) := (main_chain c).trans (by chain_rfl)

set_option backward.isDefEq.respectTransparency.types false in
/-- At the compiled mesh, from any memory with zero counters, every weakly fair execution of @main on the TensorCores
    terminates, nothing faulting, and every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) admz (pdatz m ρ) () cellOf_inj emb₁ defs₀ 𝒱z Lz lvz m ρ main (segz m ρ)
    (fun c Q => by rw [main_runz m ρ c])
    (by simp only [segz, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rz c)) (Tₙ := Tend m ρ)
    (hch := ⟨fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME, at any instance: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_ucz main_arg0 (by decide))).trans (W3_main_arg0 m ρ c),
     (h c _ (mem_ucz main_arg1 (by decide))).trans (W3_main_arg1 m ρ c),
     (h c _ (mem_ucz main_arg2 (by decide))).trans (W3_main_arg2 m ρ c),
     (h c _ (mem_ucz main_arg3 (by decide))).trans (W3_main_arg3 m ρ c)⟩) (run_all m ρ)

/-- THE RUN WITH THE RESULT NAMED: besides the frame, the result array ends at what the second region's write-backs leave. -/
theorem run_named : θ_run defs (onTc (τ := τ) (main (F := F))) ⟨m, fun _ => 0, ρ⟩ (fun r => ∀ c : Dev nD,
      r.2.mem ((c.tc : Thread nD τ).loc main_v8) = (dat1 (Ve2 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_ucz main_v8 (by decide))).trans (W3_main_v8 m ρ c),
     (h c _ (mem_ucz main_arg0 (by decide))).trans (W3_main_arg0 m ρ c),
     (h c _ (mem_ucz main_arg1 (by decide))).trans (W3_main_arg1 m ρ c),
     (h c _ (mem_ucz main_arg2 (by decide))).trans (W3_main_arg2 m ρ c),
     (h c _ (mem_ucz main_arg3 (by decide))).trans (W3_main_arg3 m ρ c)⟩) (run_all m ρ)

end Cert.Kernel.Fr

end
-- ==== Proof.KIBase.lean ====
/-
  What the two kernel regions' frames share, at a PARAMETER V (the TensorCore's buffer contents when a region is
  entered): each window's block at a grid point as the slice of its array, the fact that an input window's current
  staging buffer holds that block at every point (fetched there or not: an index map that does not move keeps the
  block), the first kernel's one branch condition (second grid coordinate = 0) decided over the grid, the staging and
  scratch memrefs by name, and the first region's scoped rest split into its accumulator scratch and the others.
-/
import proofs.«176983_j50680614093003_1_alg».proof.Proof.Gen.KernelIdeal.Launch
import proofs.«176983_j50680614093003_1_alg».proof.Proof.Gen.KernelIdeal.Skeleton
import proofs.«176983_j50680614093003_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## Region 0: the windows' blocks -/

/-- Window `w`'s block at point `t` of the first grid, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## Region 1: the windows' blocks -/

/-- Window `w`'s block at point `t` of the second grid, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Regions

/-! ## The first kernel's branch: the accumulator is reset where the second grid coordinate is 0 -/

/-- The condition of the body's one `scf.if`, from the grid coordinates. -/
abbrev cond0_0 (i : grid0.Coords) : Prop := (Scalar.cmpi .ne (Scalar.extui (Scalar.cmpi .eq (BitVec.ofNat 32 (i 1).val) 0#32)) 0#32) = 1#1
/-- It holds exactly at the points whose position is a multiple of 8 (the first tile of each batch row). -/
theorem hcond0_0 : ∀ t : Fin cfg0.N, cond0_0 (grid0.coords t) ↔ t.val % 8 = 0 :=
  (by decide +kernel : ∀ t : Fin grid0.N, cond0_0 (grid0.coords t) ↔ t.val % 8 = 0)

/-! ## The memrefs by name -/

abbrev ms0_0 (t : Fin cfg0.N) : Memref sig .tc .vmem S1x1024x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8x64x64 .f32 := win0_3.stage (cfg0.slots t 3)
abbrev hs0_3 (t : Fin cfg0.N) : (ms0_3 t).IsWhole := hstage0_3 ((cfg0.slots t 3).cast nbuf0_3)
abbrev ms1_0 (t : Fin cfg1.N) : Memref sig .tc .vmem S1x1024x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x8x64x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024x256 .f32 := win1_5.stage (cfg1.slots t 5)
abbrev hs1_5 (t : Fin cfg1.N) : (ms1_5 t).IsWhole := hstage1_5 ((cfg1.slots t 5).cast nbuf1_5)
/-- The accumulator scratch of the first kernel: a whole scoped buffer passed beside the windows. -/
abbrev scM0_0 : Memref sig .tc .vmem S8x64x64 .f32 := Memref.whole cc0_scratch0
/-- The same as a view: what it holds is stated through it. -/
abbrev VS0_0 : View sig .tc .vmem S8x64x64 .f32 := scM0_0.view
/-- One staging buffer of the first kernel's output window, through which its contents are stated. -/
abbrev VO0_3 : View sig .tc .vmem S1x8x64x64 .f32 := (Memref.whole cc0_stg3_0 : Memref sig .tc .vmem S1x8x64x64 .f32).view

/-! ## The first region's scoped rest -/

/-- The scoped buffers of the core that are neither a staging buffer of the first pipeline nor its accumulator: the
    second pipeline's staging buffers, each whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The class invariant of the first region: the accumulator at some contents, the other scoped buffers, the
    generator register at some state. -/
theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA rest0; rw [scopedRest0_eq]; simp only [scM0_0, owns_whole]; try rfl

end Cert.KernelIdeal.Fr

end
-- ==== Proof.KIRun0A.lean ====
/-
  The first kernel's body run symbolically at a grid point where the second coordinate is 0: the accumulator scratch
  is first overwritten with zeros, then the point's contribution is added to it and the sum is copied to the output
  window's staging buffer. What the two buffers end with is found by the run, as lists of stored pieces.
-/
import proofs.«176983_j50680614093003_1_alg».proof.Proof.KIBase

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the first kernel's body leaves in its output window's staging buffer and in its accumulator scratch
    (last store first), with the proof that on whole memrefs the body runs to a continuation holding the three input
    buffers as they were and those two with the pieces written: the symbolic run of the body through its eight parts,
    the branch decided by the case's hypothesis. -/
noncomputable def kernelRun0_A (c : Dev nD) (i : grid0.Coords) (arg2 : Memref sig .tc .vmem S1x1024x256 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S1x8x64x64 .f32) (harg5 : arg5.IsWhole) (arg6 : Memref sig .tc .vmem S8x64x64 .f32) (harg6 : arg6.IsWhole) (hc0 : cond0_0 i)
    (x0 : Vec F S1x1024x256 .f32) (x1 : Vec F S256x512 .f32) (x2 : Vec F S256x512 .f32) :
    Σ' (L3 : List (View.Piece (Elt F) S1x8x64x64 .f32)), { LS0 : List (View.Piece (Elt F) S8x64x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0_kv_reduce_kernel i arg2 harg2 arg3 harg3 arg4 harg4 arg5 harg5 arg6 harg6) K } := by
  refine ⟨?_, ?_, fun E K => ?run⟩
  case run =>
    simp only [cc0_kv_reduce_kernel_eq_skeleton]; unfold cc0_kv_reduce_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Fr

end
-- ==== Proof.KIRun0B.lean ====
/-
  The first kernel's body run symbolically at a grid point where the second coordinate is not 0: the accumulator
  scratch holds what the point before left (xs0), the point's contribution is added to it and the sum is copied to the
  output window's staging buffer. What the two buffers end with is found by the run, as lists of stored pieces.
-/
import proofs.«176983_j50680614093003_1_alg».proof.Proof.KIRun0A

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the first kernel's body leaves in its output window's staging buffer and in its accumulator scratch
    (last store first), with the proof that on whole memrefs the body runs to a continuation holding the three input
    buffers as they were and those two with the pieces written: the symbolic run of the body through its eight parts,
    the branch decided by the case's hypothesis. -/
noncomputable def kernelRun0_B (c : Dev nD) (i : grid0.Coords) (arg2 : Memref sig .tc .vmem S1x1024x256 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S1x8x64x64 .f32) (harg5 : arg5.IsWhole) (arg6 : Memref sig .tc .vmem S8x64x64 .f32) (harg6 : arg6.IsWhole) (hc0 : ¬cond0_0 i)
    (x0 : Vec F S1x1024x256 .f32) (x1 : Vec F S256x512 .f32) (x2 : Vec F S256x512 .f32) (xs0 : Vec F S8x64x64 .f32) :
    Σ' (L3 : List (View.Piece (Elt F) S1x8x64x64 .f32)), { LS0 : List (View.Piece (Elt F) S8x64x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0_kv_reduce_kernel i arg2 harg2 arg3 harg3 arg4 harg4 arg5 harg5 arg6 harg6) K } := by
  refine ⟨?_, ?_, fun E K => ?run⟩
  case run =>
    simp only [cc0_kv_reduce_kernel_eq_skeleton]; unfold cc0_kv_reduce_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Fr

end
-- ==== Proof.KIBody0.lean ====
/-
  The first kernel region (keys and values projected tile by tile, normalised per head, their products accumulated)
  as a pipeline with proof data, at a PARAMETER V (the buffer contents when the region is entered). The accumulator
  scratch is carried from point to point: after point n it holds what the case of n leaves over what point n-1 left
  (the reset case at the multiples of 8, the accumulating case elsewhere); the region invariant names that contents,
  so the body at point n+1 finds it. The output window's staging buffer is stored whole at every point. Then the body
  obligation of the pipeline library, and the invariant's two ends (what the launch hands in, what is handed back).
-/
import proofs.«176983_j50680614093003_1_alg».proof.Proof.KIRun0B

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Case A's pieces for the output window tile its block (one whole store), so they cover it. -/
theorem cover0_A_3 (c : Dev nD) (i : grid0.Coords) (arg2 : Memref sig .tc .vmem S1x1024x256 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S1x8x64x64 .f32) (harg5 : arg5.IsWhole) (arg6 : Memref sig .tc .vmem S8x64x64 .f32) (harg6 : arg6.IsWhole) (hc0 : cond0_0 i)
    (x0 : Vec F S1x1024x256 .f32) (x1 : Vec F S256x512 .f32) (x2 : Vec F S256x512 .f32) (y : S1x8x64x64.Idx) :
    ∃ pc ∈ (kernelRun0_A c i arg2 harg2 arg3 harg3 arg4 harg4 arg5 harg5 arg6 harg6 hc0 x0 x1 x2).1, y ∈ pc.1.set :=
  View.cover_of_tiledL (kernelRun0_A c i arg2 harg2 arg3 harg3 arg4 harg4 arg5 harg5 arg6 harg6 hc0 x0 x1 x2).1 S1x8x64x64.size (by sl_kernel_rfl) y

/-- What case A leaves in the output window's staging buffer: its pieces read back. -/
def out0_A_3 (c : Dev nD) (i : grid0.Coords) (arg2 : Memref sig .tc .vmem S1x1024x256 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S1x8x64x64 .f32) (harg5 : arg5.IsWhole) (arg6 : Memref sig .tc .vmem S8x64x64 .f32) (harg6 : arg6.IsWhole) (hc0 : cond0_0 i)
    (x0 : Vec F S1x1024x256 .f32) (x1 : Vec F S256x512 .f32) (x2 : Vec F S256x512 .f32) : Vec F S1x8x64x64 .f32 :=
  VO0_3.read (Elt F) (VO0_3.writes (Elt F) VO0_3.junk (kernelRun0_A c i arg2 harg2 arg3 harg3 arg4 harg4 arg5 harg5 arg6 harg6 hc0 x0 x1 x2).1)

/-- Case A's pieces for the accumulator scratch cover it (whole stores). -/
theorem scover0_A_0 (c : Dev nD) (i : grid0.Coords) (arg2 : Memref sig .tc .vmem S1x1024x256 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S1x8x64x64 .f32) (harg5 : arg5.IsWhole) (arg6 : Memref sig .tc .vmem S8x64x64 .f32) (harg6 : arg6.IsWhole) (hc0 : cond0_0 i)
    (x0 : Vec F S1x1024x256 .f32) (x1 : Vec F S256x512 .f32) (x2 : Vec F S256x512 .f32) (y : S8x64x64.Idx) :
    ∃ pc ∈ (kernelRun0_A c i arg2 harg2 arg3 harg3 arg4 harg4 arg5 harg5 arg6 harg6 hc0 x0 x1 x2).2.1, y ∈ pc.1.set :=
  View.cover_of_tiledL (kernelRun0_A c i arg2 harg2 arg3 harg3 arg4 harg4 arg5 harg5 arg6 harg6 hc0 x0 x1 x2).2.1 S8x64x64.size (by sl_kernel_rfl) y

/-- What case A leaves in the accumulator scratch: its pieces read back. -/
def sout0_A_0 (c : Dev nD) (i : grid0.Coords) (arg2 : Memref sig .tc .vmem S1x1024x256 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S1x8x64x64 .f32) (harg5 : arg5.IsWhole) (arg6 : Memref sig .tc .vmem S8x64x64 .f32) (harg6 : arg6.IsWhole) (hc0 : cond0_0 i)
    (x0 : Vec F S1x1024x256 .f32) (x1 : Vec F S256x512 .f32) (x2 : Vec F S256x512 .f32) : Vec F S8x64x64 .f32 :=
  VS0_0.read (Elt F) (VS0_0.writes (Elt F) VS0_0.junk (kernelRun0_A c i arg2 harg2 arg3 harg3 arg4 harg4 arg5 harg5 arg6 harg6 hc0 x0 x1 x2).2.1)

/-- Case B's pieces for the output window tile its block (one whole store), so they cover it. -/
theorem cover0_B_3 (c : Dev nD) (i : grid0.Coords) (arg2 : Memref sig .tc .vmem S1x1024x256 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S1x8x64x64 .f32) (harg5 : arg5.IsWhole) (arg6 : Memref sig .tc .vmem S8x64x64 .f32) (harg6 : arg6.IsWhole) (hc0 : ¬cond0_0 i)
    (x0 : Vec F S1x1024x256 .f32) (x1 : Vec F S256x512 .f32) (x2 : Vec F S256x512 .f32) (xs0 : Vec F S8x64x64 .f32) (y : S1x8x64x64.Idx) :
    ∃ pc ∈ (kernelRun0_B c i arg2 harg2 arg3 harg3 arg4 harg4 arg5 harg5 arg6 harg6 hc0 x0 x1 x2 xs0).1, y ∈ pc.1.set :=
  View.cover_of_tiledL (kernelRun0_B c i arg2 harg2 arg3 harg3 arg4 harg4 arg5 harg5 arg6 harg6 hc0 x0 x1 x2 xs0).1 S1x8x64x64.size (by sl_kernel_rfl) y

/-- What case B leaves in the output window's staging buffer: its pieces read back. -/
def out0_B_3 (c : Dev nD) (i : grid0.Coords) (arg2 : Memref sig .tc .vmem S1x1024x256 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S1x8x64x64 .f32) (harg5 : arg5.IsWhole) (arg6 : Memref sig .tc .vmem S8x64x64 .f32) (harg6 : arg6.IsWhole) (hc0 : ¬cond0_0 i)
    (x0 : Vec F S1x1024x256 .f32) (x1 : Vec F S256x512 .f32) (x2 : Vec F S256x512 .f32) (xs0 : Vec F S8x64x64 .f32) : Vec F S1x8x64x64 .f32 :=
  VO0_3.read (Elt F) (VO0_3.writes (Elt F) VO0_3.junk (kernelRun0_B c i arg2 harg2 arg3 harg3 arg4 harg4 arg5 harg5 arg6 harg6 hc0 x0 x1 x2 xs0).1)

/-- Case B's pieces for the accumulator scratch cover it (whole stores). -/
theorem scover0_B_0 (c : Dev nD) (i : grid0.Coords) (arg2 : Memref sig .tc .vmem S1x1024x256 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S1x8x64x64 .f32) (harg5 : arg5.IsWhole) (arg6 : Memref sig .tc .vmem S8x64x64 .f32) (harg6 : arg6.IsWhole) (hc0 : ¬cond0_0 i)
    (x0 : Vec F S1x1024x256 .f32) (x1 : Vec F S256x512 .f32) (x2 : Vec F S256x512 .f32) (xs0 : Vec F S8x64x64 .f32) (y : S8x64x64.Idx) :
    ∃ pc ∈ (kernelRun0_B c i arg2 harg2 arg3 harg3 arg4 harg4 arg5 harg5 arg6 harg6 hc0 x0 x1 x2 xs0).2.1, y ∈ pc.1.set :=
  View.cover_of_tiledL (kernelRun0_B c i arg2 harg2 arg3 harg3 arg4 harg4 arg5 harg5 arg6 harg6 hc0 x0 x1 x2 xs0).2.1 S8x64x64.size (by sl_kernel_rfl) y

/-- What case B leaves in the accumulator scratch: its pieces read back. -/
def sout0_B_0 (c : Dev nD) (i : grid0.Coords) (arg2 : Memref sig .tc .vmem S1x1024x256 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S1x8x64x64 .f32) (harg5 : arg5.IsWhole) (arg6 : Memref sig .tc .vmem S8x64x64 .f32) (harg6 : arg6.IsWhole) (hc0 : ¬cond0_0 i)
    (x0 : Vec F S1x1024x256 .f32) (x1 : Vec F S256x512 .f32) (x2 : Vec F S256x512 .f32) (xs0 : Vec F S8x64x64 .f32) : Vec F S8x64x64 .f32 :=
  VS0_0.read (Elt F) (VS0_0.writes (Elt F) VS0_0.junk (kernelRun0_B c i arg2 harg2 arg3 harg3 arg4 harg4 arg5 harg5 arg6 harg6 hc0 x0 x1 x2 xs0).2.1)

section Region0
variable (V : (c : Dev nD) → (b : Ref sig .tc) → Buf (Elt F) ((c : Thread nD τ).loc b))

/-! ## What the output buffer and the accumulator hold after each point -/

/-- After the body at position `n`: (the output window's staging buffer, the accumulator scratch). At a multiple of 8
    the reset case, run at the point's memrefs and input blocks; elsewhere the accumulating case over what position
    `n - 1` left in the accumulator. -/
def outsAt0 (c : Dev nD) : (n : ℕ) → n < cfg0.N → Vec F S1x8x64x64 .f32 × Vec F S8x64x64 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩))
  | n + 1, hn =>
    if h0 : (n + 1) % 8 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

/-- At a point of the reset case. -/
theorem outsAt0_A (c : Dev nD) (t : Fin cfg0.N) (h0 : t.val % 8 = 0) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (iblk0 V c 0 t) (iblk0 V c 1 t) (iblk0 V c 2 t)) := by
  obtain ⟨n, hn⟩ := t
  cases n with
  | zero => exact rfl
  | succ n => exact (dif_pos h0).trans rfl

/-- At a point of the accumulating case: over what the point before left. -/
theorem outsAt0_B (c : Dev nD) (t : Fin cfg0.N) (h0 : ¬t.val % 8 = 0) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk0 V c 0 t) (iblk0 V c 1 t) (iblk0 V c 2 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The region invariant -/

/-- Before position `n`: at the region's entry the class invariant (the accumulator at anything); afterwards the
    accumulator at what the point before left, the other scoped buffers and the generator register at anything. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ rest0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ rest0 c) ∗ (∃ r, prngReg c r)) := by
  cases n with
  | zero => exact absurd rfl hz
  | succ n => rfl

/-! ## The pipeline's proof data -/

/-- The arrays as the region finds them; after the body at a point each input's buffer at its block and the output's
    at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

set_option maxHeartbeats 4800000 in
/-- The body at any point: the inputs' memrefs hold their blocks; the position modulo 8 says which case the point is
    in; the invariant hands the body the accumulator at what the point before left (at anything at the region's
    entry) and takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [after0_0, after0_1, after0_2, after0_3]
  by_cases h0 : t.val % 8 = 0
  · rw [outsAt0_A V c t h0]
    unfold out0_A_3 sout0_A_0; (try dsimp only)
    by_cases hz : t.val = 0
    · rw [PhiS_castSucc V c t, PhiS_zero V c _ _ hz, PhiA0_eq]
      iintro ⟨⟨⟨HS0, Hr⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (iblk0 V c 0 t) (iblk0 V c 1 t) (iblk0 V c 2 t)).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A_0 c _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_A_3 c _ _ _ _ _ _ _ _ _ _ _ _ _ _ _)
    · rw [PhiS_castSucc V c t, PhiS_pos V c _ _ hz]
      iintro ⟨⟨⟨HS0, Hr⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (iblk0 V c 0 t) (iblk0 V c 1 t) (iblk0 V c 2 t)).2.2 Set.univ _)
      isplitl [H0]; · iexact H0
      isplitl [H1]; · iexact H1
      isplitl [H2]; · iexact H2
      isplitl [H3]; · iexists _; iexact H3
      isplitl [HS0]; · iexists _; iexact HS0
      iintro ⟨H0, H1, H2, ⟨%e3, H3⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A_0 c _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_A_3 c _ _ _ _ _ _ _ _ _ _ _ _ _ _ _)
  · rw [outsAt0_B V c t h0]
    unfold out0_B_3 sout0_B_0; (try dsimp only)
    have hz : t.val ≠ 0 := fun e => h0 (by rw [e])
    rw [PhiS_castSucc V c t, PhiS_pos V c _ _ hz]
    iintro ⟨⟨⟨HS0, Hr⟩, Hg⟩, Ho, ⟨%d0, H0⟩, ⟨%d1, H1⟩, ⟨%d2, H2⟩, ⟨%d3, H3⟩⟩
    iapply ((kernelRun0_B c (grid0.coords t) _ _ _ _ _ _ _ _ _ _ (fun h => h0 ((hcond0_0 t).mp h)) (iblk0 V c 0 t) (iblk0 V c 1 t) (iblk0 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover0_B_0 c _ _ _ _ _ _ _ _ _ _ _ _ _ _ _ _)
        iexact Hr
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class invariant back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 64 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, Hr⟩, Hg⟩
  isplitl [HS0 Hr]
  · isplitl [HS0]
    · iexists _; iexact HS0
    iexact Hr
  iexact Hg

end Region0

end Cert.KernelIdeal.Fr

end
-- ==== Proof.KIBody1.lean ====
/-
  The second kernel region (queries projected tile by tile, multiplied per head into the accumulated key-value
  products, the heads laid side by side, projected out, divided by the sequence length, the bias added) as a pipeline
  with proof data, at a PARAMETER V (the buffer contents when the region is entered). The body keeps nothing between
  points: the output window's staging buffer after the body is one whole store whose payload the symbolic run finds
  from the five input blocks. Then the body obligation of the pipeline library under the class invariant.
-/
import proofs.«176983_j50680614093003_1_alg».proof.Proof.KIBase

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the second kernel's body leaves in its output window's staging buffer, with the proof that on whole
    memrefs — the five inputs' at their contents, the output's at anything — the body runs to a continuation holding
    the inputs' as they were and the output's with the pieces written. -/
noncomputable def kernelRun1 (c : Dev nD) (i : grid1.Coords) (arg2 : Memref sig .tc .vmem S1x1024x256 .f32) (harg2 : arg2.IsWhole) (arg3 : Memref sig .tc .vmem S256x512 .f32) (harg3 : arg3.IsWhole) (arg4 : Memref sig .tc .vmem S1x8x64x64 .f32) (harg4 : arg4.IsWhole) (arg5 : Memref sig .tc .vmem S512x256 .f32) (harg5 : arg5.IsWhole) (arg6 : Memref sig .tc .vmem S256 .f32) (harg6 : arg6.IsWhole) (arg7 : Memref sig .tc .vmem S1x1024x256 .f32) (harg7 : arg7.IsWhole)
    (x0 : Vec F S1x1024x256 .f32) (x1 : Vec F S256x512 .f32) (x2 : Vec F S1x8x64x64 .f32) (x3 : Vec F S512x256 .f32) (x4 : Vec F S256 .f32) :
    { L5 : List (View.Piece (Elt F) S1x1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)) -∗ K ⟨⟩))
          ⊢ wp frame (wpE (defs₀ (F := F)) Variants.none c none) E (cc1_apply_kernel i arg2 harg2 arg3 harg3 arg4 harg4 arg5 harg5 arg6 harg6 arg7 harg7) K } := by
  refine ⟨?_, fun E K => ?run⟩
  case run =>
    simp only [cc1_apply_kernel_eq_skeleton]; unfold cc1_apply_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2; obtain rfl := harg5.eq_unread hf3; obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

/-- One staging buffer of the second kernel's output window, through which its contents are stated. -/
abbrev VO1_5 : View sig .tc .vmem S1x1024x256 .f32 := (Memref.whole cc1_stg5_0 : Memref sig .tc .vmem S1x1024x256 .f32).view

/-- The pieces tile the output block (one whole store), so they cover it. -/
theorem cover1_5 (c : Dev nD) (i : grid1.Coords) (arg2 : Memref sig .tc .vmem S1x1024x256 .f32) (harg2 : arg2.IsWhole) (arg3 : Memref sig .tc .vmem S256x512 .f32) (harg3 : arg3.IsWhole) (arg4 : Memref sig .tc .vmem S1x8x64x64 .f32) (harg4 : arg4.IsWhole) (arg5 : Memref sig .tc .vmem S512x256 .f32) (harg5 : arg5.IsWhole) (arg6 : Memref sig .tc .vmem S256 .f32) (harg6 : arg6.IsWhole) (arg7 : Memref sig .tc .vmem S1x1024x256 .f32) (harg7 : arg7.IsWhole)
    (x0 : Vec F S1x1024x256 .f32) (x1 : Vec F S256x512 .f32) (x2 : Vec F S1x8x64x64 .f32) (x3 : Vec F S512x256 .f32) (x4 : Vec F S256 .f32) (y : S1x1024x256.Idx) :
    ∃ pc ∈ (kernelRun1 c i arg2 harg2 arg3 harg3 arg4 harg4 arg5 harg5 arg6 harg6 arg7 harg7 x0 x1 x2 x3 x4).1, y ∈ pc.1.set :=
  View.cover_of_tiledL (kernelRun1 c i arg2 harg2 arg3 harg3 arg4 harg4 arg5 harg5 arg6 harg6 arg7 harg7 x0 x1 x2 x3 x4).1 S1x1024x256.size (by sl_kernel_rfl) y

/-- What the body leaves in the output window's staging buffer: its pieces read back. -/
def out1_5 (c : Dev nD) (i : grid1.Coords) (arg2 : Memref sig .tc .vmem S1x1024x256 .f32) (harg2 : arg2.IsWhole) (arg3 : Memref sig .tc .vmem S256x512 .f32) (harg3 : arg3.IsWhole) (arg4 : Memref sig .tc .vmem S1x8x64x64 .f32) (harg4 : arg4.IsWhole) (arg5 : Memref sig .tc .vmem S512x256 .f32) (harg5 : arg5.IsWhole) (arg6 : Memref sig .tc .vmem S256 .f32) (harg6 : arg6.IsWhole) (arg7 : Memref sig .tc .vmem S1x1024x256 .f32) (harg7 : arg7.IsWhole)
    (x0 : Vec F S1x1024x256 .f32) (x1 : Vec F S256x512 .f32) (x2 : Vec F S1x8x64x64 .f32) (x3 : Vec F S512x256 .f32) (x4 : Vec F S256 .f32) : Vec F S1x1024x256 .f32 :=
  VO1_5.read (Elt F) (VO1_5.writes (Elt F) VO1_5.junk (kernelRun1 c i arg2 harg2 arg3 harg3 arg4 harg4 arg5 harg5 arg6 harg6 arg7 harg7 x0 x1 x2 x3 x4).1)

section Region1
variable (V : (c : Dev nD) → (b : Ref sig .tc) → Buf (Elt F) ((c : Thread nD τ).loc b))

/-! ## The pipeline's proof data -/

/-- The arrays as the region finds them; after the body at a point each input's buffer at its block and the output's
    at `out1_5` of the input blocks; the class invariant (the scoped rest and the generator register, untouched);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 c (grid1.coords t) (ms1_0 t) (hs1_0 t) (ms1_1 t) (hs1_1 t) (ms1_2 t) (hs1_2 t) (ms1_3 t) (hs1_3 t) (ms1_4 t) (hs1_4 t) (ms1_5 t) (hs1_5 t) (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 c (grid1.coords t) (ms1_0 t) (hs1_0 t) (ms1_1 t) (hs1_1 t) (ms1_2 t) (hs1_2 t) (ms1_3 t) (hs1_3 t) (ms1_4 t) (hs1_4 t) (ms1_5 t) (hs1_5 t) (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 4800000 in
/-- The body at any point: the inputs' memrefs hold their blocks, so the run applies; the invariant and the core's
    `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  unfold out1_5; (try dsimp only)
  iintro ⟨HΦ, Ho, ⟨%d0, H0⟩, ⟨%d1, H1⟩, ⟨%d2, H2⟩, ⟨%d3, H3⟩, ⟨%d4, H4⟩, ⟨%d5, H5⟩⟩
  iapply ((kernelRun1 c (grid1.coords t) _ _ _ _ _ _ _ _ _ _ _ _ (iblk1 V c 0 t) (iblk1 V c 1 t) (iblk1 V c 2 t) (iblk1 V c 3 t) (iblk1 V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover1_5 c _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Fr

end
-- ==== Proof.KIMain.lean ====
/-
  The run of the whole program: the host slices and transposes of the weights, then the two kernel regions. The
  TensorCore's buffer contents at each boundary are a fold from the launch memory: after the host operations; after the
  first region (its output array, the accumulated key-value products, at what its write-backs leave, every other buffer
  as entered); after the second region (the result array at what its write-backs leave). Each region is a segment
  entered from "every unscoped buffer at the boundary's contents, the generator register at some state, nothing owed"
  and left at the same over the next boundary's contents. The launch theorem for a list of segments then gives: every
  weakly fair execution terminates, nothing faulting, and the final memory holds every unscoped buffer at the last
  boundary's contents. Read at the four argument arrays that is the frame; read at the result array it is the value.
-/
import proofs.«176983_j50680614093003_1_alg».proof.Proof.KIBody0
import proofs.«176983_j50680614093003_1_alg».proof.Proof.KIBody1

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host operations (the first region's entry). -/
abbrev W1 : Dev nD → Valuation τ sig (Elt F) := fun c => StableHlo.after hostOps0 (W0 m ρ c)
/-- The same read at the TensorCore's references. -/
abbrev Ve1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (Ve1 m ρ) c).arrAt w cfg0.N
theorem W2_arr (c : Dev nD) (w : Fin cfg0.W) :
    W2 m ρ c (Proc.devRef .tc (Pipeline.arrRef spec0 w)) = (dat0 (Ve1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (the second region's entry). -/
abbrev Ve2 : (c : Dev nD) → (b : Ref sig .tc) → Buf (Elt F) ((c : Thread nD τ).loc b) := fun c b => W2 m ρ c b
theorem hF0 (c : Dev nD) (w : Fin cfg0.W) : (dat0 (Ve1 m ρ) c).arrAt w cfg0.N = Ve2 m ρ c (Pipeline.arrRef spec0 w) :=
  (W2_arr m ρ c w).symm
theorem hrest0 (c : Dev nD) : ∀ b, b ∉ Finset.univ.image (Pipeline.arrRef spec0) → Ve2 m ρ c b = Ve1 m ρ c b :=
  fun b hb => W2_of_ne m ρ c b fun w e => hb (Finset.mem_image.mpr ⟨w, Finset.mem_univ _, e⟩)

/-- At the second region's exit: its arrays at what the pipeline leaves, every other buffer as entered. -/
def W3 (c : Dev nD) : Valuation τ sig (Elt F) :=
  Pipeline.withArrays spec1 c (W2 m ρ c) fun w => (dat1 (Ve2 m ρ) c).arrAt w cfg1.N
theorem W3_arr (c : Dev nD) (w : Fin cfg1.W) :
    W3 m ρ c (Proc.devRef .tc (Pipeline.arrRef spec1 w)) = (dat1 (Ve2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev Ve3 : (c : Dev nD) → (b : Ref sig .tc) → Buf (Elt F) ((c : Thread nD τ).loc b) := fun c b => W3 m ρ c b
theorem hF1 (c : Dev nD) (w : Fin cfg1.W) : (dat1 (Ve2 m ρ) c).arrAt w cfg1.N = Ve3 m ρ c (Pipeline.arrRef spec1 w) :=
  (W3_arr m ρ c w).symm
theorem hrest1 (c : Dev nD) : ∀ b, b ∉ Finset.univ.image (Pipeline.arrRef spec1) → Ve3 m ρ c b = Ve2 m ρ c b :=
  fun b hb => W3_of_ne m ρ c b fun w e => hb (Finset.mem_image.mpr ⟨w, Finset.mem_univ _, e⟩)

/-! ### The arguments end as launched, and the result array is what the second region's write-backs leave -/

/-- The activations: an input window of both regions, written by no host operation. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat1 (Ve2 m ρ) c).arrAt_in 0 rfl _).trans (A_eq1 (Ve2 m ρ) c 0))
    _ = W1 m ρ c (Proc.devRef .tc main_arg0) := (W2_arr m ρ c 0).trans (((dat0 (Ve1 m ρ) c).arrAt_in 0 rfl _).trans (A_eq0 (Ve1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- The stacked projection weights: no window of either region (only their slices are), written by no host operation. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- The output projection: no window of either region (its transpose is), written by no host operation. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- The bias: an input window of the second region, no window of the first, written by no host operation. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := (W3_arr m ρ c 4).trans (((dat1 (Ve2 m ρ) c).arrAt_in 4 rfl _).trans (A_eq1 (Ve2 m ρ) c 4))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The result array: the second region's output window. -/
theorem W3_main_v8 (c : Dev nD) : W3 m ρ c (Proc.devRef .tc main_v8) = (dat1 (Ve2 m ρ) c).arrAt 5 cfg1.N :=
  W3_arr m ρ c 5

/-! ## The proof data family and the thread state -/

/-- No pipeline has a prefetched table. -/
abbrev admz : (p : Fin 2) → (pcfgs (F := F) p).Adm := fun p => (cfgs p).toPCfg_adm
/-- Every pipeline's proof data, each at its region's entry contents. -/
def pdatz : (p : Fin 2) → (c : Dev nD) → Dat τ (Elt F) Unit ℕ (UR sig nD τ) ℕ (Pipeline.pin (pcfgs (F := F)) admz p) c
  | ⟨0, _⟩ => fun c => dat0 (Ve1 m ρ) c
  | ⟨1, _⟩ => fun c => dat1 (Ve2 m ρ) c
abbrev 𝒱z : Variants := Variants.none
/-- No core owes another anything: no level is assigned. -/
abbrev Lz : GSem nD τ sig → Finset Unit := fun _ => ∅
abbrev lvz : GSem nD τ sig → Unit → ℕ := fun _ _ => 0
/-- What rides beside the buffers through every segment: the generator register at some state and the core's `owes`, at nothing. -/
abbrev Rz (c : Dev nD) : sProp 𝕄 := iprop((∃ r, prngReg c r) ∗ ∃ W, owes (c : Thread nD τ) (0 : CellTallies nD τ sig Unit) W)
/-- A host stretch as a segment over the unscoped references from the contents `W`, `Rz` riding along. -/
abbrev hsegz (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱z Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rz

/-- No host operation allocates a buffer. -/
theorem hostOps0_freshz : (hostOps0 : List (HloOp τ sig (Elt F))).Forall fun op => op.fresh = ∅ := by
  simp only [List.Forall]; repeat' constructor
/-- An unscoped TensorCore reference is among those the thread state holds. -/
theorem mem_ucz (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tend (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first region over the thread state: entered from every unscoped buffer at `W1`, left at `W2`. Its arrays are
    split out of the unscoped buffers and put back at the exit contents; the generator register and the scoped rest
    enter the region invariant (the class invariant at the first point) and come back out of it after the last
    point, the accumulator's contents forgotten. -/
def regz0 : Pipeline.RegionSeg (pcfgs (F := F)) admz (pdatz m ρ) () defs₀ 𝒱z Lz lvz 0 where
  win := launch0.win.to₀
  block_pos := launch0.block_pos
  stage_whole := launch0.stage_whole
  K := PEmpty
  osem k := k.elim
  ho := Pipeline.OwnSemFacts.none _
  hbody c := (body_obligation0 (Ve1 m ρ) c).loose
  hwaits := Pipeline.hwaits_of_owed_zero _ _ _ _ Lz lvz 0 fun _ _ => rfl
  pre c := iprop(StableHlo.held (c : Thread nD τ) (Pipeline.ucRefs τ sig) (W1 m ρ c) ∗ Rz c)
  post c := iprop(StableHlo.held (c : Thread nD τ) (Pipeline.ucRefs τ sig) (W2 m ρ c) ∗ Rz c)
  X c := iprop(∃ r, prngReg c r)
  Y c := iprop(∃ r, prngReg c r)
  Z c := Pipeline.unscopedRest (Ix := Unit) (Name := ℕ) (U := UR sig nD τ) (Lvl := ℕ) spec0 c (Ve1 m ρ c)
  hentry c := by
    rw [Pipeline.ownSems0_none]
    have hsplit := Pipeline.arrays_of_unscopedBufs (p := 0) (pcfgs (F := F)) admz (pdatz m ρ) launch0.win launch0.arr_whole c
      ((pdatz m ρ 0 c).share_full fun _ => rfl) (Ve1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatz m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdatz m ρ 0 c).Φ (Fin.last _) ⊢ Pipeline.ΦA spec0 c from hout0 (Ve1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admz (Ix := Unit) (Name := ℕ) (U := UR sig nD τ) (Lvl := ℕ)
      launch0.win launch0.arr_whole c (pdatz m ρ) ((pdatz m ρ 0 c).share_full fun _ => rfl)
      (Ve1 m ρ c) (Ve2 m ρ c) ((pdatz m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W2`, left at `W3`. -/
def regz1 : Pipeline.RegionSeg (pcfgs (F := F)) admz (pdatz m ρ) () defs₀ 𝒱z Lz lvz 1 where
  win := launch1.win.to₀
  block_pos := launch1.block_pos
  stage_whole := launch1.stage_whole
  K := PEmpty
  osem k := k.elim
  ho := Pipeline.OwnSemFacts.none _
  hbody c := (body_obligation1 (Ve2 m ρ) c).loose
  hwaits := Pipeline.hwaits_of_owed_zero _ _ _ _ Lz lvz 1 fun _ _ => rfl
  pre c := iprop(StableHlo.held (c : Thread nD τ) (Pipeline.ucRefs τ sig) (W2 m ρ c) ∗ Rz c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Ve2 m ρ c)
  hentry c := by
    rw [Pipeline.ownSems0_none]
    have hsplit := Pipeline.arrays_of_unscopedBufs (p := 1) (pcfgs (F := F)) admz (pdatz m ρ) launch1.win launch1.arr_whole c
      ((pdatz m ρ 1 c).share_full fun _ => rfl) (Ve2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatz m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatz m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admz (Ix := Unit) (Name := ℕ) (U := UR sig nD τ) (Lvl := ℕ)
      launch1.win launch1.arr_whole c (pdatz m ρ) ((pdatz m ρ 1 c).share_full fun _ => rfl)
      (Ve2 m ρ c) (Ve3 m ρ c) ((pdatz m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order: the host stretch, then the two regions. -/
abbrev segz : List (Pipeline.Seg (pcfgs (F := F)) admz (pdatz m ρ) () defs₀ 𝒱z Lz lvz) :=
  [ .host (hsegz hostOps0 hostOps0_sub hostOps0_freshz (W0 m ρ)),
    .region (regz0 m ρ),
    .region (regz1 m ρ) ]
/-- @main IS the run of the segments. -/
theorem main_runz (c : Dev nD) : main (F := F) c = Pipeline.Seg.run (segz m ρ) := (main_chain c).trans (by chain_rfl)

set_option backward.isDefEq.respectTransparency.types false in
/-- At the compiled mesh, from any memory with zero counters, every weakly fair execution of @main on the TensorCores
    terminates, nothing faulting, and every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) admz (pdatz m ρ) () cellOf_inj emb₁ defs₀ 𝒱z Lz lvz m ρ main (segz m ρ)
    (fun c Q => by rw [main_runz m ρ c])
    (by simp only [segz, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rz c)) (Tₙ := Tend m ρ)
    (hch := ⟨fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME, at any instance: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_ucz main_arg0 (by decide))).trans (W3_main_arg0 m ρ c),
     (h c _ (mem_ucz main_arg1 (by decide))).trans (W3_main_arg1 m ρ c),
     (h c _ (mem_ucz main_arg2 (by decide))).trans (W3_main_arg2 m ρ c),
     (h c _ (mem_ucz main_arg3 (by decide))).trans (W3_main_arg3 m ρ c)⟩) (run_all m ρ)

/-- THE RUN WITH THE RESULT NAMED: besides the frame, the result array ends at what the second region's write-backs leave. -/
theorem run_named : θ_run defs (onTc (τ := τ) (main (F := F))) ⟨m, fun _ => 0, ρ⟩ (fun r => ∀ c : Dev nD,
      r.2.mem ((c.tc : Thread nD τ).loc main_v8) = (dat1 (Ve2 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_ucz main_v8 (by decide))).trans (W3_main_v8 m ρ c),
     (h c _ (mem_ucz main_arg0 (by decide))).trans (W3_main_arg0 m ρ c),
     (h c _ (mem_ucz main_arg1 (by decide))).trans (W3_main_arg1 m ρ c),
     (h c _ (mem_ucz main_arg2 (by decide))).trans (W3_main_arg2 m ρ c),
     (h c _ (mem_ucz main_arg3 (by decide))).trans (W3_main_arg3 m ρ c)⟩) (run_all m ρ)

end Cert.KernelIdeal.Fr

end
-- ==== Proof.Spec.lean ====
/-
  The mathematics of the certificate, stated once over the extended reals and over plain coordinates.

  The program is a linear attention with per-head instance normalisation. From activations X[b, n, d] (8 × 8192 × 256) and
  stacked projection weights W[j, d] (1536 × 256: queries, keys, values, 512 rows each):
    q, k, v (b, n, j)      = Σ_d X(b, n, d) · W(j | 512 + j | 1024 + j, d)                       (j < 512 = 8 heads × 64)
    inorm(t)(e)            = (t(e) − μ) · rsqrt(Σ_e' (t(e') − μ)² / 64 + ε),  μ = Σ_e' t(e') / 64   (per head row of 64)
    dots(b, h, d, e)       = Σ_n inorm(k(b, n, head h))(d) · inorm(v(b, n, head h))(e)          (n < 8192)
    att(b, n, 64 h + e)    = Σ_d q(b, n, 64 h + d) · dots(b, h, d, e)
  and the result, with output weights Wo[c, j] (256 × 512) and bias B[c]:
    the kernel:     (Σ_j att(b, n, j) · Wo(c, j)) / 8192 + B(c)
    the reference:  Σ_j (att(b, n, j) / 8192) · Wo(c, j) + B(c).
  The two agree on all extended reals: dividing by the real 8192 is multiplying by the real 1/8192, a non-negative
  finite factor, which commutes with the products and distributes over every finite sum of extended reals.
  The float literals 64, ε and 8192 stay the words both programs spell; only 8192 is ever evaluated.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The three float literals of both programs, as the extended reals their words denote. -/
abbrev c64 : EReal := Ideal.ofBits .f32 0x42800000#32
abbrev ceps : EReal := Ideal.ofBits .f32 0x3727C5AC#32
abbrev cN : EReal := Ideal.ofBits .f32 0x46000000#32

abbrev SX : Shape := ⟨3, ![8, 8192, 256]⟩
abbrev SW : Shape := ⟨2, ![1536, 256]⟩
abbrev SWo : Shape := ⟨2, ![256, 512]⟩
abbrev SB : Shape := ⟨1, ![256]⟩
abbrev SWt : Shape := ⟨2, ![256, 512]⟩
abbrev SWot : Shape := ⟨2, ![512, 256]⟩
abbrev SD : Shape := ⟨4, ![8, 8, 64, 64]⟩

/-- Column `64 h + e` of the 512 projected columns: entry `e` of head `h`. -/
def col (h : Fin 8) (e : Fin 64) : Fin 512 := ⟨64 * h.val + e.val, by have := h.isLt; have := e.isLt; omega⟩

/-- The head and the entry of a column. -/
def headOf (j : Fin 512) : Fin 8 := ⟨j.val / 64, by have := j.isLt; omega⟩
def entOf (j : Fin 512) : Fin 64 := ⟨j.val % 64, by omega⟩

theorem col_head_ent (j : Fin 512) : col (headOf j) (entOf j) = j := by
  apply Fin.ext; show 64 * (j.val / 64) + j.val % 64 = j.val; omega

/-- The mean of a row of 64. -/
def mean64 (t : Fin 64 → EReal) : EReal := Ideal.div (∑ e : Fin 64, t e) c64

/-- Instance normalisation of a row of 64 (biased variance, ε inside the reciprocal square root). -/
def inorm (t : Fin 64 → EReal) (e : Fin 64) : EReal :=
  (t e - mean64 t) * Ideal.rsqrt (Ideal.div (∑ e' : Fin 64, (t e' - mean64 t) * (t e' - mean64 t)) c64 + ceps)

/-- A row of activations times a transposed weight matrix [256, 512]. -/
def projT (X : SX.Idx → EReal) (Wt : SWt.Idx → EReal) (b : Fin 8) (n : Fin 8192) (j : Fin 512) : EReal :=
  ∑ d : Fin 256, X (ix3 b n d) * Wt (ix2 d j)

/-- The accumulated products of normalised keys and values, per batch row and head. -/
def dotsC (X : SX.Idx → EReal) (Wkt Wvt : SWt.Idx → EReal) (b h : Fin 8) (d e : Fin 64) : EReal :=
  ∑ n : Fin 8192, inorm (fun e' => projT X Wkt b n (col h e')) d * inorm (fun e' => projT X Wvt b n (col h e')) e

/-- The same as an array [8, 8, 64, 64]. -/
def dotsA (X : SX.Idx → EReal) (Wkt Wvt : SWt.Idx → EReal) : SD.Idx → EReal :=
  fun i => dotsC X Wkt Wvt (i 0) (i 1) (i 2) (i 3)

/-- Queries times the accumulated products, at head `h`, entry `e`. -/
def attC (X : SX.Idx → EReal) (Wqt : SWt.Idx → EReal) (D : SD.Idx → EReal) (b : Fin 8) (n : Fin 8192) (h : Fin 8) (e : Fin 64) : EReal :=
  ∑ d : Fin 64, projT X Wqt b n (col h d) * D (ix4 b h d e)

/-- The same at column `j` of the 512 laid side by side. -/
def attJ (X : SX.Idx → EReal) (Wqt : SWt.Idx → EReal) (D : SD.Idx → EReal) (b : Fin 8) (n : Fin 8192) (j : Fin 512) : EReal :=
  attC X Wqt D b n (headOf j) (entOf j)

/-- THE KERNEL'S ARRANGEMENT: project out, then divide by the sequence length, then add the bias. -/
def outC (X : SX.Idx → EReal) (Wqt : SWt.Idx → EReal) (D : SD.Idx → EReal) (Wot : SWot.Idx → EReal) (B : SB.Idx → EReal)
    (b : Fin 8) (n : Fin 8192) (c : Fin 256) : EReal :=
  Ideal.div (∑ j : Fin 512, attJ X Wqt D b n j * Wot (ix2 j c)) cN + B (ix1 c)

/-- THE REFERENCE'S ARRANGEMENT: divide by the sequence length, then project out, then add the bias. -/
def refC (X : SX.Idx → EReal) (Wqt : SWt.Idx → EReal) (D : SD.Idx → EReal) (Wot : SWot.Idx → EReal) (B : SB.Idx → EReal)
    (b : Fin 8) (n : Fin 8192) (c : Fin 256) : EReal :=
  (∑ j : Fin 512, Ideal.div (attJ X Wqt D b n j) cN * Wot (ix2 j c)) + B (ix1 c)

/-! ## The weights as the programs slice and transpose them -/

/-- Rows 0–511, 512–1023, 1024–1535 of the stacked weights, transposed to [256, 512]. -/
def wqA (W : SW.Idx → EReal) : SWt.Idx → EReal := fun i => W (ix2 (⟨(i 1).val, by have h : (i 1).val < 512 := (i 1).isLt; omega⟩ : Fin 1536) (i 0))
def wkA (W : SW.Idx → EReal) : SWt.Idx → EReal := fun i => W (ix2 (⟨512 + (i 1).val, by have h : (i 1).val < 512 := (i 1).isLt; omega⟩ : Fin 1536) (i 0))
def wvA (W : SW.Idx → EReal) : SWt.Idx → EReal := fun i => W (ix2 (⟨1024 + (i 1).val, by have h : (i 1).val < 512 := (i 1).isLt; omega⟩ : Fin 1536) (i 0))
/-- The output weights transposed to [512, 256]. -/
def woA (Wo : SWo.Idx → EReal) : SWot.Idx → EReal := fun i => Wo (ix2 (i 1) (i 0))

/-- The whole result in the kernel's arrangement, from the four argument arrays. -/
def kernelOut (X : SX.Idx → EReal) (W : SW.Idx → EReal) (Wo : SWo.Idx → EReal) (B : SB.Idx → EReal) : SX.Idx → EReal :=
  fun i => outC X (wqA W) (dotsA X (wkA W) (wvA W)) (woA Wo) B (i 0) (i 1) (i 2)

/-- The whole result in the reference's arrangement. -/
def referenceOut (X : SX.Idx → EReal) (W : SW.Idx → EReal) (Wo : SWo.Idx → EReal) (B : SB.Idx → EReal) : SX.Idx → EReal :=
  fun i => refC X (wqA W) (dotsA X (wkA W) (wvA W)) (woA Wo) B (i 0) (i 1) (i 2)

/-! ## The one law: dividing by 8192 after the projection or before it -/

/-- The word `0x46000000` denotes the real 8192. -/
theorem cN_eq : cN = ((8192 : ℝ) : EReal) := by
  simp [cN, Ideal.ofBits, Ideal.ieee, -EReal.coe_mul]; norm_num

/-- Dividing by the sequence length is multiplying by the real 1/8192. -/
theorem div_cN (x : EReal) : Ideal.div x cN = x * (((1 / 8192 : ℝ)) : EReal) := by
  rw [cN_eq]; exact Ideal.div_coe (by norm_num) x

/-- A non-negative real factor distributes over a finite sum of extended reals. -/
theorem sum_mul_coe {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- The two arrangements agree. -/
theorem outC_eq_refC (X : SX.Idx → EReal) (Wqt : SWt.Idx → EReal) (D : SD.Idx → EReal) (Wot : SWot.Idx → EReal) (B : SB.Idx → EReal)
    (b : Fin 8) (n : Fin 8192) (c : Fin 256) : outC X Wqt D Wot B b n c = refC X Wqt D Wot B b n c := by
  unfold outC refC
  rw [div_cN, sum_mul_coe _ _ _ (by norm_num)]
  refine congrArg (· + B (ix1 c)) (Finset.sum_congr rfl fun j _ => ?_)
  rw [div_cN, mul_assoc, mul_assoc, mul_comm (Wot (ix2 j c))]

theorem kernelOut_eq_referenceOut (X : SX.Idx → EReal) (W : SW.Idx → EReal) (Wo : SWo.Idx → EReal) (B : SB.Idx → EReal) :
    kernelOut X W Wo B = referenceOut X W Wo B :=
  funext fun i => outC_eq_refC _ _ _ _ _ _ _ _

end Cert.Spec

end
-- ==== Proof.KVDefs.lean ====
/-
  What one grid point of each kernel computes, as pure functions of the blocks its body loads — the bodies' payload
  chains composed as the bodies wire them — and the same at the ideal values in plain coordinates.

  First kernel, one tile of 1024 positions: the accumulator after the update is the accumulator as loaded plus, per head,
  the product over the tile's rows of the normalised keys by the normalised values. Second kernel, one tile: the output
  block is the tile's queries times the batch row's products per head, the heads side by side, times the transposed
  output weights, divided by the sequence length, plus the bias.
-/
import proofs.«176983_j50680614093003_1_alg».proof.Proof.Gen.KernelIdeal.Skeleton
import proofs.«176983_j50680614093003_1_alg».proof.Proof.Spec
import Idealize.ShloMosaic.Lib.ValueIdx

set_option maxRecDepth 16384

noncomputable section

open scoped BigOperators

namespace Cert.KernelIdeal.Fr

open Idealize.ShloMosaic Idealize.ShloMosaic.TcCoe Idealize.ShloMosaic.ValueIdx
open Idealize.SL Idealize.SL.Sem
open Cert.KernelIdeal Cert.KernelIdeal.Gen

variable {F : FTy → Type} [FloatOps F]

/-- The first kernel's accumulator after the body's update, from the three loaded input blocks (activations tile, the
    two transposed weight slices) and the accumulator as loaded: the body's payloads composed in the body's order. -/
def accNext (v3 : Vec F S1x1024x256 .f32) (v6 : Vec F S256x512 .f32) (v9 : Vec F S256x512 .f32) (v351 : Vec F S8x64x64 .f32) : FVec F S8x64x64 .f32 :=
  have v12 := k0_pay4 v3 v6
  have v13 := k0_pay5 v3 v9
  have v15 := k0_pay6 v3 v9
  have v34 := k0_pay7 v3 v6
  have v38 := k0_pay8 v3 v9
  have v54 := k0_pay9 v15 v34 v38
  have v56 := k0_pay10 v13
  have v75 := k0_pay11 v12
  have v79 := k0_pay12 v13
  have v84 := k0_pay13 v13
  have v85 := k0_pay14 (F := F)
  have v95 := k0_pay15 v56 v75 v79 v84 v85
  have v116 := k0_pay17 v12
  have v129 := k0_pay19 v13
  have v133 := k0_pay20 v13
  have v136 := k0_pay21 v116 v129 v133
  have v177 := k0_pay22 v12 v13
  have v178 := k0_pay23 v12
  have v179 := k0_pay24 v13
  have v180 := k0_pay25 v12
  have v218 := k0_pay26 v178 v179 v180
  have v219 := k0_pay27 v12
  have v220 := k0_pay28 v13
  have v224 := k0_pay29 v12
  have v227 := k0_pay30 v12
  have v259 := k0_pay31 v219 v220 v224 v227
  have v261 := k0_pay33 v13
  have v272 := k0_pay35 v12
  have v274 := k0_pay36 v12
  have cst_78 : F .f32 := Scalar.ofBits .f32 0x3727C5AC#32
  have v300 := k0_pay37 v261 v272 v274 cst_78
  have v302 := k0_pay38 v13
  have v321 := k0_pay39 v12
  have v322 := k0_pay40 v13
  k0_pay41 v54 v95 v136 v177 v218 v259 v300 v302 v321 v322 v351

/-- The second kernel's output block, from the five loaded input blocks (activations tile, transposed query weights,
    the batch row's products, transposed output weights, bias): the body's payloads composed in the body's order. -/
def outBlk (v0 : Vec F S1x1024x256 .f32) (v3 : Vec F S256x512 .f32) (v7 : Vec F S1x8x64x64 .f32) (v59 : Vec F S512x256 .f32) (v65 : Vec F S256 .f32) : FVec F S1x1024x256 .f32 :=
  k1_pay1 (k1_pay2 v0 v3) (k1_pay3 v7) (k1_pay4 v0 v3 v7) (k1_pay5 v0 v3 v7) (k1_pay6 v0 v3 v7) (k1_pay7 v0 v3 v7) (k1_pay8 v0 v3 v7) (k1_pay9 v0 v3) (k1_pay10 v7) v59 v65

/-! ## The same at the ideal values, in coordinates -/

/-- One tile's projection: row `r` of the activations block times column `j` of a transposed weight block. -/
def projB (x : S1x1024x256.Idx → EReal) (w : S256x512.Idx → EReal) (r : Fin 1024) (j : Fin 512) : EReal :=
  ∑ dd : Fin 256, x (ix3 0 r dd) * w (ix2 dd j)

/-- One tile's contribution to the products of head `h` at (d, e). -/
def contribP (x : S1x1024x256.Idx → EReal) (wk wv : S256x512.Idx → EReal) (h : Fin 8) (d e : Fin 64) : EReal :=
  ∑ r : Fin 1024, Cert.Spec.inorm (fun e' => projB x wk r (Cert.Spec.col h e')) d * Cert.Spec.inorm (fun e' => projB x wv r (Cert.Spec.col h e')) e

/-- One tile's queries times the batch row's products, at row `r`, column `j` of the 512 laid side by side. -/
def attB (x : S1x1024x256.Idx → EReal) (wq : S256x512.Idx → EReal) (D : S1x8x64x64.Idx → EReal) (r : Fin 1024) (j : Fin 512) : EReal :=
  ∑ d : Fin 64, projB x wq r (Cert.Spec.col (Cert.Spec.headOf j) d) * D (ix4 0 (Cert.Spec.headOf j) d (Cert.Spec.entOf j))

/-- One tile's output at row `r`, channel `c`. -/
def outB (x : S1x1024x256.Idx → EReal) (wq : S256x512.Idx → EReal) (D : S1x8x64x64.Idx → EReal) (wo : S512x256.Idx → EReal) (bo : S256.Idx → EReal)
    (r : Fin 1024) (c : Fin 256) : EReal :=
  Ideal.div (∑ j : Fin 512, attB x wq D r j * wo (ix2 j c)) Cert.Spec.cN + bo (ix1 c)

end Cert.KernelIdeal.Fr

end
-- ==== Proof.KVPieces.lean ====
/-
  What the symbolic runs of the two kernel bodies found, named: the pieces each run leaves in the accumulator scratch
  and in the output staging buffers, read back, are the bodies' payload chains of the loaded blocks. In the reset case
  the accumulator is loaded after the zero store, so the update starts from the zero splat; in the accumulating case it
  starts from what the point before left. The output buffer of the first kernel is the updated accumulator, reshaped.
-/
import proofs.«176983_j50680614093003_1_alg».proof.Proof.KIBody0
import proofs.«176983_j50680614093003_1_alg».proof.Proof.KIBody1
import proofs.«176983_j50680614093003_1_alg».proof.Proof.KVDefs
import Idealize.ShloMosaic.Lib.Pipeline.Value

set_option maxRecDepth 16384

noncomputable section

open scoped BigOperators

namespace Cert.KernelIdeal.Fr

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Idealize.ShloMosaic.Tactic
open Idealize.SL.RA Idealize.SL.BI
open scoped Idealize.SL.BI
open Idealize.SL.BI.BIBase Idealize.SL.BI.Laws Idealize.SL.ProofMode
open Idealize.ShloMosaic.Rounds

variable {F : FTy → Type} [FloatOps F]

/-! ## The zero offsets of each rank are the constant zero function -/

private theorem hz1 : (![0] : Fin 1 → Nat) = fun _ => 0 := funext fun a => by fin_cases a <;> rfl
private theorem hz2 : (![0, 0] : Fin 2 → Nat) = fun _ => 0 := funext fun a => by fin_cases a <;> rfl
private theorem hz3 : (![0, 0, 0] : Fin 3 → Nat) = fun _ => 0 := funext fun a => by fin_cases a <;> rfl
private theorem hz4 : (![0, 0, 0, 0] : Fin 4 → Nat) = fun _ => 0 := funext fun a => by fin_cases a <;> rfl

/-! ## The pieces read back

Every store and every load of the two bodies is through the whole-buffer rectangle at zero offsets. So the canon of a
piece list whose last store is whole is that store's payload; a load of an input buffer reads the block it holds; and a
load of the accumulator after a whole store reads that store's payload. What is left is the payload chain of the
loaded blocks, which is the definition of the right-hand side. -/

set_option maxHeartbeats 400000 in
/-- Reset case: the accumulator ends at the update of the zero splat. -/
theorem sout0_A_eq (c : Dev nD) (i : grid0.Coords) (arg2 : Memref sig .tc .vmem S1x1024x256 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S1x8x64x64 .f32) (harg5 : arg5.IsWhole) (arg6 : Memref sig .tc .vmem S8x64x64 .f32) (harg6 : arg6.IsWhole) (hc0 : cond0_0 i) (x0 : Vec F S1x1024x256 .f32) (x1 : Vec F S256x512 .f32) (x2 : Vec F S256x512 .f32) :
    sout0_A_0 c i arg2 harg2 arg3 harg3 arg4 harg4 arg5 harg5 arg6 harg6 hc0 x0 x1 x2 = accNext x0 x1 x2 (k0_pay2 (F := F)) := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  rw [View.canon_cons_unit_zero (S := S8x64x64) hz3]
  simp only [View.readCov_unit_zero (S := S8x64x64) _ hz3, View.readAt_eq_ld, harg2.read_unread, harg3.read_unread, harg4.read_unread, harg6.read_unread,
    View.ld_unit_zero (S := S1x1024x256) hz3, View.ld_unit_zero (S := S256x512) hz2, View.ld_unit_zero (S := S8x64x64) hz3]
  rfl

set_option maxHeartbeats 400000 in
/-- Reset case: the output buffer ends at the updated accumulator, reshaped to the block. -/
theorem out0_A_eq (c : Dev nD) (i : grid0.Coords) (arg2 : Memref sig .tc .vmem S1x1024x256 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S1x8x64x64 .f32) (harg5 : arg5.IsWhole) (arg6 : Memref sig .tc .vmem S8x64x64 .f32) (harg6 : arg6.IsWhole) (hc0 : cond0_0 i) (x0 : Vec F S1x1024x256 .f32) (x1 : Vec F S256x512 .f32) (x2 : Vec F S256x512 .f32) :
    out0_A_3 c i arg2 harg2 arg3 harg3 arg4 harg4 arg5 harg5 arg6 harg6 hc0 x0 x1 x2 = k0_pay1 (accNext x0 x1 x2 (k0_pay2 (F := F))) := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_unit_zero (S := S1x8x64x64) hz4]
  simp only [View.readCov_cons_toLoadRect, View.readCov_unit_zero (S := S8x64x64) _ hz3, View.readAt_eq_ld, harg2.read_unread, harg3.read_unread, harg4.read_unread, harg6.read_unread,
    View.ld_unit_zero (S := S1x1024x256) hz3, View.ld_unit_zero (S := S256x512) hz2, View.ld_unit_zero (S := S8x64x64) hz3]
  rfl

set_option maxHeartbeats 400000 in
/-- Accumulating case: the accumulator ends at the update of what the point before left. -/
theorem sout0_B_eq (c : Dev nD) (i : grid0.Coords) (arg2 : Memref sig .tc .vmem S1x1024x256 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S1x8x64x64 .f32) (harg5 : arg5.IsWhole) (arg6 : Memref sig .tc .vmem S8x64x64 .f32) (harg6 : arg6.IsWhole) (hc0 : ¬cond0_0 i) (x0 : Vec F S1x1024x256 .f32) (x1 : Vec F S256x512 .f32) (x2 : Vec F S256x512 .f32) (xs0 : Vec F S8x64x64 .f32) :
    sout0_B_0 c i arg2 harg2 arg3 harg3 arg4 harg4 arg5 harg5 arg6 harg6 hc0 x0 x1 x2 xs0 = accNext x0 x1 x2 xs0 := by
  unfold sout0_B_0
  rw [View.read_writes_eq_canon _ _ _ (scover0_B_0 c i arg2 harg2 arg3 harg3 arg4 harg4 arg5 harg5 arg6 harg6 hc0 x0 x1 x2 xs0)]
  unfold kernelRun0_B
  dsimp only
  sl_unfold_words
  rw [View.canon_unit_zero (S := S8x64x64) hz3]
  simp only [View.readAt_eq_ld, harg2.read_unread, harg3.read_unread, harg4.read_unread, harg6.read_unread,
    View.ld_unit_zero (S := S1x1024x256) hz3, View.ld_unit_zero (S := S256x512) hz2, View.ld_unit_zero (S := S8x64x64) hz3]
  rfl

set_option maxHeartbeats 400000 in
/-- Accumulating case: the output buffer ends at the updated accumulator, reshaped to the block. -/
theorem out0_B_eq (c : Dev nD) (i : grid0.Coords) (arg2 : Memref sig .tc .vmem S1x1024x256 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S1x8x64x64 .f32) (harg5 : arg5.IsWhole) (arg6 : Memref sig .tc .vmem S8x64x64 .f32) (harg6 : arg6.IsWhole) (hc0 : ¬cond0_0 i) (x0 : Vec F S1x1024x256 .f32) (x1 : Vec F S256x512 .f32) (x2 : Vec F S256x512 .f32) (xs0 : Vec F S8x64x64 .f32) :
    out0_B_3 c i arg2 harg2 arg3 harg3 arg4 harg4 arg5 harg5 arg6 harg6 hc0 x0 x1 x2 xs0 = k0_pay1 (accNext x0 x1 x2 xs0) := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  sl_unfold_words
  rw [View.canon_unit_zero (S := S1x8x64x64) hz4]
  simp only [View.readCov_unit_zero (S := S8x64x64) _ hz3, View.readAt_eq_ld, harg2.read_unread, harg3.read_unread, harg4.read_unread, harg6.read_unread,
    View.ld_unit_zero (S := S1x1024x256) hz3, View.ld_unit_zero (S := S256x512) hz2, View.ld_unit_zero (S := S8x64x64) hz3]
  rfl

set_option maxHeartbeats 400000 in
/-- The second kernel: the output buffer ends at the body's payload chain of the five loaded blocks. -/
theorem out1_eq (c : Dev nD) (i : grid1.Coords) (arg2 : Memref sig .tc .vmem S1x1024x256 .f32) (harg2 : arg2.IsWhole) (arg3 : Memref sig .tc .vmem S256x512 .f32) (harg3 : arg3.IsWhole) (arg4 : Memref sig .tc .vmem S1x8x64x64 .f32) (harg4 : arg4.IsWhole) (arg5 : Memref sig .tc .vmem S512x256 .f32) (harg5 : arg5.IsWhole) (arg6 : Memref sig .tc .vmem S256 .f32) (harg6 : arg6.IsWhole) (arg7 : Memref sig .tc .vmem S1x1024x256 .f32) (harg7 : arg7.IsWhole)
    (x0 : Vec F S1x1024x256 .f32) (x1 : Vec F S256x512 .f32) (x2 : Vec F S1x8x64x64 .f32) (x3 : Vec F S512x256 .f32) (x4 : Vec F S256 .f32) :
    out1_5 c i arg2 harg2 arg3 harg3 arg4 harg4 arg5 harg5 arg6 harg6 arg7 harg7 x0 x1 x2 x3 x4 = outBlk x0 x1 x2 x3 x4 := by
  unfold out1_5
  rw [View.read_writes_eq_canon _ _ _ (cover1_5 c i arg2 harg2 arg3 harg3 arg4 harg4 arg5 harg5 arg6 harg6 arg7 harg7 x0 x1 x2 x3 x4)]
  unfold kernelRun1
  dsimp only
  sl_unfold_words
  rw [View.canon_unit_zero (S := S1x1024x256) hz3]
  simp only [View.readAt_eq_ld, harg2.read_unread, harg3.read_unread, harg4.read_unread, harg5.read_unread, harg6.read_unread,
    View.ld_unit_zero (S := S1x1024x256) hz3, View.ld_unit_zero (S := S256x512) hz2, View.ld_unit_zero (S := S1x8x64x64) hz4,
    View.ld_unit_zero (S := S512x256) hz2, View.ld_unit_zero (S := S256) hz1]
  rfl

end Cert.KernelIdeal.Fr

end
-- ==== Proof.KV0Point.lean ====
/-
  One grid point of the first kernel at the ideal values, index by index: the updated accumulator at (h, d, e) is the
  accumulator as loaded plus the sum over the tile's 1024 rows of the normalised key entry d times the normalised value
  entry e of head h, where a row's key (value) for head h is the activations row times columns 64h … 64h+63 of the
  transposed key (value) weights, and normalisation subtracts the row's mean over the 64 and multiplies by the reciprocal
  square root of the biased variance plus ε. Format changes are the identity; each matrix product into the zero
  accumulator is a plain sum over the contracted coordinate; a lane reduction is a sum over the 64.
-/
import proofs.«176983_j50680614093003_1_alg».proof.Proof.KVDefs
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Fr

open Idealize.ShloMosaic Idealize.ShloMosaic.TcCoe Idealize.ShloMosaic.ValueIdx
open Idealize.SL Idealize.SL.Sem
open Cert.KernelIdeal Cert.KernelIdeal.Gen

section Generic
variable {F : FTy → Type} [FloatOps F]

/-- The row mean over the 64 lanes, as a column. -/
def meanV (t : FVec F S1024x64 .f32) : FVec F S1024x1 .f32 :=
  divf (shapeCast S1024x1 (multiReduction .add [1] S1024 t 0x00000000#32 reduces_S1024x64_S1024 (.inl rfl) rfl) shapeCasts_S1024_S1024x1)
    (broadcast S1024x1 (Scalar.ofBits .f32 0x42800000#32))

/-- The rows centred. -/
def centV (t : FVec F S1024x64 .f32) : FVec F S1024x64 .f32 :=
  subf t (broadcastTo S1024x64 (meanV t) broadcasts_S1024x1_S1024x64)

/-- Instance normalisation of each row of 64. -/
def inormV (t : FVec F S1024x64 .f32) : FVec F S1024x64 .f32 :=
  mulf (centV t) (broadcastTo S1024x64 (rsqrt (addf (meanV (mulf (centV t) (centV t))) (broadcast S1024x1 (Scalar.ofBits .f32 0x3727C5AC#32)))) broadcasts_S1024x1_S1024x64)

/-- One head's product of normalised keys by normalised values over the tile's rows. -/
def headC (o : Nat) (hs : S1024x512.Slices ![0, o] S1024x64) (K V : FVec F S1024x512 .f32) : FVec F S64x64 .f32 :=
  matmul dot_S1024x64_S1024x64_S64x64_0_0_1_1_n_n none
    (truncf .bf16 (inormV (extractStridedSlice S1024x64 ![0, o] K hs)) bitsLt_bf16_f32)
    (truncf .bf16 (inormV (extractStridedSlice S1024x64 ![0, o] V hs)) bitsLt_bf16_f32)
    (constant S64x64 .f32 0x00000000#32)

/-- Eight [64, 64] blocks stacked along a new leading axis. -/
def stackV (c0 c1 c2 c3 c4 c5 c6 c7 : FVec F S64x64 .f32) : FVec F S8x64x64 .f32 :=
  concatenate S8x64x64 0 [⟨S1x64x64, shapeCast S1x64x64 c0 shapeCasts_S64x64_S1x64x64⟩, ⟨S1x64x64, shapeCast S1x64x64 c1 shapeCasts_S64x64_S1x64x64⟩,
    ⟨S1x64x64, shapeCast S1x64x64 c2 shapeCasts_S64x64_S1x64x64⟩, ⟨S1x64x64, shapeCast S1x64x64 c3 shapeCasts_S64x64_S1x64x64⟩,
    ⟨S1x64x64, shapeCast S1x64x64 c4 shapeCasts_S64x64_S1x64x64⟩, ⟨S1x64x64, shapeCast S1x64x64 c5 shapeCasts_S64x64_S1x64x64⟩,
    ⟨S1x64x64, shapeCast S1x64x64 c6 shapeCasts_S64x64_S1x64x64⟩, ⟨S1x64x64, shapeCast S1x64x64 c7 shapeCasts_S64x64_S1x64x64⟩]
    concatenates_S1x64x64_S1x64x64_S1x64x64_S1x64x64_S1x64x64_S1x64x64_S1x64x64_S1x64x64_S8x64x64_d0

set_option maxHeartbeats 1000000 in
/-- The body's payload chain is the accumulator plus the stack of the eight heads' products. -/
theorem accNext_eq (x0 : Vec F S1x1024x256 .f32) (x1 x2 : Vec F S256x512 .f32) (acc : Vec F S8x64x64 .f32) :
    accNext x0 x1 x2 acc
      = shapeCast S8x64x64 (addf acc (stackV
          (headC 0 slices_S1024x512_o0_0_S1024x64 (k0_pay4 x0 x1) (k0_pay5 x0 x2))
          (headC 64 slices_S1024x512_o0_64_S1024x64 (k0_pay4 x0 x1) (k0_pay5 x0 x2))
          (headC 128 slices_S1024x512_o0_128_S1024x64 (k0_pay4 x0 x1) (k0_pay5 x0 x2))
          (headC 192 slices_S1024x512_o0_192_S1024x64 (k0_pay4 x0 x1) (k0_pay5 x0 x2))
          (headC 256 slices_S1024x512_o0_256_S1024x64 (k0_pay4 x0 x1) (k0_pay5 x0 x2))
          (headC 320 slices_S1024x512_o0_320_S1024x64 (k0_pay4 x0 x1) (k0_pay5 x0 x2))
          (headC 384 slices_S1024x512_o0_384_S1024x64 (k0_pay4 x0 x1) (k0_pay5 x0 x2))
          (headC 448 slices_S1024x512_o0_448_S1024x64 (k0_pay4 x0 x1) (k0_pay5 x0 x2)))) shapeCasts_S8x64x64_S8x64x64 := rfl

end Generic

section AtIdeal
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column broadcast over many: an `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index over row `r` with lane `k` inserted is `(r, k)`. -/
theorem lift_ix1 (hR : S1024x64.Reduces [1] S1024) (r : Fin 1024) (k : Fin 64) :
    hR.lift (ix1 r) k = ix2 r k := by
  funext a
  match a with
  | ⟨0, _⟩ => exact Fin.ext rfl
  | ⟨1, _⟩ => exact Fin.ext rfl

/-- The lane sum of row `r`. -/
theorem rowSum_apply (t : FVec Ideal S1024x64 .f32) (r : Fin 1024) :
    multiReduction (F := Ideal) .add [1] S1024 t 0x00000000#32 reduces_S1024x64_S1024 (.inl rfl) rfl (ix1 r)
      = ∑ e : Fin 64, t (ix2 r e) := by
  refine (Ideal.multiReduction_add_single t _ reduces_S1024x64_S1024 (.inl rfl) rfl (ix1 r)).trans ?_
  exact Finset.sum_congr rfl fun k _ => congrArg t (lift_ix1 _ r k)

/-- The row mean at row `r`. -/
theorem meanV_apply (t : FVec Ideal S1024x64 .f32) (r : Fin 1024) (u : Fin 1) :
    meanV (F := Ideal) t (ix2 r u) = Cert.Spec.mean64 fun e => t (ix2 r e) := by
  unfold meanV Cert.Spec.mean64
  rw [divf_apply, broadcast_apply, shapeCast_a_a1_apply, rowSum_apply]
  rfl

/-- The centred rows at `(r, e)`. -/
theorem centV_apply (t : FVec Ideal S1024x64 .f32) (r : Fin 1024) (e : Fin 64) :
    centV (F := Ideal) t (ix2 r e) = t (ix2 r e) - Cert.Spec.mean64 fun e' => t (ix2 r e') := by
  unfold centV
  rw [subf_apply, broadcastTo_a1_ab_apply, meanV_apply]

/-- A reciprocal square root reads lane by lane. -/
theorem rsqrt_apply {s : Shape} {φ : FTy} (x : FVec Ideal s φ) (i : s.Idx) : rsqrt x i = Ideal.rsqrt (x i) := rfl

/-- The specification's normalisation with its variance written as the mean of the squared centred row. -/
theorem inorm_eq (s : Fin 64 → EReal) (e : Fin 64) :
    Cert.Spec.inorm s e
      = (s e - Cert.Spec.mean64 s) * Ideal.rsqrt (Cert.Spec.mean64 (fun e' => (s e' - Cert.Spec.mean64 s) * (s e' - Cert.Spec.mean64 s)) + Cert.Spec.ceps) := rfl

/-- Instance normalisation at `(r, e)` is the specification's, of row `r`. -/
theorem inormV_apply (t : FVec Ideal S1024x64 .f32) (r : Fin 1024) (e : Fin 64) :
    inormV (F := Ideal) t (ix2 r e) = Cert.Spec.inorm (fun e' => t (ix2 r e')) e := by
  unfold inormV
  rw [inorm_eq, mulf_apply, broadcastTo_a1_ab_apply, centV_apply, rsqrt_apply, addf_apply, meanV_apply, broadcast_apply]
  simp only [mulf_apply, centV_apply]
  rfl

end AtIdeal

section AtIdeal2

/-- The contraction of the heads' product runs over the rows: the operands' indices at output `(d, e)`. -/
theorem hc_lhs_0 (i : S64x64.Idx) (q : dot_S1024x64_S1024x64_S64x64_0_0_1_1_n_n.contr.Idx) :
    (dot_S1024x64_S1024x64_S64x64_0_0_1_1_n_n.lhsIdx i q 0).val = (q ⟨0, by decide⟩).val :=
  dot_S1024x64_S1024x64_S64x64_0_0_1_1_n_n.lhsIdx_val_of_single rfl i q
theorem hc_lhs_1 (i : S64x64.Idx) (q : dot_S1024x64_S1024x64_S64x64_0_0_1_1_n_n.contr.Idx) :
    (dot_S1024x64_S1024x64_S64x64_0_0_1_1_n_n.lhsIdx i q 1).val = (i 0).val := by
  unfold DotDims.lhsIdx
  rw [dif_neg (show ¬(1 : Fin S1024x64.rank) ∈ dot_S1024x64_S1024x64_S64x64_0_0_1_1_n_n.lhsBatch by decide), dif_pos (show (1 : Fin S1024x64.rank) ∈ dot_S1024x64_S1024x64_S64x64_0_0_1_1_n_n.lhsNonContracting by decide)]
  rfl
theorem hc_rhs_0 (i : S64x64.Idx) (q : dot_S1024x64_S1024x64_S64x64_0_0_1_1_n_n.contr.Idx) :
    (dot_S1024x64_S1024x64_S64x64_0_0_1_1_n_n.rhsIdx i q 0).val = (q ⟨0, by decide⟩).val :=
  dot_S1024x64_S1024x64_S64x64_0_0_1_1_n_n.rhsIdx_val_of_single rfl i q
theorem hc_rhs_1 (i : S64x64.Idx) (q : dot_S1024x64_S1024x64_S64x64_0_0_1_1_n_n.contr.Idx) :
    (dot_S1024x64_S1024x64_S64x64_0_0_1_1_n_n.rhsIdx i q 1).val = (i 1).val := by
  unfold DotDims.rhsIdx
  rw [dif_neg (show ¬(1 : Fin S1024x64.rank) ∈ dot_S1024x64_S1024x64_S64x64_0_0_1_1_n_n.rhsBatch by decide), dif_pos (show (1 : Fin S1024x64.rank) ∈ dot_S1024x64_S1024x64_S64x64_0_0_1_1_n_n.rhsNonContracting by decide)]
  rfl

/-- A product contracted over the rows, into the zero accumulator, at `(d, e)`. -/
theorem rowsProd_apply (a b : FVec Ideal S1024x64 .bf16) (d e : Fin 64) :
    matmul (F := Ideal) dot_S1024x64_S1024x64_S64x64_0_0_1_1_n_n none a b (constant S64x64 .f32 0x00000000#32) (ix2 d e)
      = ∑ r : Fin 1024, a (ix2 r d) * b (ix2 r e) := by
  simp only [matmul]
  rw [Ideal.matmul_constant_zero_apply, ← Equiv.sum_comp (ValueIdx.contrEquiv1 dot_S1024x64_S1024x64_S64x64_0_0_1_1_n_n 1024 rfl rfl).symm]
  refine Finset.sum_congr rfl fun k _ => ?_
  have hk := ValueIdx.contrEquiv1_symm_val dot_S1024x64_S1024x64_S64x64_0_0_1_1_n_n 1024 rfl rfl k
  have el : dot_S1024x64_S1024x64_S64x64_0_0_1_1_n_n.lhsIdx (ix2 d e) ((ValueIdx.contrEquiv1 dot_S1024x64_S1024x64_S64x64_0_0_1_1_n_n 1024 rfl rfl).symm k) = ix2 k d := funext fun a => Fin.ext (by
    match a with
    | ⟨0, _⟩ => exact (hc_lhs_0 _ _).trans hk
    | ⟨1, _⟩ => exact hc_lhs_1 _ _)
  have er : dot_S1024x64_S1024x64_S64x64_0_0_1_1_n_n.rhsIdx (ix2 d e) ((ValueIdx.contrEquiv1 dot_S1024x64_S1024x64_S64x64_0_0_1_1_n_n 1024 rfl rfl).symm k) = ix2 k e := funext fun a => Fin.ext (by
    match a with
    | ⟨0, _⟩ => exact (hc_rhs_0 _ _).trans hk
    | ⟨1, _⟩ => exact hc_rhs_1 _ _)
  rw [el, er]

end AtIdeal2

section AtIdeal3

/-- The projection's contraction runs over the 256 channels: the operands' indices at output `(r, j)`. -/
theorem pd_lhs_0 (i : S1024x512.Idx) (q : dot_S1024x256_S256x512_S1024x512_1_0_0_1_n_n.contr.Idx) :
    (dot_S1024x256_S256x512_S1024x512_1_0_0_1_n_n.lhsIdx i q 0).val = (i 0).val := by
  unfold DotDims.lhsIdx
  rw [dif_neg (show ¬(0 : Fin S1024x256.rank) ∈ dot_S1024x256_S256x512_S1024x512_1_0_0_1_n_n.lhsBatch by decide), dif_pos (show (0 : Fin S1024x256.rank) ∈ dot_S1024x256_S256x512_S1024x512_1_0_0_1_n_n.lhsNonContracting by decide)]
  rfl
theorem pd_lhs_1 (i : S1024x512.Idx) (q : dot_S1024x256_S256x512_S1024x512_1_0_0_1_n_n.contr.Idx) :
    (dot_S1024x256_S256x512_S1024x512_1_0_0_1_n_n.lhsIdx i q 1).val = (q ⟨0, by decide⟩).val :=
  dot_S1024x256_S256x512_S1024x512_1_0_0_1_n_n.lhsIdx_val_of_single rfl i q
theorem pd_rhs_0 (i : S1024x512.Idx) (q : dot_S1024x256_S256x512_S1024x512_1_0_0_1_n_n.contr.Idx) :
    (dot_S1024x256_S256x512_S1024x512_1_0_0_1_n_n.rhsIdx i q 0).val = (q ⟨0, by decide⟩).val :=
  dot_S1024x256_S256x512_S1024x512_1_0_0_1_n_n.rhsIdx_val_of_single rfl i q
theorem pd_rhs_1 (i : S1024x512.Idx) (q : dot_S1024x256_S256x512_S1024x512_1_0_0_1_n_n.contr.Idx) :
    (dot_S1024x256_S256x512_S1024x512_1_0_0_1_n_n.rhsIdx i q 1).val = (i 1).val := by
  unfold DotDims.rhsIdx
  rw [dif_neg (show ¬(1 : Fin S256x512.rank) ∈ dot_S1024x256_S256x512_S1024x512_1_0_0_1_n_n.rhsBatch by decide), dif_pos (show (1 : Fin S256x512.rank) ∈ dot_S1024x256_S256x512_S1024x512_1_0_0_1_n_n.rhsNonContracting by decide)]
  rfl

/-- A plain [1024, 256] by [256, 512] product into the zero accumulator, at `(r, j)`. -/
theorem plainProd_apply (a : FVec Ideal S1024x256 .bf16) (b : FVec Ideal S256x512 .bf16) (r : Fin 1024) (j : Fin 512) :
    matmul (F := Ideal) dot_S1024x256_S256x512_S1024x512_1_0_0_1_n_n none a b (constant S1024x512 .f32 0x00000000#32) (ix2 r j)
      = ∑ dd : Fin 256, a (ix2 r dd) * b (ix2 dd j) := by
  simp only [matmul]
  rw [Ideal.matmul_constant_zero_apply, ← Equiv.sum_comp (ValueIdx.contrEquiv1 dot_S1024x256_S256x512_S1024x512_1_0_0_1_n_n 256 rfl rfl).symm]
  refine Finset.sum_congr rfl fun k _ => ?_
  have hk := ValueIdx.contrEquiv1_symm_val dot_S1024x256_S256x512_S1024x512_1_0_0_1_n_n 256 rfl rfl k
  have el : dot_S1024x256_S256x512_S1024x512_1_0_0_1_n_n.lhsIdx (ix2 r j) ((ValueIdx.contrEquiv1 dot_S1024x256_S256x512_S1024x512_1_0_0_1_n_n 256 rfl rfl).symm k) = ix2 r k := funext fun a => Fin.ext (by
    match a with
    | ⟨0, _⟩ => exact pd_lhs_0 _ _
    | ⟨1, _⟩ => exact (pd_lhs_1 _ _).trans hk)
  have er : dot_S1024x256_S256x512_S1024x512_1_0_0_1_n_n.rhsIdx (ix2 r j) ((ValueIdx.contrEquiv1 dot_S1024x256_S256x512_S1024x512_1_0_0_1_n_n 256 rfl rfl).symm k) = ix2 k j := funext fun a => Fin.ext (by
    match a with
    | ⟨0, _⟩ => exact (pd_rhs_0 _ _).trans hk
    | ⟨1, _⟩ => exact pd_rhs_1 _ _)
  rw [el, er]

end AtIdeal3

section Projections
variable {F : FTy → Type} [FloatOps F]

/-- The keys' projection: the tile, its unit axis dropped, times the transposed key weights. -/
theorem pay4_eq (x : Vec F S1x1024x256 .f32) (w : Vec F S256x512 .f32) :
    k0_pay4 x w = matmul dot_S1024x256_S256x512_S1024x512_1_0_0_1_n_n none
      (truncf .bf16 (shapeCast S1024x256 x shapeCasts_S1x1024x256_S1024x256) bitsLt_bf16_f32)
      (truncf .bf16 (shapeCast S256x512 w shapeCasts_S256x512_S256x512) bitsLt_bf16_f32)
      (constant S1024x512 .f32 0x00000000#32) := rfl

/-- The values' projection likewise. -/
theorem pay5_eq (x : Vec F S1x1024x256 .f32) (w : Vec F S256x512 .f32) :
    k0_pay5 x w = matmul dot_S1024x256_S256x512_S1024x512_1_0_0_1_n_n none
      (truncf .bf16 (shapeCast S1024x256 x shapeCasts_S1x1024x256_S1024x256) bitsLt_bf16_f32)
      (truncf .bf16 (shapeCast S256x512 w shapeCasts_S256x512_S256x512) bitsLt_bf16_f32)
      (constant S1024x512 .f32 0x00000000#32) := rfl

end Projections

section AtIdeal4

/-- The keys' projection at `(r, j)`. -/
theorem pay4_apply (x : Vec Ideal S1x1024x256 .f32) (w : Vec Ideal S256x512 .f32) (r : Fin 1024) (j : Fin 512) :
    k0_pay4 (F := Ideal) x w (ix2 r j) = projB x w r j := by
  rw [pay4_eq, plainProd_apply]
  unfold projB
  refine Finset.sum_congr rfl fun dd _ => ?_
  rw [truncf_apply, truncf_apply, shapeCast_1ab_ab_apply, shapeCast_self]

/-- The values' projection at `(r, j)`. -/
theorem pay5_apply (x : Vec Ideal S1x1024x256 .f32) (w : Vec Ideal S256x512 .f32) (r : Fin 1024) (j : Fin 512) :
    k0_pay5 (F := Ideal) x w (ix2 r j) = projB x w r j := by
  rw [pay5_eq, plainProd_apply]
  unfold projB
  refine Finset.sum_congr rfl fun dd _ => ?_
  rw [truncf_apply, truncf_apply, shapeCast_1ab_ab_apply, shapeCast_self]

/-- A block of 64 columns from column `64 h` on reads, at `(r, e)`, column `64 h + e`. -/
theorem slice_col (o : Nat) (hs : S1024x512.Slices ![0, o] S1024x64) (X : FVec Ideal S1024x512 .f32) (h : Fin 8) (ho : o = 64 * h.val)
    (r : Fin 1024) (e : Fin 64) :
    extractStridedSlice S1024x64 ![0, o] X hs (ix2 r e) = X (ix2 r (Cert.Spec.col h e)) :=
  slice2_axis1_apply o X hs r e (Cert.Spec.col h e) (by rw [ho]; rfl)

/-- One head's product at `(d, e)`: the sum over the rows of the normalised key entry by the normalised value entry. -/
theorem headC_apply (o : Nat) (hs : S1024x512.Slices ![0, o] S1024x64) (K V : FVec Ideal S1024x512 .f32) (h : Fin 8) (ho : o = 64 * h.val)
    (d e : Fin 64) :
    headC (F := Ideal) o hs K V (ix2 d e)
      = ∑ r : Fin 1024, Cert.Spec.inorm (fun e' => K (ix2 r (Cert.Spec.col h e'))) d * Cert.Spec.inorm (fun e' => V (ix2 r (Cert.Spec.col h e'))) e := by
  unfold headC
  rw [rowsProd_apply]
  refine Finset.sum_congr rfl fun r _ => ?_
  rw [truncf_apply, truncf_apply, inormV_apply, inormV_apply]
  simp only [slice_col o hs _ h ho]

/-- One head's product of the two projections is the tile's contribution to that head. -/
theorem head_contrib (o : Nat) (hs : S1024x512.Slices ![0, o] S1024x64) (x0 : Vec Ideal S1x1024x256 .f32) (x1 x2 : Vec Ideal S256x512 .f32)
    (h : Fin 8) (ho : o = 64 * h.val) (d e : Fin 64) :
    headC (F := Ideal) o hs (k0_pay4 x0 x1) (k0_pay5 x0 x2) (ix2 d e) = contribP x0 x1 x2 h d e := by
  rw [headC_apply o hs _ _ h ho]
  unfold contribP
  simp only [pay4_apply, pay5_apply]

/-- A stack of [64, 64] blocks, each given a unit leading axis, reads block `k` at `(k, d, e)`. -/
theorem concat_unit_piece {α : Type} (xs : List ((s : Shape) × (s.Idx → α))) (hc : Shape.Concatenates (xs.map (·.1)) S8x64x64 0)
    (hlen : xs.length = 8) (k : Fin 8) (ck : S64x64.Idx → α) (hs : S64x64.ShapeCasts S1x64x64)
    (hxk : xs[k.val]'(Nat.lt_of_lt_of_eq k.isLt hlen.symm) = ⟨S1x64x64, shapeCast S1x64x64 ck hs⟩)
    (hpre : (((xs.take k.val).map (·.1)).map fun s => if h : s.rank = S8x64x64.rank then s.size ((0 : Fin S8x64x64.rank).cast h.symm) else 0).sum = k.val)
    (d e : Fin 64) :
    concatenate S8x64x64 0 xs hc (ix3 k d e) = ck (ix2 d e) :=
  (concatenate_apply_piece (0 : Fin S8x64x64.rank) xs hc (ix3 k d e) k.val (Nat.lt_of_lt_of_eq k.isLt hlen.symm) S1x64x64 _ hxk rfl k.val hpre (ix3 (0 : Fin 1) d e)
    (fun b hb => by
      match b with
      | ⟨0, _⟩ => exact absurd rfl hb
      | ⟨1, _⟩ => rfl
      | ⟨2, _⟩ => rfl) rfl).trans
    (shapeCast_ab_1ab_apply ck hs 0 d e)

end AtIdeal4

/-- The updated accumulator at (h, d, e). -/
theorem accNext_apply (x0 : Vec Ideal S1x1024x256 .f32) (x1 x2 : Vec Ideal S256x512 .f32) (acc : Vec Ideal S8x64x64 .f32)
    (h : Fin 8) (d e : Fin 64) :
    accNext (F := Ideal) x0 x1 x2 acc (ix3 h d e) = acc (ix3 h d e) + contribP x0 x1 x2 h d e := by
  rw [accNext_eq, shapeCast_self, addf_apply]
  refine congrArg (acc (ix3 h d e) + ·) ?_
  unfold stackV
  match h with
  | ⟨0, _⟩ =>
    exact (concat_unit_piece _ _ rfl ⟨0, by decide⟩ (headC 0 slices_S1024x512_o0_0_S1024x64 (k0_pay4 x0 x1) (k0_pay5 x0 x2)) _ rfl rfl d e).trans
      (head_contrib 0 _ x0 x1 x2 ⟨0, by decide⟩ rfl d e)
  | ⟨1, _⟩ =>
    exact (concat_unit_piece _ _ rfl ⟨1, by decide⟩ (headC 64 slices_S1024x512_o0_64_S1024x64 (k0_pay4 x0 x1) (k0_pay5 x0 x2)) _ rfl rfl d e).trans
      (head_contrib 64 _ x0 x1 x2 ⟨1, by decide⟩ rfl d e)
  | ⟨2, _⟩ =>
    exact (concat_unit_piece _ _ rfl ⟨2, by decide⟩ (headC 128 slices_S1024x512_o0_128_S1024x64 (k0_pay4 x0 x1) (k0_pay5 x0 x2)) _ rfl rfl d e).trans
      (head_contrib 128 _ x0 x1 x2 ⟨2, by decide⟩ rfl d e)
  | ⟨3, _⟩ =>
    exact (concat_unit_piece _ _ rfl ⟨3, by decide⟩ (headC 192 slices_S1024x512_o0_192_S1024x64 (k0_pay4 x0 x1) (k0_pay5 x0 x2)) _ rfl rfl d e).trans
      (head_contrib 192 _ x0 x1 x2 ⟨3, by decide⟩ rfl d e)
  | ⟨4, _⟩ =>
    exact (concat_unit_piece _ _ rfl ⟨4, by decide⟩ (headC 256 slices_S1024x512_o0_256_S1024x64 (k0_pay4 x0 x1) (k0_pay5 x0 x2)) _ rfl rfl d e).trans
      (head_contrib 256 _ x0 x1 x2 ⟨4, by decide⟩ rfl d e)
  | ⟨5, _⟩ =>
    exact (concat_unit_piece _ _ rfl ⟨5, by decide⟩ (headC 320 slices_S1024x512_o0_320_S1024x64 (k0_pay4 x0 x1) (k0_pay5 x0 x2)) _ rfl rfl d e).trans
      (head_contrib 320 _ x0 x1 x2 ⟨5, by decide⟩ rfl d e)
  | ⟨6, _⟩ =>
    exact (concat_unit_piece _ _ rfl ⟨6, by decide⟩ (headC 384 slices_S1024x512_o0_384_S1024x64 (k0_pay4 x0 x1) (k0_pay5 x0 x2)) _ rfl rfl d e).trans
      (head_contrib 384 _ x0 x1 x2 ⟨6, by decide⟩ rfl d e)
  | ⟨7, _⟩ =>
    exact (concat_unit_piece _ _ rfl ⟨7, by decide⟩ (headC 448 slices_S1024x512_o0_448_S1024x64 (k0_pay4 x0 x1) (k0_pay5 x0 x2)) _ rfl rfl d e).trans
      (head_contrib 448 _ x0 x1 x2 ⟨7, by decide⟩ rfl d e)

/-- The zero splat the reset stores is zero everywhere. -/
theorem pay2_apply (y : S8x64x64.Idx) : k0_pay2 (F := Ideal) y = 0 := by
  have e : k0_pay2 (F := Ideal)
      = shapeCast S8x64x64 (broadcast S8x64x64 (Scalar.ofBits .f32 0x00000000#32)) shapeCasts_S8x64x64_S8x64x64 := rfl
  rw [e, shapeCast_self, broadcast_apply]
  exact Ideal.ofBits_zero_f32

/-- The accumulator reshaped to the output block [1, 8, 64, 64]: entry (0, h, d, e) is the accumulator's (h, d, e). -/
theorem pay1_apply (v : Vec Ideal S8x64x64 .f32) (h : Fin 8) (d e : Fin 64) :
    k0_pay1 (F := Ideal) v (ix4 0 h d e) = v (ix3 h d e) :=
  shapeCast_abc_1abc_apply v shapeCasts_S8x64x64_S1x8x64x64 0 h d e

end Cert.KernelIdeal.Fr

end
-- ==== Proof.KV0.lean ====
/-
  The first kernel region's value at the ideal instance: after the region, the array of accumulated key-value
  products holds, at (b, h, d, e), the sum over all 8192 positions n of the normalised key entry d times the normalised
  value entry e of head h — the eight tiles' contributions added up in the accumulator and written back once per batch
  row.
-/
import proofs.«176983_j50680614093003_1_alg».proof.Proof.KVPieces
import proofs.«176983_j50680614093003_1_alg».proof.Proof.KV0Point
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Fr

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-- The first grid's index maps, decided once over its 64 points. -/
private theorem idx_facts0 : ∀ t : Fin cfg0.N,
    win0_0.index t (0 : Fin 3) = t.val / 8 ∧ win0_0.index t (1 : Fin 3) = t.val % 8 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 4) = t.val / 8 ∧ win0_3.index t (1 : Fin 4) = 0
    ∧ win0_3.index t (2 : Fin 4) = 0 ∧ win0_3.index t (3 : Fin 4) = 0 :=
  (by decide +kernel : ∀ t : Fin grid0.N, _)

section
variable (V : (c : Dev nD) → (b : Ref sig .tc) → Buf (Elt Ideal) ((c : Thread nD τ).loc b))

/-- The region-entry contents of the activations and of the two transposed weight slices, and their blocks at a point. -/
private abbrev xarr (c : Dev nD) : S8x8192x256.Idx → EReal := V c main_arg0
private abbrev wkarr (c : Dev nD) : S256x512.Idx → EReal := V c main_v3
private abbrev wvarr (c : Dev nD) : S256x512.Idx → EReal := V c main_v5
private abbrev xblk (c : Dev nD) (t : Fin cfg0.N) : S1x1024x256.Idx → EReal := iblk0 V c 0 t
private abbrev wkblk (c : Dev nD) (t : Fin cfg0.N) : S256x512.Idx → EReal := iblk0 V c 1 t
private abbrev wvblk (c : Dev nD) (t : Fin cfg0.N) : S256x512.Idx → EReal := iblk0 V c 2 t

set_option maxHeartbeats 400000 in
/-- The activations block at point 8·b + s, row r, is the array at batch row b, position 1024·s + r. -/
private theorem xblk_apply (c : Dev nD) (t : Fin cfg0.N) (b s : Fin 8) (ht : t.val = 8 * b.val + s.val) (r : Fin 1024) (dd : Fin 256) :
    xblk V c t (ix3 0 r dd)
      = xarr V c (ix3 b (⟨1024 * s.val + r.val, by have := r.isLt; have := s.isLt; omega⟩ : Fin 8192) dd) := by
  obtain ⟨e0, e1, e2, -⟩ := idx_facts0 t
  have hb := b.isLt
  have hs := s.isLt
  show V c main_arg0 (((cfg0.win 0).blk t).view.emb (ix3 0 r dd)) = V c main_arg0 _
  congr 1
  funext a
  apply Fin.ext
  match a with
  | ⟨0, _⟩ => show win0_0.index t (0 : Fin 3) * 1 + 1 * 0 = b.val; omega
  | ⟨1, _⟩ => show win0_0.index t (1 : Fin 3) * 1024 + 1 * r.val = 1024 * s.val + r.val; omega
  | ⟨2, _⟩ => show win0_0.index t (2 : Fin 3) * 256 + 1 * dd.val = dd.val; omega

set_option maxHeartbeats 400000 in
/-- The key weights' block is the whole array at every point. -/
private theorem wkblk_eq (c : Dev nD) (t : Fin cfg0.N) : wkblk V c t = wkarr V c := by
  obtain ⟨-, -, -, e0, e1, -⟩ := idx_facts0 t
  funext j
  show V c main_v3 (((cfg0.win 1).blk t).view.emb j) = V c main_v3 j
  congr 1
  funext a
  apply Fin.ext
  match a with
  | ⟨0, _⟩ => show win0_1.index t (0 : Fin 2) * 256 + 1 * (j 0).val = (j 0).val; omega
  | ⟨1, _⟩ => show win0_1.index t (1 : Fin 2) * 512 + 1 * (j 1).val = (j 1).val; omega

set_option maxHeartbeats 400000 in
/-- The value weights' block is the whole array at every point. -/
private theorem wvblk_eq (c : Dev nD) (t : Fin cfg0.N) : wvblk V c t = wvarr V c := by
  obtain ⟨-, -, -, -, -, e0, e1, -⟩ := idx_facts0 t
  funext j
  show V c main_v5 (((cfg0.win 2).blk t).view.emb j) = V c main_v5 j
  congr 1
  funext a
  apply Fin.ext
  match a with
  | ⟨0, _⟩ => show win0_2.index t (0 : Fin 2) * 256 + 1 * (j 0).val = (j 0).val; omega
  | ⟨1, _⟩ => show win0_2.index t (1 : Fin 2) * 512 + 1 * (j 1).val = (j 1).val; omega

end

section
variable (V : (c : Dev nD) → (b : Ref sig .tc) → Buf (Elt Ideal) ((c : Thread nD τ).loc b))

/-- The contribution of the tile at grid position `n` (zero past the grid). -/
private def tileC (c : Dev nD) (n : ℕ) (hd : Fin 8) (d e : Fin 64) : EReal :=
  if h : n < cfg0.N then contribP (xblk V c ⟨n, h⟩) (wkblk V c ⟨n, h⟩) (wvblk V c ⟨n, h⟩) hd d e else 0

private theorem tileC_of_lt (c : Dev nD) (n : ℕ) (h : n < cfg0.N) (hd : Fin 8) (d e : Fin 64) :
    tileC V c n hd d e = contribP (xblk V c ⟨n, h⟩) (wkblk V c ⟨n, h⟩) (wvblk V c ⟨n, h⟩) hd d e := dif_pos h

set_option maxHeartbeats 400000 in
/-- Every point's output buffer is its accumulator, reshaped. -/
private theorem out_eq_pay1 (c : Dev nD) (t : Fin cfg0.N) :
    (outsAt0 V c t.val t.isLt).1 = k0_pay1 (F := Ideal) (outsAt0 V c t.val t.isLt).2 := by
  by_cases h0 : t.val % 8 = 0
  · rw [outsAt0_A V c t h0]
    dsimp only
    exact (out0_A_eq (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (iblk0 V c 0 t) (iblk0 V c 1 t) (iblk0 V c 2 t)).trans
      (congrArg (k0_pay1 (F := Ideal)) (sout0_A_eq (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (iblk0 V c 0 t) (iblk0 V c 1 t) (iblk0 V c 2 t)).symm)
  · rw [outsAt0_B V c t h0]
    dsimp only
    exact (out0_B_eq (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk0 V c 0 t) (iblk0 V c 1 t) (iblk0 V c 2 t) (outsAt0 V c (t.val - 1) (Nat.lt_of_le_of_lt (Nat.sub_le _ _) t.isLt)).2).trans
      (congrArg (k0_pay1 (F := Ideal)) (sout0_B_eq (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk0 V c 0 t) (iblk0 V c 1 t) (iblk0 V c 2 t) (outsAt0 V c (t.val - 1) (Nat.lt_of_le_of_lt (Nat.sub_le _ _) t.isLt)).2).symm)

set_option maxHeartbeats 400000 in
/-- The accumulator at a reset point holds that tile's contribution. -/
private theorem acc_reset (c : Dev nD) (t : Fin cfg0.N) (h0 : t.val % 8 = 0) (hd : Fin 8) (d e : Fin 64) :
    (outsAt0 V c t.val t.isLt).2 (ix3 hd d e) = tileC V c t.val hd d e := by
  rw [outsAt0_A V c t h0]
  dsimp only
  refine (congrFun (sout0_A_eq (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (iblk0 V c 0 t) (iblk0 V c 1 t) (iblk0 V c 2 t)) (ix3 hd d e)).trans ?_
  refine (accNext_apply (iblk0 V c 0 t) (iblk0 V c 1 t) (iblk0 V c 2 t) (k0_pay2 (F := Ideal)) hd d e).trans ?_
  rw [pay2_apply, zero_add, tileC_of_lt V c t.val t.isLt]

set_option maxHeartbeats 400000 in
/-- The accumulator at an accumulating point holds what the point before left plus that tile's contribution. -/
private theorem acc_step (c : Dev nD) (t : Fin cfg0.N) (h0 : ¬t.val % 8 = 0) (hd : Fin 8) (d e : Fin 64) :
    (outsAt0 V c t.val t.isLt).2 (ix3 hd d e)
      = (outsAt0 V c (t.val - 1) (Nat.lt_of_le_of_lt (Nat.sub_le _ _) t.isLt)).2 (ix3 hd d e) + tileC V c t.val hd d e := by
  rw [outsAt0_B V c t h0]
  dsimp only
  refine (congrFun (sout0_B_eq (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk0 V c 0 t) (iblk0 V c 1 t) (iblk0 V c 2 t) (outsAt0 V c (t.val - 1) (Nat.lt_of_le_of_lt (Nat.sub_le _ _) t.isLt)).2) (ix3 hd d e)).trans ?_
  refine (accNext_apply (iblk0 V c 0 t) (iblk0 V c 1 t) (iblk0 V c 2 t) (outsAt0 V c (t.val - 1) (Nat.lt_of_le_of_lt (Nat.sub_le _ _) t.isLt)).2 hd d e).trans ?_
  rw [tileC_of_lt V c t.val t.isLt]

set_option maxHeartbeats 400000 in
/-- Inside a batch row the accumulator is the sum of the contributions of the tiles met so far. -/
private theorem acc_eq (c : Dev nD) (b : ℕ) (hd : Fin 8) (d e : Fin 64) : ∀ (j : ℕ) (hj : j < 8) (h : 8 * b + j < cfg0.N),
    (outsAt0 V c (8 * b + j) h).2 (ix3 hd d e) = ∑ s ∈ Finset.range (j + 1), tileC V c (8 * b + s) hd d e
  | 0, hj, h => by
    rw [Finset.sum_range_one]
    exact acc_reset V c ⟨8 * b + 0, h⟩ (by show (8 * b + 0) % 8 = 0; omega) hd d e
  | j + 1, hj, h => by
    rw [Finset.sum_range_succ _ (j + 1), ← acc_eq c b hd d e j (Nat.lt_of_succ_lt hj) (Nat.lt_of_succ_lt h)]
    exact acc_step V c ⟨8 * b + (j + 1), h⟩ (by show ¬(8 * b + (j + 1)) % 8 = 0; omega) hd d e

end

section
variable (V : (c : Dev nD) → (b : Ref sig .tc) → Buf (Elt Ideal) ((c : Thread nD τ).loc b))

/-- One position's product of the normalised key entry d by the normalised value entry e of head hd. -/
private def gA (c : Dev nD) (b hd : Fin 8) (d e : Fin 64) (n : Fin 8192) : EReal :=
  Cert.Spec.inorm (fun e' => Cert.Spec.projT (xarr V c) (wkarr V c) b n (Cert.Spec.col hd e')) d
    * Cert.Spec.inorm (fun e' => Cert.Spec.projT (xarr V c) (wvarr V c) b n (Cert.Spec.col hd e')) e

/-- A tile's projection is the array's at the tile's position. -/
private theorem projB_eq (c : Dev nD) (t : Fin cfg0.N) (b s : Fin 8) (ht : t.val = 8 * b.val + s.val) (w : S256x512.Idx → EReal)
    (r : Fin 1024) (j : Fin 512) :
    projB (xblk V c t) w r j
      = Cert.Spec.projT (xarr V c) w b (⟨1024 * s.val + r.val, by have := r.isLt; have := s.isLt; omega⟩ : Fin 8192) j := by
  unfold projB Cert.Spec.projT
  exact Finset.sum_congr rfl fun dd _ => by rw [xblk_apply V c t b s ht r dd]

set_option maxHeartbeats 400000 in
/-- The contribution of the tile at point 8·b + s is the sum of the products over positions 1024·s … 1024·s + 1023. -/
private theorem tileC_eq (c : Dev nD) (t : Fin cfg0.N) (b s : Fin 8) (ht : t.val = 8 * b.val + s.val) (hd : Fin 8) (d e : Fin 64) :
    tileC V c t.val hd d e
      = ∑ r : Fin 1024, gA V c b hd d e (⟨1024 * s.val + r.val, by have := r.isLt; have := s.isLt; omega⟩ : Fin 8192) := by
  rw [tileC_of_lt V c t.val t.isLt hd d e]
  show contribP (xblk V c t) (wkblk V c t) (wvblk V c t) hd d e = _
  rw [wkblk_eq, wvblk_eq]
  unfold contribP gA
  refine Finset.sum_congr rfl fun r _ => ?_
  simp only [projB_eq V c t b s ht]

/-- Eight tiles of 1024 positions are the 8192 positions. -/
private theorem sum_tiles (f : Fin 8192 → EReal) :
    ∑ s : Fin 8, ∑ r : Fin 1024, f (⟨1024 * s.val + r.val, by have := r.isLt; have := s.isLt; omega⟩ : Fin 8192) = ∑ n : Fin 8192, f n := by
  rw [← Equiv.sum_comp (finProdFinEquiv : Fin 8 × Fin 1024 ≃ Fin (8 * 1024)) f, Fintype.sum_prod_type]
  refine Finset.sum_congr rfl fun s _ => Finset.sum_congr rfl fun r _ => congrArg f (Fin.ext ?_)
  show 1024 * s.val + r.val = r.val + 1024 * s.val
  omega

set_option maxHeartbeats 400000 in
/-- After the last tile of batch row b the accumulator is the specification's sum over all positions. -/
private theorem acc_last (c : Dev nD) (b : Fin 8) (h : 8 * b.val + 7 < cfg0.N) (hd : Fin 8) (d e : Fin 64) :
    (outsAt0 V c (8 * b.val + 7) h).2 (ix3 hd d e) = Cert.Spec.dotsC (xarr V c) (wkarr V c) (wvarr V c) b hd d e := by
  rw [acc_eq V c b.val hd d e 7 (by omega) h, Finset.sum_range]
  have hN : cfg0.N = 64 := N_0
  have hb := b.isLt
  rw [Finset.sum_congr rfl fun (s : Fin 8) _ => tileC_eq V c ⟨8 * b.val + s.val, by have := s.isLt; omega⟩ b s rfl hd d e]
  exact sum_tiles (gA V c b hd d e)

end

section
variable (V : (c : Dev nD) → (b : Ref sig .tc) → Buf (Elt Ideal) ((c : Thread nD τ).loc b))

/-- The specification's array, of the region-entry contents. -/
private abbrev dotsG (c : Dev nD) : S8x8x64x64.Idx → EReal := Cert.Spec.dotsA (xarr V c) (wkarr V c) (wvarr V c)

set_option maxHeartbeats 400000 in
/-- What the last tile of a batch row writes back is that batch row's block of the specification's array. -/
private theorem flushed_eq (c : Dev nD) (t : Fin cfg0.N) (hf : (cfg0.win 3).flush t = true) :
    (dat0 (F := Ideal) V c).flushed 3 t = ((cfg0.win 3).blk t).view.read (Elt Ideal) (dotsG V c) := by
  have h7 : t.val % 8 = 7 := (flush0_3 t).mp hf
  have hN : cfg0.N = 64 := N_0
  have htl := t.isLt
  obtain ⟨-, -, -, -, -, -, -, e0, e1, e2, e3⟩ := idx_facts0 t
  show (cfg0.win 3).cut (grid0.coords t) ((dat0 (F := Ideal) V c).after 3 t) = _
  rw [after0_3, out_eq_pay1]
  funext y
  obtain ⟨z, hd, d, e, rfl⟩ : ∃ (z : Fin 1) (hd : Fin 8) (d e : Fin 64), (y : S1x8x64x64.Idx) = ix4 z hd d e :=
    ⟨y 0, y 1, y 2, y 3, eq_ix4 y⟩
  obtain rfl : z = 0 := Subsingleton.elim _ _
  show k0_pay1 (F := Ideal) (outsAt0 V c t.val t.isLt).2 (ix4 0 hd d e)
    = dotsG V c (((cfg0.win 3).blk t).view.emb (ix4 0 hd d e))
  rw [pay1_apply]
  have hemb : ((cfg0.win 3).blk t).view.emb (ix4 0 hd d e)
      = (ix4 (⟨t.val / 8, by omega⟩ : Fin 8) hd d e : S8x8x64x64.Idx) := by
    funext a
    apply Fin.ext
    match a with
    | ⟨0, _⟩ => show win0_3.index t (0 : Fin 4) * 1 + 1 * 0 = t.val / 8; omega
    | ⟨1, _⟩ => show win0_3.index t (1 : Fin 4) * 8 + 1 * hd.val = hd.val; omega
    | ⟨2, _⟩ => show win0_3.index t (2 : Fin 4) * 64 + 1 * d.val = d.val; omega
    | ⟨3, _⟩ => show win0_3.index t (3 : Fin 4) * 64 + 1 * e.val = e.val; omega
  rw [hemb]
  show _ = Cert.Spec.dotsC (xarr V c) (wkarr V c) (wvarr V c) (⟨t.val / 8, by omega⟩ : Fin 8) hd d e
  have hv : t.val = 8 * (t.val / 8) + 7 := by omega
  rw [← acc_last V c (⟨t.val / 8, by omega⟩ : Fin 8) (by show 8 * (t.val / 8) + 7 < cfg0.N; omega) hd d e]
  have same : ∀ (u : ℕ) (hu : u < cfg0.N), u = t.val → (outsAt0 V c t.val t.isLt).2 = (outsAt0 V c u hu).2 :=
    fun u hu e => by subst e; rfl
  exact congrFun (same _ _ hv.symm) (ix3 hd d e)

set_option maxHeartbeats 400000 in
/-- The eight written-back blocks tile the array: index (b, h, d, e) lies in the block of point 8·b + 7. -/
private theorem cover0 (i : S8x8x64x64.Idx) :
    ∃ t : Fin cfg0.N, (cfg0.win 3).flush t = true ∧ i ∈ ((cfg0.win 3).blk t).view.set := by
  have hN : cfg0.N = 64 := N_0
  have h0 : (i 0 : Nat) < 8 := (i 0).isLt
  have h1 : (i 1 : Nat) < 8 := (i 1).isLt
  have h2 : (i 2 : Nat) < 64 := (i 2).isLt
  have h3 : (i 3 : Nat) < 64 := (i 3).isLt
  have hp : 8 * (i 0).val + 7 < cfg0.N := by omega
  refine ⟨⟨8 * (i 0).val + 7, hp⟩, (flush0_3 _).mpr (by show (8 * (i 0).val + 7) % 8 = 7; omega), ?_⟩
  obtain ⟨-, -, -, -, -, -, -, e0, e1, e2, e3⟩ := idx_facts0 ⟨8 * (i 0).val + 7, hp⟩
  have ev : (⟨8 * (i 0).val + 7, hp⟩ : Fin cfg0.N).val = 8 * (i 0).val + 7 := rfl
  rw [ev] at e0
  show i ∈ ((View.whole main_v7).slice (win0_3.rect ⟨8 * (i 0).val + 7, hp⟩)).set
  rw [View.set_slice_whole, Rect.mem_set_unit]
  intro a
  match a with
  | ⟨0, _⟩ =>
    show win0_3.index ⟨8 * (i 0).val + 7, hp⟩ (0 : Fin 4) * 1 ≤ (i 0 : Nat)
      ∧ (i 0 : Nat) < win0_3.index ⟨8 * (i 0).val + 7, hp⟩ (0 : Fin 4) * 1 + 1
    omega
  | ⟨1, _⟩ =>
    show win0_3.index ⟨8 * (i 0).val + 7, hp⟩ (1 : Fin 4) * 8 ≤ (i 1 : Nat)
      ∧ (i 1 : Nat) < win0_3.index ⟨8 * (i 0).val + 7, hp⟩ (1 : Fin 4) * 8 + 8
    omega
  | ⟨2, _⟩ =>
    show win0_3.index ⟨8 * (i 0).val + 7, hp⟩ (2 : Fin 4) * 64 ≤ (i 2 : Nat)
      ∧ (i 2 : Nat) < win0_3.index ⟨8 * (i 0).val + 7, hp⟩ (2 : Fin 4) * 64 + 64
    omega
  | ⟨3, _⟩ =>
    show win0_3.index ⟨8 * (i 0).val + 7, hp⟩ (3 : Fin 4) * 64 ≤ (i 3 : Nat)
      ∧ (i 3 : Nat) < win0_3.index ⟨8 * (i 0).val + 7, hp⟩ (3 : Fin 4) * 64 + 64
    omega

end

/-- After the first region the products array is the specification's, of the region-entry contents of the activations
    and of the two transposed weight slices. -/
theorem arr0_final (V : (c : Dev nD) → (b : Ref sig .tc) → Buf (Elt Ideal) ((c : Thread nD τ).loc b)) (c : Dev nD) :
    ((dat0 (F := Ideal) V c).arrAt 3 cfg0.N : S8x8x64x64.Idx → EReal)
      = Cert.Spec.dotsA (V c main_arg0) (V c main_v3) (V c main_v5) :=
  (dat0 (F := Ideal) V c).arrAt_eq_of_cover 3 (dotsG V c) (fun t hf => flushed_eq V c t hf) cover0

end Cert.KernelIdeal.Fr

end
-- ==== Proof.KV1Point.lean ====
/-
  One grid point of the second kernel at the ideal values, index by index: the output block at row r, channel c is
  (Σ_j att(r, j) · Woᵗ(j, c)) / 8192 + bias(c), where att(r, 64h + e) = Σ_d q(r, 64h + d) · products(h, d, e) and q is
  the activations row times the transposed query weights. Format changes are the identity; each matrix product into the
  zero accumulator is a plain sum over the contracted coordinate; the eight per-head blocks are laid side by side.
-/
import proofs.«176983_j50680614093003_1_alg».proof.Proof.KVDefs
import Idealize.ShloMosaic.Lib.Pipeline.Value
import Idealize.ShloMosaic.Lib.ValueLayout
import Idealize.ShloMosaic.Lib.StackMember
import Idealize.ShloMosaic.PureOps.Ideal.Laws

set_option maxRecDepth 16384

noncomputable section

open scoped BigOperators

namespace Cert.KernelIdeal.Fr

open Idealize.ShloMosaic Idealize.ShloMosaic.TcCoe Idealize.ShloMosaic.ValueIdx
open Idealize.SL Idealize.SL.Sem
open Cert.KernelIdeal Cert.KernelIdeal.Gen

/-! ## General facts -/

/-- A product of an m×k block by a k×n block into the zero accumulator, read at (a, b): the sum over the contracted
    coordinate of A(a, c) · B(c, b). The product into zero and the host's product are the same sum over the
    contraction index, and the host's plain product is read as the sum over the coordinate. -/
private theorem mm_apply {m k n : Nat} {φ₁ φ₂ : FTy} (D : DotDims ⟨2, ![m, k]⟩ ⟨2, ![k, n]⟩ ⟨2, ![m, n]⟩)
    (hD : D = DotDims.plain m k n) (prec : Option ContractPrecision)
    (A : FVec Ideal ⟨2, ![m, k]⟩ φ₁) (B : FVec Ideal ⟨2, ![k, n]⟩ φ₂) (a : Fin m) (b : Fin n) :
    matmul D prec A B (constant (F := Ideal) ⟨2, ![m, n]⟩ .f32 0x00000000#32) (ix2 a b)
      = ∑ c : Fin k, A (ix2 a c) * B (ix2 c b) := by
  subst hD
  exact (Ideal.matmul_constant_zero_apply (DotDims.plain m k n) prec A B (ix2 a b)).trans
    ((Ideal.dotGeneral_apply (DotDims.plain m k n) prec _ A B (ix2 a b)).symm.trans
      (StackMember.dotGeneral_plain_apply prec A B a b))

/-- Column 64h + e has head h and entry e. -/
private theorem headOf_col (h : Fin 8) (e : Fin 64) : Cert.Spec.headOf (Cert.Spec.col h e) = h := by
  apply Fin.ext; show (64 * h.val + e.val) / 64 = h.val; have := e.isLt; omega

private theorem entOf_col (h : Fin 8) (e : Fin 64) : Cert.Spec.entOf (Cert.Spec.col h e) = e := by
  apply Fin.ext; show (64 * h.val + e.val) % 64 = e.val; have := e.isLt; omega

/-- Eight blocks of 64 columns laid side by side, read at column 64h + e: block h at column e. -/
private theorem cat8_apply {α : Type} {m : Nat} (p0 p1 p2 p3 p4 p5 p6 p7 : (⟨2, ![m, 64]⟩ : Shape).Idx → α)
    (hcat : Shape.Concatenates ([(⟨⟨2, ![m, 64]⟩, p0⟩ : (s : Shape) × (s.Idx → α)), ⟨⟨2, ![m, 64]⟩, p1⟩, ⟨⟨2, ![m, 64]⟩, p2⟩,
      ⟨⟨2, ![m, 64]⟩, p3⟩, ⟨⟨2, ![m, 64]⟩, p4⟩, ⟨⟨2, ![m, 64]⟩, p5⟩, ⟨⟨2, ![m, 64]⟩, p6⟩, ⟨⟨2, ![m, 64]⟩, p7⟩].map (·.1)) ⟨2, ![m, 512]⟩ 1)
    (r : Fin m) (h : Fin 8) (e : Fin 64) (G : Fin 8 → α)
    (H0 : p0 (ix2 r e) = G 0) (H1 : p1 (ix2 r e) = G 1) (H2 : p2 (ix2 r e) = G 2) (H3 : p3 (ix2 r e) = G 3)
    (H4 : p4 (ix2 r e) = G 4) (H5 : p5 (ix2 r e) = G 5) (H6 : p6 (ix2 r e) = G 6) (H7 : p7 (ix2 r e) = G 7) :
    concatenate ⟨2, ![m, 512]⟩ 1 [⟨⟨2, ![m, 64]⟩, p0⟩, ⟨⟨2, ![m, 64]⟩, p1⟩, ⟨⟨2, ![m, 64]⟩, p2⟩, ⟨⟨2, ![m, 64]⟩, p3⟩,
      ⟨⟨2, ![m, 64]⟩, p4⟩, ⟨⟨2, ![m, 64]⟩, p5⟩, ⟨⟨2, ![m, 64]⟩, p6⟩, ⟨⟨2, ![m, 64]⟩, p7⟩] hcat (ix2 r (Cert.Spec.col h e)) = G h := by
  obtain ⟨hv, hlt⟩ := h
  have hr : (⟨2, ![m, 64]⟩ : Shape).rank = (⟨2, ![m, 512]⟩ : Shape).rank := rfl
  have hi : ∀ b : Fin (⟨2, ![m, 64]⟩ : Shape).rank, b.cast hr ≠ (1 : Fin (⟨2, ![m, 512]⟩ : Shape).rank) →
      ((ix2 r e : (⟨2, ![m, 64]⟩ : Shape).Idx) b).val = ((ix2 r (Cert.Spec.col ⟨hv, hlt⟩ e) : (⟨2, ![m, 512]⟩ : Shape).Idx) (b.cast hr)).val := by
    intro b hb
    match b with
    | ⟨0, _⟩ => rfl
    | ⟨1, _⟩ => exact absurd rfl hb
  match hv, hlt with
  | 0, hlt => exact (concatenate_apply_piece 1 _ hcat _ 0 (by show _ < 8; omega) _ p0 rfl hr 0 rfl (ix2 r e) hi (by show 0 + e.val = 64 * 0 + e.val; omega)).trans H0
  | 1, hlt => exact (concatenate_apply_piece 1 _ hcat _ 1 (by show _ < 8; omega) _ p1 rfl hr 64 rfl (ix2 r e) hi (by show 64 + e.val = 64 * 1 + e.val; omega)).trans H1
  | 2, hlt => exact (concatenate_apply_piece 1 _ hcat _ 2 (by show _ < 8; omega) _ p2 rfl hr 128 rfl (ix2 r e) hi (by show 128 + e.val = 64 * 2 + e.val; omega)).trans H2
  | 3, hlt => exact (concatenate_apply_piece 1 _ hcat _ 3 (by show _ < 8; omega) _ p3 rfl hr 192 rfl (ix2 r e) hi (by show 192 + e.val = 64 * 3 + e.val; omega)).trans H3
  | 4, hlt => exact (concatenate_apply_piece 1 _ hcat _ 4 (by show _ < 8; omega) _ p4 rfl hr 256 rfl (ix2 r e) hi (by show 256 + e.val = 64 * 4 + e.val; omega)).trans H4
  | 5, hlt => exact (concatenate_apply_piece 1 _ hcat _ 5 (by show _ < 8; omega) _ p5 rfl hr 320 rfl (ix2 r e) hi (by show 320 + e.val = 64 * 5 + e.val; omega)).trans H5
  | 6, hlt => exact (concatenate_apply_piece 1 _ hcat _ 6 (by show _ < 8; omega) _ p6 rfl hr 384 rfl (ix2 r e) hi (by show 384 + e.val = 64 * 6 + e.val; omega)).trans H6
  | 7, hlt => exact (concatenate_apply_piece 1 _ hcat _ 7 (by show _ < 8; omega) _ p7 rfl hr 448 rfl (ix2 r e) hi (by show 448 + e.val = 64 * 7 + e.val; omega)).trans H7
  | n + 8, hlt => exact absurd hlt (by omega)

/-! ## The second kernel's payloads, read at an index -/

/-- The queries of the tile: row r of the activations block times column j of the transposed query weights. -/
private theorem pay2_apply (x0 : Vec Ideal S1x1024x256 .f32) (x1 : Vec Ideal S256x512 .f32) (r : Fin 1024) (j : Fin 512) :
    k1_pay2 (F := Ideal) x0 x1 (ix2 r j) = projB x0 x1 r j := by
  unfold k1_pay2 projB
  refine (mm_apply _ rfl none _ _ r j).trans ?_
  refine Finset.sum_congr rfl fun dd _ => ?_
  refine congrArg₂ (· * ·) ?_ ?_
  · refine (truncf_apply (φ := .f32) (ψ := .bf16) _ _ _).trans ?_
    exact shapeCast_1ab_ab_apply x0 _ r dd
  · refine (truncf_apply (φ := .f32) (ψ := .bf16) _ _ _).trans ?_
    exact congrFun (shapeCast_self x1 _) (ix2 dd j)

/-- One head: the queries' 64 columns of head h times the head's 64×64 block of the products, read at (r, e). -/
private theorem head_apply (x0 : Vec Ideal S1x1024x256 .f32) (x1 : Vec Ideal S256x512 .f32) (x2 : Vec Ideal S1x8x64x64 .f32)
    (D : DotDims S1024x64 S64x64 S1024x64) (hD : D = DotDims.plain 1024 64 64)
    (o hn : Nat) (h : Fin 8) (ho : o = 64 * h.val) (hhn : hn = h.val)
    (hs : S1024x512.Slices ![0, o] S1024x64) (hs' : S8x64x64.Slices ![hn, 0, 0] S1x64x64) (hc : S1x64x64.ShapeCasts S64x64)
    (hb : FTy.bits .bf16 < FTy.bits .f32) (r : Fin 1024) (e : Fin 64) :
    matmul D none (truncf .bf16 (extractStridedSlice S1024x64 ![0, o] (k1_pay2 (F := Ideal) x0 x1) hs) hb)
        (truncf .bf16 (shapeCast S64x64 (extractStridedSlice S1x64x64 ![hn, 0, 0] (k1_pay3 (F := Ideal) x2) hs') hc) hb)
        (constant (F := Ideal) S1024x64 .f32 0x00000000#32) (ix2 r e)
      = ∑ d : Fin 64, projB x0 x1 r (Cert.Spec.col h d) * x2 (ix4 0 h d e) := by
  subst ho hhn
  refine (mm_apply D hD none _ _ r e).trans ?_
  refine Finset.sum_congr rfl fun d _ => ?_
  refine congrArg₂ (· * ·) ?_ ?_
  · refine (truncf_apply (φ := .f32) (ψ := .bf16) _ _ _).trans ?_
    exact (slice2_axis1_apply (64 * h.val) _ hs r d (Cert.Spec.col h d) rfl).trans (pay2_apply x0 x1 r (Cert.Spec.col h d))
  · refine (truncf_apply (φ := .f32) (ψ := .bf16) _ _ _).trans ?_
    refine (shapeCast_1ab_ab_apply _ hc d e).trans ?_
    refine (extractStridedSlice_apply _ _ hs' (ix3 (0 : Fin 1) d e) (ix3 h d e) (fun ax => ?_)).trans ?_
    · match ax with
      | ⟨0, _⟩ => exact (Nat.add_zero _).symm
      | ⟨1, _⟩ => exact (Nat.zero_add _).symm
      | ⟨2, _⟩ => exact (Nat.zero_add _).symm
    · unfold k1_pay3
      exact shapeCast_1abc_abc_apply x2 _ h d e

/-- The output block at (0, r, c). -/
theorem outBlk_apply (x0 : Vec Ideal S1x1024x256 .f32) (x1 : Vec Ideal S256x512 .f32) (x2 : Vec Ideal S1x8x64x64 .f32)
    (x3 : Vec Ideal S512x256 .f32) (x4 : Vec Ideal S256 .f32) (r : Fin 1024) (c : Fin 256) :
    outBlk (F := Ideal) x0 x1 x2 x3 x4 (ix3 0 r c) = outB x0 x1 x2 x3 x4 r c := by
  unfold outBlk outB k1_pay1
  refine (shapeCast_ab_1ab_apply _ _ 0 r c).trans ?_
  refine congrArg₂ (· + ·) ?_ ?_
  · refine congrArg₂ Ideal.div ?_ rfl
    refine (mm_apply _ rfl none _ _ r c).trans ?_
    refine Finset.sum_congr rfl fun j _ => ?_
    refine congrArg₂ (· * ·) ?_ ?_
    · obtain ⟨h, e, rfl⟩ : ∃ (h : Fin 8) (e : Fin 64), j = Cert.Spec.col h e :=
        ⟨Cert.Spec.headOf j, Cert.Spec.entOf j, (Cert.Spec.col_head_ent j).symm⟩
      have hA : attB x0 x1 x2 r (Cert.Spec.col h e)
          = ∑ d : Fin 64, projB x0 x1 r (Cert.Spec.col h d) * x2 (ix4 0 h d e) := by
        unfold attB; rw [headOf_col, entOf_col]
      refine Eq.trans ?_ hA.symm
      refine (truncf_apply (φ := .f32) (ψ := .bf16) _ _ _).trans ?_
      refine cat8_apply _ _ _ _ _ _ _ _ _ r h e
        (fun h' => ∑ d : Fin 64, projB x0 x1 r (Cert.Spec.col h' d) * x2 (ix4 0 h' d e)) ?_ ?_ ?_ ?_ ?_ ?_ ?_ ?_
      · unfold k1_pay4; exact head_apply x0 x1 x2 _ rfl 0 0 0 rfl rfl _ _ _ _ r e
      · unfold k1_pay5; exact head_apply x0 x1 x2 _ rfl 64 1 1 rfl rfl _ _ _ _ r e
      · unfold k1_pay6; exact head_apply x0 x1 x2 _ rfl 128 2 2 rfl rfl _ _ _ _ r e
      · unfold k1_pay7; exact head_apply x0 x1 x2 _ rfl 192 3 3 rfl rfl _ _ _ _ r e
      · unfold k1_pay8; exact head_apply x0 x1 x2 _ rfl 256 4 4 rfl rfl _ _ _ _ r e
      · unfold k1_pay9 k1_pay10; exact head_apply x0 x1 x2 _ rfl 320 5 5 rfl rfl _ _ _ _ r e
      · exact head_apply x0 x1 x2 _ rfl 384 6 6 rfl rfl _ _ _ _ r e
      · exact head_apply x0 x1 x2 _ rfl 448 7 7 rfl rfl _ _ _ _ r e
    · refine (truncf_apply (φ := .f32) (ψ := .bf16) _ _ _).trans ?_
      exact congrFun (shapeCast_self x3 _) (ix2 j c)
  · refine (broadcastTo_1b_ab_apply _ _ r c).trans ?_
    exact shapeCast_a_1a_apply x4 _ 0 c

end Cert.KernelIdeal.Fr

end
-- ==== Proof.KV1.lean ====
/-
  The second kernel region's value at the ideal instance: after the region, the result array holds, at (b, n, c), the
  queries' products with the accumulated key-value products, laid head by head, projected by the transposed output
  weights, divided by the sequence length, plus the bias — the kernel's arrangement of the specification, as a function of
  the region-entry contents of the five arrays its windows read.
-/
import proofs.«176983_j50680614093003_1_alg».proof.Proof.KVPieces
import proofs.«176983_j50680614093003_1_alg».proof.Proof.KV1Point
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Fr

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-- The block indices of the second grid's windows, decided over its 64 points: point t = 8·b + tile reads the
    activations and writes the result at block (b, tile, 0), reads the products at block (b, 0, 0, 0), and the
    weights and the bias whole. -/
private theorem blockIdx1 : ∀ t : Fin cfg1.N,
    win1_0.index t (0 : Fin 3) = t.val / 8 ∧ win1_0.index t (1 : Fin 3) = t.val % 8 ∧ win1_0.index t (2 : Fin 3) = 0
    ∧ win1_1.index t (0 : Fin 2) = 0 ∧ win1_1.index t (1 : Fin 2) = 0
    ∧ win1_2.index t (0 : Fin 4) = t.val / 8 ∧ win1_2.index t (1 : Fin 4) = 0 ∧ win1_2.index t (2 : Fin 4) = 0 ∧ win1_2.index t (3 : Fin 4) = 0
    ∧ win1_3.index t (0 : Fin 2) = 0 ∧ win1_3.index t (1 : Fin 2) = 0
    ∧ win1_4.index t (0 : Fin 1) = 0
    ∧ win1_5.index t (0 : Fin 3) = t.val / 8 ∧ win1_5.index t (1 : Fin 3) = t.val % 8 ∧ win1_5.index t (2 : Fin 3) = 0 :=
  (by decide +kernel : ∀ t : Fin grid1.N, _)

/-- The second grid has 64 points. -/
private theorem points1 : cfg1.N = 64 := by decide

/-! ## One tile's output is the specification's, at the tile's place in the arrays -/

/-- If the activations block's row r is row n of batch row b of the array, the products block is batch row b's, and
    the weights and the bias are the arrays', the tile's output at (r, c) is the specification's at (b, n, c). -/
private theorem outB_eq_outC (x : S1x1024x256.Idx → EReal) (wq : S256x512.Idx → EReal) (D : S1x8x64x64.Idx → EReal) (wo : S512x256.Idx → EReal) (bo : S256.Idx → EReal)
    (X : S8x8192x256.Idx → EReal) (DD : S8x8x64x64.Idx → EReal) (b : Fin 8) (n : Fin 8192) (r : Fin 1024) (cc : Fin 256)
    (hx : ∀ dd : Fin 256, x (ix3 0 r dd) = X (ix3 b n dd))
    (hD : ∀ (h : Fin 8) (d e : Fin 64), D (ix4 0 h d e) = DD (ix4 b h d e)) :
    outB x wq D wo bo r cc = Cert.Spec.outC X wq DD wo bo b n cc := by
  have hproj : ∀ j : Fin 512, projB x wq r j = Cert.Spec.projT X wq b n j := fun j => by
    unfold projB Cert.Spec.projT
    exact Finset.sum_congr rfl fun dd _ => by rw [hx dd]
  have hatt : ∀ j : Fin 512, attB x wq D r j = Cert.Spec.attJ X wq DD b n j := fun j => by
    unfold attB Cert.Spec.attJ Cert.Spec.attC
    exact Finset.sum_congr rfl fun d _ => by rw [hproj, hD]
  unfold outB Cert.Spec.outC
  rw [Finset.sum_congr rfl fun j _ => by rw [hatt j]]

section Blocks
variable (V : (c : Dev nD) → (b : Ref sig .tc) → Buf (Elt Ideal) ((c : Thread nD τ).loc b)) (c : Dev nD)

/-! ## The blocks the windows read, as entries of the arrays -/

set_option maxHeartbeats 400000 in
/-- The activations block at point t, at (0, r, dd): the array at (t / 8, 1024 · (t % 8) + r, dd). -/
private theorem xblk_apply (t : Fin cfg1.N) (r : Fin 1024) (dd : Fin 256) (k : S8x8192x256.Idx)
    (h0 : (k 0).val = t.val / 8) (h1 : (k 1).val = 1024 * (t.val % 8) + r.val) (h2 : (k 2).val = dd.val) :
    (iblk1 (F := Ideal) V c 0 t : S1x1024x256.Idx → EReal) (ix3 0 r dd) = (V c main_arg0 : S8x8192x256.Idx → EReal) k := by
  obtain ⟨e0, e1, e2, -⟩ := blockIdx1 t
  unfold iblk1
  rw [View.read_apply]
  show (V c main_arg0 : S8x8192x256.Idx → EReal) (((cfg1.win 0).blk t).view.emb (ix3 0 r dd)) = V c main_arg0 k
  congr 1
  funext a
  apply Fin.ext
  match a with
  | ⟨0, _⟩ => show win1_0.index t (0 : Fin 3) * 1 + 1 * 0 = (k 0).val; omega
  | ⟨1, _⟩ => show win1_0.index t (1 : Fin 3) * 1024 + 1 * r.val = (k 1).val; omega
  | ⟨2, _⟩ => show win1_0.index t (2 : Fin 3) * 256 + 1 * dd.val = (k 2).val; omega

set_option maxHeartbeats 400000 in
/-- The products block at point t, at (0, h, d, e): the array at (t / 8, h, d, e). -/
private theorem dblk_apply (t : Fin cfg1.N) (h : Fin 8) (d e : Fin 64) (k : S8x8x64x64.Idx)
    (h0 : (k 0).val = t.val / 8) (h1 : (k 1).val = h.val) (h2 : (k 2).val = d.val) (h3 : (k 3).val = e.val) :
    (iblk1 (F := Ideal) V c 2 t : S1x8x64x64.Idx → EReal) (ix4 0 h d e) = (V c main_v7 : S8x8x64x64.Idx → EReal) k := by
  obtain ⟨-, -, -, -, -, e0, e1, e2, e3, -⟩ := blockIdx1 t
  unfold iblk1
  rw [View.read_apply]
  show (V c main_v7 : S8x8x64x64.Idx → EReal) (((cfg1.win 2).blk t).view.emb (ix4 0 h d e)) = V c main_v7 k
  congr 1
  funext a
  apply Fin.ext
  match a with
  | ⟨0, _⟩ => show win1_2.index t (0 : Fin 4) * 1 + 1 * 0 = (k 0).val; omega
  | ⟨1, _⟩ => show win1_2.index t (1 : Fin 4) * 8 + 1 * h.val = (k 1).val; omega
  | ⟨2, _⟩ => show win1_2.index t (2 : Fin 4) * 64 + 1 * d.val = (k 2).val; omega
  | ⟨3, _⟩ => show win1_2.index t (3 : Fin 4) * 64 + 1 * e.val = (k 3).val; omega

set_option maxHeartbeats 400000 in
/-- The transposed query weights' block is the whole array at every point. -/
private theorem wqblk_eq (t : Fin cfg1.N) : (iblk1 (F := Ideal) V c 1 t : S256x512.Idx → EReal) = V c main_v1 := by
  obtain ⟨-, -, -, e0, e1, -⟩ := blockIdx1 t
  funext j
  unfold iblk1
  rw [View.read_apply]
  show (V c main_v1 : S256x512.Idx → EReal) (((cfg1.win 1).blk t).view.emb j) = V c main_v1 j
  congr 1
  funext a
  apply Fin.ext
  match a with
  | ⟨0, _⟩ => show win1_1.index t (0 : Fin 2) * 256 + 1 * (j 0).val = (j 0).val; omega
  | ⟨1, _⟩ => show win1_1.index t (1 : Fin 2) * 512 + 1 * (j 1).val = (j 1).val; omega

set_option maxHeartbeats 400000 in
/-- The transposed output weights' block is the whole array at every point. -/
private theorem woblk_eq (t : Fin cfg1.N) : (iblk1 (F := Ideal) V c 3 t : S512x256.Idx → EReal) = V c main_v6 := by
  obtain ⟨-, -, -, -, -, -, -, -, -, e0, e1, -⟩ := blockIdx1 t
  funext j
  unfold iblk1
  rw [View.read_apply]
  show (V c main_v6 : S512x256.Idx → EReal) (((cfg1.win 3).blk t).view.emb j) = V c main_v6 j
  congr 1
  funext a
  apply Fin.ext
  match a with
  | ⟨0, _⟩ => show win1_3.index t (0 : Fin 2) * 512 + 1 * (j 0).val = (j 0).val; omega
  | ⟨1, _⟩ => show win1_3.index t (1 : Fin 2) * 256 + 1 * (j 1).val = (j 1).val; omega

set_option maxHeartbeats 400000 in
/-- The bias block is the whole array at every point. -/
private theorem bblk_eq (t : Fin cfg1.N) : (iblk1 (F := Ideal) V c 4 t : S256.Idx → EReal) = V c main_arg3 := by
  obtain ⟨-, -, -, -, -, -, -, -, -, -, -, e0, -⟩ := blockIdx1 t
  funext j
  unfold iblk1
  rw [View.read_apply]
  show (V c main_arg3 : S256.Idx → EReal) (((cfg1.win 4).blk t).view.emb j) = V c main_arg3 j
  congr 1
  funext a
  apply Fin.ext
  match a with
  | ⟨0, _⟩ => show win1_4.index t (0 : Fin 1) * 256 + 1 * (j 0).val = (j 0).val; omega

/-! ## What each point writes back, and the array after the region -/

/-- The array the region leaves: the specification's kernel arrangement of the five arrays the windows read. -/
private abbrev resultArr : S8x8192x256.Idx → EReal :=
  fun i => Cert.Spec.outC (V c main_arg0) (V c main_v1) (V c main_v7) (V c main_v6) (V c main_arg3) (i 0) (i 1) (i 2)

set_option maxHeartbeats 400000 in
/-- What point t writes back is block t of that array. -/
private theorem flushed1_eq (t : Fin cfg1.N) :
    (dat1 (F := Ideal) V c).flushed 5 t = ((cfg1.win 5).blk t).view.read (Elt Ideal) (resultArr V c) := by
  show (cfg1.win 5).cut (grid1.coords t) ((dat1 V c).after 5 t) = _
  rw [after1_5, out1_eq]
  refine funext fun (j : S1x1024x256.Idx) => ?_
  obtain ⟨p, r, cc, rfl⟩ : ∃ (p : Fin 1) (r : Fin 1024) (cc : Fin 256), j = ix3 p r cc := ⟨j 0, j 1, j 2, eq_ix3 j⟩
  obtain rfl : p = 0 := Subsingleton.elim _ _
  rw [View.read_apply]
  show outBlk (F := Ideal) _ _ _ _ _ (ix3 0 r cc) = resultArr V c (((cfg1.win 5).blk t).view.emb (ix3 0 r cc))
  rw [outBlk_apply, wqblk_eq V c t, woblk_eq V c t, bblk_eq V c t]
  obtain ⟨-, -, -, -, -, -, -, -, -, -, -, -, e0, e1, e2⟩ := blockIdx1 t
  have hk0 : ((((cfg1.win 5).blk t).view.emb (ix3 0 r cc)) 0).val = t.val / 8 := by
    show win1_5.index t (0 : Fin 3) * 1 + 1 * 0 = _; omega
  have hk1 : ((((cfg1.win 5).blk t).view.emb (ix3 0 r cc)) 1).val = 1024 * (t.val % 8) + r.val := by
    show win1_5.index t (1 : Fin 3) * 1024 + 1 * r.val = _; omega
  have hk2 : ((((cfg1.win 5).blk t).view.emb (ix3 0 r cc)) 2).val = cc.val := by
    show win1_5.index t (2 : Fin 3) * 256 + 1 * cc.val = _; omega
  generalize ((cfg1.win 5).blk t).view.emb (ix3 0 r cc) = k at hk0 hk1 hk2 ⊢
  show outB _ _ _ _ _ r cc = Cert.Spec.outC _ _ _ _ _ (k 0) (k 1) (k 2)
  have hcc : (k 2 : Fin 256) = cc := Fin.ext hk2
  rw [hcc]
  exact outB_eq_outC _ _ _ _ _ _ _ (k 0) (k 1) r cc (fun dd => xblk_apply V c t r dd _ hk0 hk1 rfl)
    (fun h d e => dblk_apply V c t h d e _ hk0 rfl rfl rfl)

set_option maxHeartbeats 400000 in
/-- An index of the result array is in point t's block iff each coordinate is in the block's range on its axis. -/
private theorem mem_oblk (t : Fin cfg1.N) (i : S8x8192x256.Idx) :
    i ∈ ((cfg1.win 5).blk t).view.set ↔ ∀ a : Fin 3, win1_5.index t a * S1x1024x256.size a ≤ (i a).val ∧ (i a).val < win1_5.index t a * S1x1024x256.size a + S1x1024x256.size a := by
  show i ∈ ((View.whole main_v8).slice (win1_5.rect t)).set ↔ _
  rw [View.set_slice_whole, Rect.mem_set_unit]
  exact Iff.rfl

set_option maxHeartbeats 400000 in
/-- Every position (b, n, ·) of the result array is in the block of the point 8·b + n / 1024. -/
private theorem covered1 (i : S8x8192x256.Idx) : ∃ t : Fin cfg1.N, (cfg1.win 5).flush t = true ∧ i ∈ ((cfg1.win 5).blk t).view.set := by
  have hi0 : (i 0).val < 8 := (i 0).isLt
  have hi1 : (i 1).val < 8192 := (i 1).isLt
  have hi2 : (i 2).val < 256 := (i 2).isLt
  have hN := points1
  obtain ⟨t, ht⟩ : ∃ t : Fin cfg1.N, t.val = 8 * (i 0).val + (i 1).val / 1024 := ⟨⟨8 * (i 0).val + (i 1).val / 1024, by omega⟩, rfl⟩
  obtain ⟨-, -, -, -, -, -, -, -, -, -, -, -, e0, e1, e2⟩ := blockIdx1 t
  refine ⟨t, flush1_5 t, ?_⟩
  rw [mem_oblk]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 1024 ≤ (i 1).val ∧ (i 1).val < win1_5.index t (1 : Fin 3) * 1024 + 1024; omega
  | ⟨2, _⟩ => show win1_5.index t (2 : Fin 3) * 256 ≤ (i 2).val ∧ (i 2).val < win1_5.index t (2 : Fin 3) * 256 + 256; omega

end Blocks

/-- After the second region the result array is the specification's kernel arrangement. -/
theorem arr1_final (V : (c : Dev nD) → (b : Ref sig .tc) → Buf (Elt Ideal) ((c : Thread nD τ).loc b)) (c : Dev nD) :
    ((dat1 (F := Ideal) V c).arrAt 5 cfg1.N : S8x8192x256.Idx → EReal)
      = fun i => Cert.Spec.outC (V c main_arg0) (V c main_v1) (V c main_v7) (V c main_v6) (V c main_arg3) (i 0) (i 1) (i 2) :=
  (dat1 (F := Ideal) V c).arrAt_eq_of_cover 5 (resultArr V c) (fun t _ => flushed1_eq V c t) (covered1)

end Cert.KernelIdeal.Fr

end
-- ==== Proof.Glue.lean ====
/-
  From the regions' values to the certificate's value claim. The host operations before the regions slice the stacked
  projection weights into their query, key and value thirds and transpose each (and transpose the output weights): read
  at an index they are the specification's transposed weights. The first region leaves the accumulated key-value
  products; the second reads them, the activations, the transposed query and output weights and the bias, all as the
  program was launched with them; so the result array is the specification's kernel arrangement of the four arguments.
-/
import proofs.«176983_j50680614093003_1_alg».proof.Proof.KIMain
import proofs.«176983_j50680614093003_1_alg».proof.Proof.KV0
import proofs.«176983_j50680614093003_1_alg».proof.Proof.KV1
import Idealize.ShloMosaic.Lib.StableHlo.Run

set_option maxRecDepth 16384

noncomputable section

open scoped BigOperators

namespace Cert.KernelIdeal.Fr

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- The transposed query weights as the host operations leave them. -/
theorem Ve1_v1 (c : Dev nD) :
    (Ve1 (F := Ideal) m ρ c main_v1 : S256x512.Idx → EReal) = Cert.Spec.wqA (m ((c : Thread nD τ).loc main_arg1)) := by
  have e : (Ve1 (F := Ideal) m ρ c main_v1 : S256x512.Idx → EReal)
      = transpose S256x512 [1, 0] (extractStridedSlice S512x256 ![0, 0] (m ((c : Thread nD τ).loc main_arg1)) slices_S1536x256_S512x256_0_0) transposes_S512x256_S256x512_1_0 := by
    show StableHlo.after hostOps0 (fun b => m (c, b)) (Proc.devRef .tc main_v1) = _
    after_results
  rw [e]; funext i
  obtain ⟨d, j, rfl⟩ : ∃ (d : Fin 256) (j : Fin 512), i = ix2 d j := ⟨i 0, i 1, eq_ix2 i⟩
  rw [transpose_apply [1, 0] _ transposes_S512x256_S256x512_1_0 (ix2 d j) (ix2 j d) (fun b => by match b with | ⟨0, _⟩ => rfl | ⟨1, _⟩ => rfl)]
  rw [extractStridedSlice_apply ![0, 0] _ slices_S1536x256_S512x256_0_0 (ix2 j d) (ix2 (⟨j.val, by have := j.isLt; omega⟩ : Fin 1536) d)
    (fun a => by match a with | ⟨0, _⟩ => exact (Nat.zero_add _).symm | ⟨1, _⟩ => exact (Nat.zero_add _).symm)]
  rfl

/-- The transposed key weights as the host operations leave them. -/
theorem Ve1_v3 (c : Dev nD) :
    (Ve1 (F := Ideal) m ρ c main_v3 : S256x512.Idx → EReal) = Cert.Spec.wkA (m ((c : Thread nD τ).loc main_arg1)) := by
  have e : (Ve1 (F := Ideal) m ρ c main_v3 : S256x512.Idx → EReal)
      = transpose S256x512 [1, 0] (extractStridedSlice S512x256 ![512, 0] (m ((c : Thread nD τ).loc main_arg1)) slices_S1536x256_S512x256_512_0) transposes_S512x256_S256x512_1_0 := by
    show StableHlo.after hostOps0 (fun b => m (c, b)) (Proc.devRef .tc main_v3) = _
    after_results
  rw [e]; funext i
  obtain ⟨d, j, rfl⟩ : ∃ (d : Fin 256) (j : Fin 512), i = ix2 d j := ⟨i 0, i 1, eq_ix2 i⟩
  rw [transpose_apply [1, 0] _ transposes_S512x256_S256x512_1_0 (ix2 d j) (ix2 j d) (fun b => by match b with | ⟨0, _⟩ => rfl | ⟨1, _⟩ => rfl)]
  rw [extractStridedSlice_apply ![512, 0] _ slices_S1536x256_S512x256_512_0 (ix2 j d) (ix2 (⟨512 + j.val, by have := j.isLt; omega⟩ : Fin 1536) d)
    (fun a => by match a with | ⟨0, _⟩ => exact rfl | ⟨1, _⟩ => exact (Nat.zero_add _).symm)]
  rfl

/-- The transposed value weights as the host operations leave them. -/
theorem Ve1_v5 (c : Dev nD) :
    (Ve1 (F := Ideal) m ρ c main_v5 : S256x512.Idx → EReal) = Cert.Spec.wvA (m ((c : Thread nD τ).loc main_arg1)) := by
  have e : (Ve1 (F := Ideal) m ρ c main_v5 : S256x512.Idx → EReal)
      = transpose S256x512 [1, 0] (extractStridedSlice S512x256 ![1024, 0] (m ((c : Thread nD τ).loc main_arg1)) slices_S1536x256_S512x256_1024_0) transposes_S512x256_S256x512_1_0 := by
    show StableHlo.after hostOps0 (fun b => m (c, b)) (Proc.devRef .tc main_v5) = _
    after_results
  rw [e]; funext i
  obtain ⟨d, j, rfl⟩ : ∃ (d : Fin 256) (j : Fin 512), i = ix2 d j := ⟨i 0, i 1, eq_ix2 i⟩
  rw [transpose_apply [1, 0] _ transposes_S512x256_S256x512_1_0 (ix2 d j) (ix2 j d) (fun b => by match b with | ⟨0, _⟩ => rfl | ⟨1, _⟩ => rfl)]
  rw [extractStridedSlice_apply ![1024, 0] _ slices_S1536x256_S512x256_1024_0 (ix2 j d) (ix2 (⟨1024 + j.val, by have := j.isLt; omega⟩ : Fin 1536) d)
    (fun a => by match a with | ⟨0, _⟩ => exact rfl | ⟨1, _⟩ => exact (Nat.zero_add _).symm)]
  rfl

/-- The transposed output weights as the host operations leave them. -/
theorem Ve1_v6 (c : Dev nD) :
    (Ve1 (F := Ideal) m ρ c main_v6 : S512x256.Idx → EReal) = Cert.Spec.woA (m ((c : Thread nD τ).loc main_arg2)) := by
  have e : (Ve1 (F := Ideal) m ρ c main_v6 : S512x256.Idx → EReal)
      = transpose S512x256 [1, 0] (m ((c : Thread nD τ).loc main_arg2)) transposes_S256x512_S512x256_1_0 := by
    show StableHlo.after hostOps0 (fun b => m (c, b)) (Proc.devRef .tc main_v6) = _
    after_results
  rw [e]; funext i
  obtain ⟨j, cc, rfl⟩ : ∃ (j : Fin 512) (cc : Fin 256), i = ix2 j cc := ⟨i 0, i 1, eq_ix2 i⟩
  rw [transpose_apply [1, 0] _ transposes_S256x512_S512x256_1_0 (ix2 j cc) (ix2 cc j) (fun b => by match b with | ⟨0, _⟩ => rfl | ⟨1, _⟩ => rfl)]
  rfl

/-! ## What the second region is entered with -/

/-- The activations reach the first region as launched: no host operation writes them. -/
theorem Ve1_arg0 (c : Dev nD) : Ve1 (F := Ideal) m ρ c main_arg0 = m ((c : Thread nD τ).loc main_arg0) :=
  (StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

/-- The bias reaches the first region as launched. -/
theorem Ve1_arg3 (c : Dev nD) : Ve1 (F := Ideal) m ρ c main_arg3 = m ((c : Thread nD τ).loc main_arg3) :=
  (StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

/-- The activations reach the second region as launched: an input window of the first region, never written back. -/
theorem Ve2_arg0 (c : Dev nD) : Ve2 (F := Ideal) m ρ c main_arg0 = m ((c : Thread nD τ).loc main_arg0) :=
  ((W2_arr m ρ c 0).trans (((dat0 (Ve1 m ρ) c).arrAt_in 0 rfl _).trans (A_eq0 (Ve1 m ρ) c 0))).trans (Ve1_arg0 m ρ c)

/-- The bias reaches the second region as launched: no window of the first region. -/
theorem Ve2_arg3 (c : Dev nD) : Ve2 (F := Ideal) m ρ c main_arg3 = m ((c : Thread nD τ).loc main_arg3) :=
  (W2_of_ne m ρ c main_arg3 (by decide)).trans (Ve1_arg3 m ρ c)

/-- The transposed query weights reach the second region as the host operations left them. -/
theorem Ve2_v1 (c : Dev nD) : (Ve2 (F := Ideal) m ρ c main_v1 : S256x512.Idx → EReal) = Cert.Spec.wqA (m ((c : Thread nD τ).loc main_arg1)) :=
  (W2_of_ne m ρ c main_v1 (by decide)).trans (Ve1_v1 m ρ c)

/-- The transposed output weights reach the second region as the host operations left them. -/
theorem Ve2_v6 (c : Dev nD) : (Ve2 (F := Ideal) m ρ c main_v6 : S512x256.Idx → EReal) = Cert.Spec.woA (m ((c : Thread nD τ).loc main_arg2)) :=
  (W2_of_ne m ρ c main_v6 (by decide)).trans (Ve1_v6 m ρ c)

/-- The accumulated key-value products as the first region leaves them: the specification's, of the arguments. -/
theorem Ve2_v7 (c : Dev nD) : (Ve2 (F := Ideal) m ρ c main_v7 : S8x8x64x64.Idx → EReal)
    = Cert.Spec.dotsA (m ((c : Thread nD τ).loc main_arg0)) (Cert.Spec.wkA (m ((c : Thread nD τ).loc main_arg1))) (Cert.Spec.wvA (m ((c : Thread nD τ).loc main_arg1))) := by
  refine (W2_arr m ρ c 3).trans ((arr0_final (Ve1 m ρ) c).trans ?_)
  rw [Ve1_arg0, Ve1_v3, Ve1_v5]

/-! ## The kernel's value -/

/-- THE KERNEL'S VALUE: after the second region the result array is the specification's kernel arrangement of the four
    argument arrays as launched. -/
theorem kernel_value (c : Dev nD) :
    ((dat1 (F := Ideal) (Ve2 m ρ) c).arrAt 5 cfg1.N : S8x8192x256.Idx → EReal)
      = Cert.Spec.kernelOut (m ((c : Thread nD τ).loc main_arg0)) (m ((c : Thread nD τ).loc main_arg1)) (m ((c : Thread nD τ).loc main_arg2)) (m ((c : Thread nD τ).loc main_arg3)) := by
  rw [arr1_final (Ve2 m ρ) c, Ve2_arg0, Ve2_arg3, Ve2_v1, Ve2_v6, Ve2_v7]
  rfl

end Cert.KernelIdeal.Fr

end
-- ==== Proof.RefValue.lean ====
/-
  The reference's run, read back index by index: its result is the reference's arrangement of the specification.
-/
import proofs.«176983_j50680614093003_1_alg».proof.Proof.Gen.ReferenceIdeal.Read
import proofs.«176983_j50680614093003_1_alg».proof.Proof.Spec

set_option maxRecDepth 16384

noncomputable section

open scoped BigOperators

namespace Cert.ReferenceIdeal.RefValue

open Idealize.ShloMosaic Idealize.ShloMosaic.ValueIdx
open Cert.ReferenceIdeal Cert.ReferenceIdeal.Gen

/-- The fused projection at explicit coordinates: row `j` of the stacked weights against the activations. -/
private theorem v0_at (x0 : (⟨S8x8192x256, .f32⟩ : BufTy).Contents (Elt Ideal)) (x1 : (⟨S1536x256, .f32⟩ : BufTy).Contents (Elt Ideal))
    (b : Fin 8) (n : Fin 8192) (j : Fin 1536) :
    Read.val_main_v0 (F := Ideal) x0 x1 (ix3 b n j) = ∑ d : Fin 256, x0 (ix3 b n d) * x1 (ix2 j d) := by
  rw [Read.val_main_v0_apply]
  refine Finset.sum_congr rfl fun d _ => ?_
  have e1 : Read.lidx_main_v0 (ix3 b n j) d = ix3 b n d := by
    funext a; match a with | ⟨0, _⟩ => rfl | ⟨1, _⟩ => rfl | ⟨2, _⟩ => rfl
  have e2 : Read.ridx_main_v0 (ix3 b n j) d = ix2 j d := by
    funext a; match a with | ⟨0, _⟩ => rfl | ⟨1, _⟩ => rfl
  rw [e1, e2]

/-- The reshape [8, 8192, 512] → [8, 8192, 8, 64] reads column `64 h + d`. -/
private theorem idx4_at (b : Fin 8) (n : Fin 8192) (h : Fin 8) (d : Fin 64) :
    Read.idx_main_v4 (ix4 b n h d) = ix3 b n (Spec.col h d) := by
  have hb := b.isLt; have hn := n.isLt; have hh := h.isLt; have hd := d.isLt
  funext a
  match a with
  | ⟨0, _⟩ => apply Fin.ext; show (((b.val * 8192 + n.val) * 8 + h.val) * 64 + d.val) / 4194304 = b.val; omega
  | ⟨1, _⟩ => apply Fin.ext; show (((b.val * 8192 + n.val) * 8 + h.val) * 64 + d.val) / 512 % 8192 = n.val; omega
  | ⟨2, _⟩ => apply Fin.ext; show (((b.val * 8192 + n.val) * 8 + h.val) * 64 + d.val) % 512 = 64 * h.val + d.val; omega

/-- Head `h`, entry `d` of the queries: rows 0–511 of the stacked weights. -/
private theorem v5_at (x0 : (⟨S8x8192x256, .f32⟩ : BufTy).Contents (Elt Ideal)) (x1 : (⟨S1536x256, .f32⟩ : BufTy).Contents (Elt Ideal))
    (b h : Fin 8) (n : Fin 8192) (d : Fin 64) :
    Read.val_main_v5 (F := Ideal) x0 x1 (ix4 b h n d) = Spec.projT x0 (Spec.wqA x1) b n (Spec.col h d) := by
  have e5 : Read.idx_main_v5 (ix4 b h n d) = ix4 b n h d := by
    funext a; match a with | ⟨0, _⟩ => rfl | ⟨1, _⟩ => rfl | ⟨2, _⟩ => rfl | ⟨3, _⟩ => rfl
  have e4 : Read.idx_main_v4 (ix4 b n h d) = ix3 b n (Spec.col h d) := idx4_at b n h d
  have e1 : Read.idx_main_v1 (ix3 b n (Spec.col h d))
      = ix3 b n (⟨(Spec.col h d).val, by have := (Spec.col h d).isLt; omega⟩ : Fin 1536) := by
    funext a; match a with | ⟨0, _⟩ => rfl | ⟨1, _⟩ => rfl | ⟨2, _⟩ => rfl
  rw [Read.val_main_v5_apply, e5, Read.val_main_v4_apply, e4, Read.val_main_v1_apply, e1, v0_at]
  rfl

/-- Head `h`, entry `d` of the keys: rows 512–1023 of the stacked weights. -/
private theorem v7_at (x0 : (⟨S8x8192x256, .f32⟩ : BufTy).Contents (Elt Ideal)) (x1 : (⟨S1536x256, .f32⟩ : BufTy).Contents (Elt Ideal))
    (b h : Fin 8) (n : Fin 8192) (d : Fin 64) :
    Read.val_main_v7 (F := Ideal) x0 x1 (ix4 b h n d) = Spec.projT x0 (Spec.wkA x1) b n (Spec.col h d) := by
  have e5 : Read.idx_main_v7 (ix4 b h n d) = ix4 b n h d := by
    funext a; match a with | ⟨0, _⟩ => rfl | ⟨1, _⟩ => rfl | ⟨2, _⟩ => rfl | ⟨3, _⟩ => rfl
  have e4 : Read.idx_main_v6 (ix4 b n h d) = ix3 b n (Spec.col h d) := idx4_at b n h d
  have e1 : Read.idx_main_v2 (ix3 b n (Spec.col h d))
      = ix3 b n (⟨512 + (Spec.col h d).val, by have := (Spec.col h d).isLt; omega⟩ : Fin 1536) := by
    funext a; match a with | ⟨0, _⟩ => rfl | ⟨1, _⟩ => rfl | ⟨2, _⟩ => rfl
  rw [Read.val_main_v7_apply, e5, Read.val_main_v6_apply, e4, Read.val_main_v2_apply, e1, v0_at]
  rfl

/-- Head `h`, entry `d` of the values: rows 1024–1535 of the stacked weights. -/
private theorem v9_at (x0 : (⟨S8x8192x256, .f32⟩ : BufTy).Contents (Elt Ideal)) (x1 : (⟨S1536x256, .f32⟩ : BufTy).Contents (Elt Ideal))
    (b h : Fin 8) (n : Fin 8192) (d : Fin 64) :
    Read.val_main_v9 (F := Ideal) x0 x1 (ix4 b h n d) = Spec.projT x0 (Spec.wvA x1) b n (Spec.col h d) := by
  have e5 : Read.idx_main_v9 (ix4 b h n d) = ix4 b n h d := by
    funext a; match a with | ⟨0, _⟩ => rfl | ⟨1, _⟩ => rfl | ⟨2, _⟩ => rfl | ⟨3, _⟩ => rfl
  have e4 : Read.idx_main_v8 (ix4 b n h d) = ix3 b n (Spec.col h d) := idx4_at b n h d
  have e1 : Read.idx_main_v3 (ix3 b n (Spec.col h d))
      = ix3 b n (⟨1024 + (Spec.col h d).val, by have := (Spec.col h d).isLt; omega⟩ : Fin 1536) := by
    funext a; match a with | ⟨0, _⟩ => rfl | ⟨1, _⟩ => rfl | ⟨2, _⟩ => rfl
  rw [Read.val_main_v9_apply, e5, Read.val_main_v8_apply, e4, Read.val_main_v3_apply, e1, v0_at]
  rfl

/-- The mean of a head row of the keys. -/
private theorem v13_at (x0 : (⟨S8x8192x256, .f32⟩ : BufTy).Contents (Elt Ideal)) (x1 : (⟨S1536x256, .f32⟩ : BufTy).Contents (Elt Ideal))
    (b h : Fin 8) (n : Fin 8192) (z : Fin 1) :
    Read.val_main_v13 (F := Ideal) x0 x1 (ix4 b h n z) = Spec.mean64 (fun e' => Read.val_main_v7 (F := Ideal) x0 x1 (ix4 b h n e')) := by
  have eb : Read.idx_main_v11 (ix4 b h n z) = ix3 b h n := by
    funext a; match a with | ⟨0, _⟩ => rfl | ⟨1, _⟩ => rfl | ⟨2, _⟩ => rfl
  have er : ∀ k : Fin 64, Read.idx_main_v10 (ix3 b h n) k = ix4 b h n k := by
    intro k; funext a; match a with | ⟨0, _⟩ => rfl | ⟨1, _⟩ => rfl | ⟨2, _⟩ => rfl | ⟨3, _⟩ => rfl
  rw [Read.val_main_v13_apply, Read.val_main_v11_apply, eb, Read.val_main_v10_apply, Read.val_main_v12_apply,
    Read.val_main_cst_apply, Read.val_main_cst_0_apply]
  simp only [er, Ideal.hostDivf_def, Ideal.ofBits_def, Ideal.ofBits_zero_f32, zero_add]
  rfl

/-- A head row of the keys, centred. -/
private theorem v15_at (x0 : (⟨S8x8192x256, .f32⟩ : BufTy).Contents (Elt Ideal)) (x1 : (⟨S1536x256, .f32⟩ : BufTy).Contents (Elt Ideal))
    (b h : Fin 8) (n : Fin 8192) (d : Fin 64) :
    Read.val_main_v15 (F := Ideal) x0 x1 (ix4 b h n d) = Read.val_main_v7 (F := Ideal) x0 x1 (ix4 b h n d) - Spec.mean64 (fun e' => Read.val_main_v7 (F := Ideal) x0 x1 (ix4 b h n e')) := by
  have eb : Read.idx_main_v14 (ix4 b h n d) = ix4 b h n (⟨0, Nat.one_pos⟩ : Fin 1) := by
    funext a; match a with | ⟨0, _⟩ => rfl | ⟨1, _⟩ => rfl | ⟨2, _⟩ => rfl | ⟨3, _⟩ => rfl
  rw [Read.val_main_v15_apply, Read.val_main_v14_apply, eb, v13_at]
  rfl

/-- The biased variance of a head row of the keys. -/
private theorem v20_at (x0 : (⟨S8x8192x256, .f32⟩ : BufTy).Contents (Elt Ideal)) (x1 : (⟨S1536x256, .f32⟩ : BufTy).Contents (Elt Ideal))
    (b h : Fin 8) (n : Fin 8192) (z : Fin 1) :
    Read.val_main_v20 (F := Ideal) x0 x1 (ix4 b h n z)
      = Ideal.div (∑ e' : Fin 64, (Read.val_main_v7 (F := Ideal) x0 x1 (ix4 b h n e') - Spec.mean64 (fun e' => Read.val_main_v7 (F := Ideal) x0 x1 (ix4 b h n e'))) * (Read.val_main_v7 (F := Ideal) x0 x1 (ix4 b h n e') - Spec.mean64 (fun e' => Read.val_main_v7 (F := Ideal) x0 x1 (ix4 b h n e')))) Spec.c64 := by
  have eb : Read.idx_main_v18 (ix4 b h n z) = ix3 b h n := by
    funext a; match a with | ⟨0, _⟩ => rfl | ⟨1, _⟩ => rfl | ⟨2, _⟩ => rfl
  have er : ∀ k : Fin 64, Read.idx_main_v17 (ix3 b h n) k = ix4 b h n k := by
    intro k; funext a; match a with | ⟨0, _⟩ => rfl | ⟨1, _⟩ => rfl | ⟨2, _⟩ => rfl | ⟨3, _⟩ => rfl
  rw [Read.val_main_v20_apply, Read.val_main_v18_apply, eb, Read.val_main_v17_apply, Read.val_main_v19_apply,
    Read.val_main_cst_1_apply, Read.val_main_cst_2_apply]
  simp only [er, Read.val_main_v16_apply, v15_at, Ideal.mulf_def, Ideal.hostDivf_def, Ideal.ofBits_def, Ideal.ofBits_zero_f32, zero_add]

/-- A head row of the keys, normalised. -/
private theorem v27_row (x0 : (⟨S8x8192x256, .f32⟩ : BufTy).Contents (Elt Ideal)) (x1 : (⟨S1536x256, .f32⟩ : BufTy).Contents (Elt Ideal))
    (b h : Fin 8) (n : Fin 8192) (d : Fin 64) :
    Read.val_main_v27 (F := Ideal) x0 x1 (ix4 b h n d) = Spec.inorm (fun e' => Read.val_main_v7 (F := Ideal) x0 x1 (ix4 b h n e')) d := by
  have e1 : Read.idx_main_v21 (ix4 b h n d) = ix4 b h n (⟨0, Nat.one_pos⟩ : Fin 1) := by
    funext a; match a with | ⟨0, _⟩ => rfl | ⟨1, _⟩ => rfl | ⟨2, _⟩ => rfl | ⟨3, _⟩ => rfl
  have e2 : Read.idx_main_v26 (ix4 b h n d) = ix4 b h n (⟨0, Nat.one_pos⟩ : Fin 1) := by
    funext a; match a with | ⟨0, _⟩ => rfl | ⟨1, _⟩ => rfl | ⟨2, _⟩ => rfl | ⟨3, _⟩ => rfl
  rw [Read.val_main_v27_apply, Read.val_main_v22_apply, Read.val_main_v21_apply, e1, v13_at,
    Read.val_main_v26_apply, e2, Read.val_main_v25_apply, Read.val_main_v24_apply, v20_at,
    Read.val_main_v23_apply, Read.val_main_cst_3_apply]
  simp only [Ideal.mulf_def, Ideal.subf_def, Ideal.addf_def, Ideal.hostUnary_rsqrt_def, Ideal.ofBits_def]
  rfl

/-- The normalised keys from the activations and the weights. -/
private theorem v27_at (x0 : (⟨S8x8192x256, .f32⟩ : BufTy).Contents (Elt Ideal)) (x1 : (⟨S1536x256, .f32⟩ : BufTy).Contents (Elt Ideal))
    (b h : Fin 8) (n : Fin 8192) (d : Fin 64) :
    Read.val_main_v27 (F := Ideal) x0 x1 (ix4 b h n d) = Spec.inorm (fun e' => Spec.projT x0 (Spec.wkA x1) b n (Spec.col h e')) d := by
  rw [v27_row]
  exact congrArg (fun t => Spec.inorm t d) (funext fun e' => v7_at x0 x1 b h n e')

/-- The mean of a head row of the values. -/
private theorem v31_at (x0 : (⟨S8x8192x256, .f32⟩ : BufTy).Contents (Elt Ideal)) (x1 : (⟨S1536x256, .f32⟩ : BufTy).Contents (Elt Ideal))
    (b h : Fin 8) (n : Fin 8192) (z : Fin 1) :
    Read.val_main_v31 (F := Ideal) x0 x1 (ix4 b h n z) = Spec.mean64 (fun e' => Read.val_main_v9 (F := Ideal) x0 x1 (ix4 b h n e')) := by
  have eb : Read.idx_main_v29 (ix4 b h n z) = ix3 b h n := by
    funext a; match a with | ⟨0, _⟩ => rfl | ⟨1, _⟩ => rfl | ⟨2, _⟩ => rfl
  have er : ∀ k : Fin 64, Read.idx_main_v28 (ix3 b h n) k = ix4 b h n k := by
    intro k; funext a; match a with | ⟨0, _⟩ => rfl | ⟨1, _⟩ => rfl | ⟨2, _⟩ => rfl | ⟨3, _⟩ => rfl
  rw [Read.val_main_v31_apply, Read.val_main_v29_apply, eb, Read.val_main_v28_apply, Read.val_main_v30_apply,
    Read.val_main_cst_4_apply, Read.val_main_cst_5_apply]
  simp only [er, Ideal.hostDivf_def, Ideal.ofBits_def, Ideal.ofBits_zero_f32, zero_add]
  rfl

/-- A head row of the values, centred. -/
private theorem v33_at (x0 : (⟨S8x8192x256, .f32⟩ : BufTy).Contents (Elt Ideal)) (x1 : (⟨S1536x256, .f32⟩ : BufTy).Contents (Elt Ideal))
    (b h : Fin 8) (n : Fin 8192) (d : Fin 64) :
    Read.val_main_v33 (F := Ideal) x0 x1 (ix4 b h n d) = Read.val_main_v9 (F := Ideal) x0 x1 (ix4 b h n d) - Spec.mean64 (fun e' => Read.val_main_v9 (F := Ideal) x0 x1 (ix4 b h n e')) := by
  have eb : Read.idx_main_v32 (ix4 b h n d) = ix4 b h n (⟨0, Nat.one_pos⟩ : Fin 1) := by
    funext a; match a with | ⟨0, _⟩ => rfl | ⟨1, _⟩ => rfl | ⟨2, _⟩ => rfl | ⟨3, _⟩ => rfl
  rw [Read.val_main_v33_apply, Read.val_main_v32_apply, eb, v31_at]
  rfl

/-- The biased variance of a head row of the values. -/
private theorem v38_at (x0 : (⟨S8x8192x256, .f32⟩ : BufTy).Contents (Elt Ideal)) (x1 : (⟨S1536x256, .f32⟩ : BufTy).Contents (Elt Ideal))
    (b h : Fin 8) (n : Fin 8192) (z : Fin 1) :
    Read.val_main_v38 (F := Ideal) x0 x1 (ix4 b h n z)
      = Ideal.div (∑ e' : Fin 64, (Read.val_main_v9 (F := Ideal) x0 x1 (ix4 b h n e') - Spec.mean64 (fun e' => Read.val_main_v9 (F := Ideal) x0 x1 (ix4 b h n e'))) * (Read.val_main_v9 (F := Ideal) x0 x1 (ix4 b h n e') - Spec.mean64 (fun e' => Read.val_main_v9 (F := Ideal) x0 x1 (ix4 b h n e')))) Spec.c64 := by
  have eb : Read.idx_main_v36 (ix4 b h n z) = ix3 b h n := by
    funext a; match a with | ⟨0, _⟩ => rfl | ⟨1, _⟩ => rfl | ⟨2, _⟩ => rfl
  have er : ∀ k : Fin 64, Read.idx_main_v35 (ix3 b h n) k = ix4 b h n k := by
    intro k; funext a; match a with | ⟨0, _⟩ => rfl | ⟨1, _⟩ => rfl | ⟨2, _⟩ => rfl | ⟨3, _⟩ => rfl
  rw [Read.val_main_v38_apply, Read.val_main_v36_apply, eb, Read.val_main_v35_apply, Read.val_main_v37_apply,
    Read.val_main_cst_6_apply, Read.val_main_cst_7_apply]
  simp only [er, Read.val_main_v34_apply, v33_at, Ideal.mulf_def, Ideal.hostDivf_def, Ideal.ofBits_def, Ideal.ofBits_zero_f32, zero_add]

/-- A head row of the values, normalised. -/
private theorem v45_row (x0 : (⟨S8x8192x256, .f32⟩ : BufTy).Contents (Elt Ideal)) (x1 : (⟨S1536x256, .f32⟩ : BufTy).Contents (Elt Ideal))
    (b h : Fin 8) (n : Fin 8192) (d : Fin 64) :
    Read.val_main_v45 (F := Ideal) x0 x1 (ix4 b h n d) = Spec.inorm (fun e' => Read.val_main_v9 (F := Ideal) x0 x1 (ix4 b h n e')) d := by
  have e1 : Read.idx_main_v39 (ix4 b h n d) = ix4 b h n (⟨0, Nat.one_pos⟩ : Fin 1) := by
    funext a; match a with | ⟨0, _⟩ => rfl | ⟨1, _⟩ => rfl | ⟨2, _⟩ => rfl | ⟨3, _⟩ => rfl
  have e2 : Read.idx_main_v44 (ix4 b h n d) = ix4 b h n (⟨0, Nat.one_pos⟩ : Fin 1) := by
    funext a; match a with | ⟨0, _⟩ => rfl | ⟨1, _⟩ => rfl | ⟨2, _⟩ => rfl | ⟨3, _⟩ => rfl
  rw [Read.val_main_v45_apply, Read.val_main_v40_apply, Read.val_main_v39_apply, e1, v31_at,
    Read.val_main_v44_apply, e2, Read.val_main_v43_apply, Read.val_main_v42_apply, v38_at,
    Read.val_main_v41_apply, Read.val_main_cst_8_apply]
  simp only [Ideal.mulf_def, Ideal.subf_def, Ideal.addf_def, Ideal.hostUnary_rsqrt_def, Ideal.ofBits_def]
  rfl

/-- The normalised values from the activations and the weights. -/
private theorem v45_at (x0 : (⟨S8x8192x256, .f32⟩ : BufTy).Contents (Elt Ideal)) (x1 : (⟨S1536x256, .f32⟩ : BufTy).Contents (Elt Ideal))
    (b h : Fin 8) (n : Fin 8192) (d : Fin 64) :
    Read.val_main_v45 (F := Ideal) x0 x1 (ix4 b h n d) = Spec.inorm (fun e' => Spec.projT x0 (Spec.wvA x1) b n (Spec.col h e')) d := by
  rw [v45_row]
  exact congrArg (fun t => Spec.inorm t d) (funext fun e' => v9_at x0 x1 b h n e')

/-- The accumulated products of normalised keys and values. -/
private theorem v46_at (x0 : (⟨S8x8192x256, .f32⟩ : BufTy).Contents (Elt Ideal)) (x1 : (⟨S1536x256, .f32⟩ : BufTy).Contents (Elt Ideal))
    (b h : Fin 8) (d e : Fin 64) :
    Read.val_main_v46 (F := Ideal) x0 x1 (ix4 b h d e) = Spec.dotsC x0 (Spec.wkA x1) (Spec.wvA x1) b h d e := by
  have el : ∀ n : Fin 8192, Read.lidx_main_v46 (ix4 b h d e) n = ix4 b h n d := by
    intro n; funext a; match a with | ⟨0, _⟩ => rfl | ⟨1, _⟩ => rfl | ⟨2, _⟩ => rfl | ⟨3, _⟩ => rfl
  have er : ∀ n : Fin 8192, Read.ridx_main_v46 (ix4 b h d e) n = ix4 b h n e := by
    intro n; funext a; match a with | ⟨0, _⟩ => rfl | ⟨1, _⟩ => rfl | ⟨2, _⟩ => rfl | ⟨3, _⟩ => rfl
  rw [Read.val_main_v46_apply]
  unfold Spec.dotsC
  refine Finset.sum_congr rfl fun n _ => ?_
  rw [el, er, v27_at, v45_at]

/-- Queries times the accumulated products. -/
private theorem v47_at (x0 : (⟨S8x8192x256, .f32⟩ : BufTy).Contents (Elt Ideal)) (x1 : (⟨S1536x256, .f32⟩ : BufTy).Contents (Elt Ideal))
    (b h : Fin 8) (n : Fin 8192) (e : Fin 64) :
    Read.val_main_v47 (F := Ideal) x0 x1 (ix4 b h n e)
      = Spec.attC x0 (Spec.wqA x1) (Spec.dotsA x0 (Spec.wkA x1) (Spec.wvA x1)) b n h e := by
  have el : ∀ k : Fin 64, Read.lidx_main_v47 (ix4 b h n e) k = ix4 b h n k := by
    intro k; funext a; match a with | ⟨0, _⟩ => rfl | ⟨1, _⟩ => rfl | ⟨2, _⟩ => rfl | ⟨3, _⟩ => rfl
  have er : ∀ k : Fin 64, Read.ridx_main_v47 (ix4 b h n e) k = ix4 b h k e := by
    intro k; funext a; match a with | ⟨0, _⟩ => rfl | ⟨1, _⟩ => rfl | ⟨2, _⟩ => rfl | ⟨3, _⟩ => rfl
  rw [Read.val_main_v47_apply]
  unfold Spec.attC
  refine Finset.sum_congr rfl fun k _ => ?_
  rw [el, er, v5_at, v46_at]
  rfl

/-- The division by the sequence length. -/
private theorem v49_at (x0 : (⟨S8x8192x256, .f32⟩ : BufTy).Contents (Elt Ideal)) (x1 : (⟨S1536x256, .f32⟩ : BufTy).Contents (Elt Ideal))
    (b h : Fin 8) (n : Fin 8192) (e : Fin 64) :
    Read.val_main_v49 (F := Ideal) x0 x1 (ix4 b h n e)
      = Ideal.div (Spec.attC x0 (Spec.wqA x1) (Spec.dotsA x0 (Spec.wkA x1) (Spec.wvA x1)) b n h e) Spec.cN := by
  rw [Read.val_main_v49_apply, v47_at, Read.val_main_v48_apply, Read.val_main_cst_9_apply]
  rfl

/-- The reshape [8, 8192, 8, 64] → [8, 8192, 512] reads head `j / 64`, entry `j % 64`. -/
private theorem idx51_at (b : Fin 8) (n : Fin 8192) (j : Fin 512) :
    Read.idx_main_v51 (ix3 b n j) = ix4 b n (Spec.headOf j) (Spec.entOf j) := by
  have hb := b.isLt; have hn := n.isLt; have hj := j.isLt
  funext a
  match a with
  | ⟨0, _⟩ => apply Fin.ext; show ((b.val * 8192 + n.val) * 512 + j.val) / 4194304 = b.val; omega
  | ⟨1, _⟩ => apply Fin.ext; show ((b.val * 8192 + n.val) * 512 + j.val) / 512 % 8192 = n.val; omega
  | ⟨2, _⟩ => apply Fin.ext; show ((b.val * 8192 + n.val) * 512 + j.val) / 64 % 8 = j.val / 64; omega
  | ⟨3, _⟩ => apply Fin.ext; show ((b.val * 8192 + n.val) * 512 + j.val) % 64 = j.val % 64; omega

/-- Back to 512 columns laid side by side. -/
private theorem v51_at (x0 : (⟨S8x8192x256, .f32⟩ : BufTy).Contents (Elt Ideal)) (x1 : (⟨S1536x256, .f32⟩ : BufTy).Contents (Elt Ideal))
    (b : Fin 8) (n : Fin 8192) (j : Fin 512) :
    Read.val_main_v51 (F := Ideal) x0 x1 (ix3 b n j)
      = Ideal.div (Spec.attJ x0 (Spec.wqA x1) (Spec.dotsA x0 (Spec.wkA x1) (Spec.wvA x1)) b n j) Spec.cN := by
  have e50 : Read.idx_main_v50 (ix4 b n (Spec.headOf j) (Spec.entOf j)) = ix4 b (Spec.headOf j) n (Spec.entOf j) := by
    funext a; match a with | ⟨0, _⟩ => rfl | ⟨1, _⟩ => rfl | ⟨2, _⟩ => rfl | ⟨3, _⟩ => rfl
  rw [Read.val_main_v51_apply, idx51_at, Read.val_main_v50_apply, e50, v49_at]
  rfl

/-- The output projection. -/
private theorem v52_at (x0 : (⟨S8x8192x256, .f32⟩ : BufTy).Contents (Elt Ideal)) (x1 : (⟨S1536x256, .f32⟩ : BufTy).Contents (Elt Ideal)) (x2 : (⟨S256x512, .f32⟩ : BufTy).Contents (Elt Ideal))
    (b : Fin 8) (n : Fin 8192) (c : Fin 256) :
    Read.val_main_v52 (F := Ideal) x0 x1 x2 (ix3 b n c)
      = ∑ j : Fin 512, Ideal.div (Spec.attJ x0 (Spec.wqA x1) (Spec.dotsA x0 (Spec.wkA x1) (Spec.wvA x1)) b n j) Spec.cN
          * Spec.woA x2 (ix2 j c) := by
  have el : ∀ k : Fin 512, Read.lidx_main_v52 (ix3 b n c) k = ix3 b n k := by
    intro k; funext a; match a with | ⟨0, _⟩ => rfl | ⟨1, _⟩ => rfl | ⟨2, _⟩ => rfl
  have er : ∀ k : Fin 512, Read.ridx_main_v52 (ix3 b n c) k = ix2 c k := by
    intro k; funext a; match a with | ⟨0, _⟩ => rfl | ⟨1, _⟩ => rfl
  rw [Read.val_main_v52_apply]
  refine Finset.sum_congr rfl fun k _ => ?_
  rw [el, er, v51_at]
  rfl

/-- The bias, broadcast along the batch and the sequence. -/
private theorem v54_at (x3 : (⟨S256, .f32⟩ : BufTy).Contents (Elt Ideal)) (b : Fin 8) (n : Fin 8192) (c : Fin 256) :
    Read.val_main_v54 (F := Ideal) x3 (ix3 b n c) = x3 (ix1 c) := by
  have e : Read.idx_main_v53 (Read.idx_main_v54 (ix3 b n c)) = ix1 c := by
    funext a; match a with | ⟨0, _⟩ => rfl
  rw [Read.val_main_v54_apply, Read.val_main_v53_apply, e]

/-- The reference's last stage, as a function of the four argument arrays, is the specification's reference
    arrangement. -/
theorem ref_value (x0 : (⟨S8x8192x256, .f32⟩ : BufTy).Contents (Elt Ideal)) (x1 : (⟨S1536x256, .f32⟩ : BufTy).Contents (Elt Ideal))
    (x2 : (⟨S256x512, .f32⟩ : BufTy).Contents (Elt Ideal)) (x3 : (⟨S256, .f32⟩ : BufTy).Contents (Elt Ideal)) :
    Cert.ReferenceIdeal.Read.val_main_v55 (F := Ideal) x0 x1 x2 x3 = Cert.Spec.referenceOut x0 x1 x2 x3 := by
  funext i
  obtain ⟨b, n, c, rfl⟩ : ∃ (b : Fin 8) (n : Fin 8192) (c : Fin 256), i = ix3 b n c := ⟨i 0, i 1, i 2, eq_ix3 i⟩
  rw [Read.val_main_v55_apply, v52_at, v54_at]
  rfl

end Cert.ReferenceIdeal.RefValue

end
-- ==== Proof.lean ====
/-
  The certificate of a linear attention with per-head instance normalisation: a two-kernel program (keys and values
  projected, normalised and multiplied tile by tile into an accumulated [8, 8, 64, 64] array; then queries projected,
  multiplied into that array per head, projected out, divided by the sequence length 8192, biased) against the plain
  reference that does the same with whole-array operations and divides before the output projection.

  Frames. Both readings of the kernel program (at the machine words and at the extended reals) are one text, so one frame
  argument, generic in the float instance, serves both: each kernel region is a pipeline with proof data — the first
  carries its accumulator from grid point to grid point in the region invariant — and the launch theorem for a list of
  segments gives termination, no fault, and every unscoped buffer at a named final contents; the argument arrays are
  read back through the fold to their launch contents. The reference is a host program: its run is read back operation by
  operation.

  Value. At the extended reals the result array of the kernel program is, index by index, the specification's kernel
  arrangement of the four argument arrays (one grid point's payload read at an index, the accumulator summed over a batch
  row's eight tiles, the written-back blocks covering the arrays), the reference's last stage is the specification's
  reference arrangement, and the two arrangements agree on all extended reals: dividing by the real 8192 is multiplying
  by the non-negative real 1/8192, which commutes with products and distributes over finite sums. The precondition (finite
  inputs) is never opened.
-/
import proofs.«176983_j50680614093003_1_alg».proof.Defs
import proofs.«176983_j50680614093003_1_alg».proof.Proof.Gen.Kernel
import proofs.«176983_j50680614093003_1_alg».proof.Proof.Gen.KernelIdeal
import proofs.«176983_j50680614093003_1_alg».proof.Proof.Gen.ReferenceIdeal
import proofs.«176983_j50680614093003_1_alg».proof.Proof.Gen.Pre_finite_inputs
import proofs.«176983_j50680614093003_1_alg».proof.Proof.KBMain
import proofs.«176983_j50680614093003_1_alg».proof.Proof.Glue
import proofs.«176983_j50680614093003_1_alg».proof.Proof.RefValue

noncomputable section

namespace Cert.Proof

open Idealize.ShloMosaic Idealize.ShloMosaic.TcCoe Idealize.SL.Sem

/-- The word-level program runs and keeps its arguments. -/
theorem frame_k [Cert.Kernel.Facts] [Cert.Pre_finite_inputs.Facts] : Cert.frame_Kernel :=
  fun m ρ _ => Cert.Kernel.Fr.frame (F := Bits) m ρ

/-- The idealized program runs and keeps its arguments. -/
theorem frame_ki [Cert.KernelIdeal.Facts] [Cert.Pre_finite_inputs.Facts] : Cert.frame_KernelIdeal :=
  fun m ρ _ => Cert.KernelIdeal.Fr.frame (F := Ideal) m ρ

/-- The reference runs and keeps its arguments: its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- The two programs end with equal results: both are the specification, in two arrangements that agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Spec.kernelOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Fr.kernel_value m ρ c), (h c).2⟩)
      (Cert.KernelIdeal.Fr.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v55_eq, Cert.ReferenceIdeal.RefValue.ref_value,
      (hagree c).1, (hagree c).2.1, (hagree c).2.2.1, (hagree c).2.2.2]
    exact (Cert.Spec.kernelOut_eq_referenceOut _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
